-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x128 : Shape := ⟨3, ![64, 2048, 128]⟩
abbrev S64 : Shape := ⟨1, ![64]⟩
abbrev S64x128 : Shape := ⟨2, ![64, 128]⟩
abbrev S1000x128x128 : Shape := ⟨3, ![1000, 128, 128]⟩
abbrev S_ : Shape := ⟨0, ![]⟩

class Facts : Prop where
  bcast_S_S64x2048x128 : S_.BroadcastsInDim S64x2048x128 (![] : Fin 0 → Fin S64x2048x128.rank)
  reducesTo_S64x2048x128_S_d0_1_2 : S64x2048x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S1000x128x128 : S_.BroadcastsInDim S1000x128x128 (![] : Fin 0 → Fin S1000x128x128.rank)
  reducesTo_S1000x128x128_S_d0_1_2 : S1000x128x128.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg2 : IVec S64 32) (main_arg3 : IVec S64 32) (main_v13 : IVec S_ 1) (main_v16 : IVec S1000x128x128 1) : IVec S_ 1 :=
  let main_c_5 : IVec S_ 1 := constantI S_ 1 1#1
  let main_v17 : IVec S_ 1 := (fun x v => Host.reduce IntOp.andi x v reducesTo_S1000x128x128_S_d0_1_2 h_S_) main_v16 main_c_5
  let main_v18 : IVec S_ 1 := andi main_v13 main_v17
  let main_c_6 : IVec S_ 32 := constantI S_ 32 0#32
  let main_v19 : IVec S64 32 := broadcastInDim S64 ![] bcast_S_S64 main_c_6
  let main_v20 : IVec S64 1 := cmpi .sge main_arg2 main_v19
  let main_c_7 : IVec S_ 32 := constantI S_ 32 1918#32
  let main_v21 : IVec S64 32 := broadcastInDim S64 ![] bcast_S_S64 main_c_7
  let main_v22 : IVec S64 1 := cmpi .sle main_arg2 main_v21
  let main_v23 : IVec S64 1 := andi main_v20 main_v22
  let main_c_8 : IVec S_ 1 := constantI S_ 1 1#1
  let main_v24 : IVec S_ 1 := (fun x v => Host.reduce IntOp.andi x v reducesTo_S64_S_d0 h_S_) main_v23 main_c_8
  let main_v25 : IVec S_ 1 := andi main_v18 main_v24
  let main_c_9 : IVec S_ 32 := constantI S_ 32 0#32
  let main_v26 : IVec S64 32 := broadcastInDim S64 ![] bcast_S_S64 main_c_9
  let main_v27 : IVec S64 1 := cmpi .sge main_arg3 main_v26
  let main_c_10 : IVec S_ 32 := constantI S_ 32 1000#32
  let main_v28 : IVec S64 32 := broadcastInDim S64 ![] bcast_S_S64 main_c_10
  let main_v29 : IVec S64 1 := cmpi .slt main_arg3 main_v28
  let main_v30 : IVec S64 1 := andi main_v27 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v25 main_v31
  main_v32

def fn {F : FTy → Type} [FloatOps F] (main_arg0 : FVec F S64x2048x128 .f32) (main_arg1 : FVec F S64x2048x128 .f32) (main_arg2 : IVec S64 32) (main_arg3 : IVec S64 32) (main_arg4 : FVec F S64x128 .f32) (main_arg5 : FVec F S1000x128x128 .f32) : IVec S_ 1 :=
  let main_v0 : FVec F S64x2048x128 .f32 := Host.absf main_arg0
  let main_cst : FVec F S_ .f32 := constant S_ .f32 0x7F800000#32
  let main_v1 : FVec F S64x2048x128 .f32 := broadcastInDim S64x2048x128 ![] bcast_S_S64x2048x128 main_cst
  let main_v2 : IVec S64x2048x128 1 := cmpf .olt main_v0 main_v1
  let main_c : IVec S_ 1 := constantI S_ 1 1#1
  let main_v3 : IVec S_ 1 := (fun x v => Host.reduce IntOp.andi x v reducesTo_S64x2048x128_S_d0_1_2 h_S_) main_v2 main_c
  let main_v4 : FVec F S64x2048x128 .f32 := Host.absf main_arg1
  let main_cst_0 : FVec F S_ .f32 := constant S_ .f32 0x7F800000#32
  let main_v5 : FVec F S64x2048x128 .f32 := broadcastInDim S64x2048x128 ![] bcast_S_S64x2048x128 main_cst_0
  let main_v6 : IVec S64x2048x128 1 := cmpf .olt main_v4 main_v5
  let main_c_1 : IVec S_ 1 := constantI S_ 1 1#1
  let main_v7 : IVec S_ 1 := (fun x v => Host.reduce IntOp.andi x v reducesTo_S64x2048x128_S_d0_1_2 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S1000x128x128 .f32 := Host.absf main_arg5
  let main_cst_4 : FVec F S_ .f32 := constant S_ .f32 0x7F800000#32
  let main_v15 : FVec F S1000x128x128 .f32 := broadcastInDim S1000x128x128 ![] bcast_S_S1000x128x128 main_cst_4
  let main_v16 : IVec S1000x128x128 1 := cmpf .olt main_v14 main_v15
  fn_part1 (F := F) main_arg2 main_arg3 main_v13 main_v16
-- ==== Kernel.lean ====
abbrev S64x2048x128 : Shape := ⟨3, ![64, 2048, 128]⟩
abbrev S64 : Shape := ⟨1, ![64]⟩
abbrev S64x128 : Shape := ⟨2, ![64, 128]⟩
abbrev S1000x128x128 : Shape := ⟨3, ![1000, 128, 128]⟩
abbrev S64x2049x128 : Shape := ⟨3, ![64, 2049, 128]⟩
abbrev S1x2048x128 : Shape := ⟨3, ![1, 2048, 128]⟩
abbrev S1x128x128 : Shape := ⟨3, ![1, 128, 128]⟩
abbrev S1 : Shape := ⟨1, ![1]⟩
abbrev S1x2049x128 : Shape := ⟨3, ![1, 2049, 128]⟩
abbrev S1x128 : Shape := ⟨2, ![1, 128]⟩
abbrev S1x1x128 : Shape := ⟨3, ![1, 1, 128]⟩
abbrev S2048x128 : Shape := ⟨2, ![2048, 128]⟩
abbrev S128x128 : Shape := ⟨2, ![128, 128]⟩

abbrev nBuf : Space → Nat
  | .hbm => 6
  | .vmem => 11
  | .smem => 2
  | _ => 0

abbrev bufTy : (tb : Table) → Fin (tcTables nBuf tb) → BufTy
  | .hbm, ⟨0, _⟩ => ⟨S64x2048x128, .f32⟩
  | .hbm, ⟨1, _⟩ => ⟨S64x2048x128, .f32⟩
  | .hbm, ⟨2, _⟩ => ⟨S64x128, .f32⟩
  | .hbm, ⟨3, _⟩ => ⟨S1000x128x128, .f32⟩
  | .hbm, ⟨4, _⟩ => ⟨S64x2049x128, .f32⟩
  | .hbm, ⟨5, _⟩ => ⟨S64x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S64x128, .f32⟩
  | .local _ .vmem, ⟨5, _⟩ => ⟨S1x128x128, .f32⟩
  | .local _ .vmem, ⟨6, _⟩ => ⟨S1x128x128, .f32⟩
  | .local _ .vmem, ⟨7, _⟩ => ⟨S1x2049x128, .f32⟩
  | .local _ .vmem, ⟨8, _⟩ => ⟨S1x2049x128, .f32⟩
  | .local _ .vmem, ⟨9, _⟩ => ⟨S1x2048x128, .f32⟩
  | .local _ .vmem, ⟨10, _⟩ => ⟨S1x2048x128, .f32⟩
  | .local _ .smem, ⟨0, _⟩ => ⟨S64, .i32⟩
  | .local _ .smem, ⟨1, _⟩ => ⟨S64, .i32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_v0_0 : Ref sig .tc := ⟨.hbm, 4, rfl⟩
abbrev main_v0_1 : Ref sig .tc := ⟨.hbm, 5, rfl⟩
abbrev main_arg3 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg3.idx, main_arg2.idx], fun | 0 => main_arg3.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v2 : Index := Scalar.indexCast arg0
  let c0 : Index := 0#32
  ![v2.toNat, 0]
def k0_off3 (v1 : BitVec 32) : Fin 3 → Nat :=
  let c0_8 : Index := 0#32
  let c1_i32 : BitVec 32 := 1#32
  let v12 : BitVec 32 := Scalar.addi v1 c1_i32
  let v13 : Index := Scalar.indexCast v12
  let c0_9 : Index := 0#32
  ![0, v13.toNat, 0]

def k0_off4 (v1 : BitVec 32) : Fin 3 → Nat :=
  let c0_13 : Index := 0#32
  let c2_i32 : BitVec 32 := 2#32
  let v19 : BitVec 32 := Scalar.addi v1 c2_i32
  let v20 : Index := Scalar.indexCast v19
  let c0_14 : Index := 0#32
  ![0, v20.toNat, 0]
def k0_off5 (v1 : BitVec 32) : Fin 3 → Nat :=
  let c0_21 : Index := 0#32
  let v29 : Index := Scalar.indexCast v1
  let c0_22 : Index := 0#32
  ![0, v29.toNat, 0]
def k0_off6 (v1 : BitVec 32) : Fin 3 → Nat :=
  let c0_27 : Index := 0#32
  let c1_i32_26 : BitVec 32 := 1#32
  let v35 : BitVec 32 := Scalar.addi v1 c1_i32_26
  let v36 : Index := Scalar.indexCast v35
  let c0_28 : Index := 0#32
  ![0, v36.toNat, 0]
def k0_off7 (v1 : BitVec 32) : Fin 3 → Nat :=
  let c0_30 : Index := 0#32
  let c1_i32_29 : BitVec 32 := 1#32
  let v40 : BitVec 32 := Scalar.addi v1 c1_i32_29
  let c128_i32 : BitVec 32 := 128#32
  let v41 : BitVec 32 := Scalar.addi v40 c128_i32
  let v42 : Index := Scalar.indexCast v41
  let c0_31 : Index := 0#32
  ![0, v42.toNat, 0]

def k0_chk1 (v1 : BitVec 32) : Prop :=
  (∀ a, (k0_off3 v1) a + S1x1x128.size a ≤ S1x2049x128.size a) ∧
  (∀ a, (k0_off4 v1) a + S1x128x128.size a ≤ S1x2049x128.size a) ∧
  (∀ a, (k0_off5 v1) a + S1x1x128.size a ≤ S1x2048x128.size a) ∧
  (∀ a, (k0_off6 v1) a + S1x128x128.size a ≤ S1x2048x128.size a) ∧
  (∀ a, (k0_off7 v1) a + S1x1x128.size a ≤ S1x2048x128.size a)
instance k0_chk1.dec : ∀ (v1 : BitVec 32), Decidable (k0_chk1 v1) := fun v1 => decidable_of_iff' _ (Iff.of_eq (k0_chk1.eq_1 v1))
theorem k0_off3_inb : ∀ (v1 : BitVec 32) (k0_hw1 : k0_chk1 v1), ∀ a, (k0_off3 v1) a + S1x1x128.size a ≤ S1x2049x128.size a := fun v1 k0_hw1 => k0_hw1.1
theorem k0_off4_inb : ∀ (v1 : BitVec 32) (k0_hw1 : k0_chk1 v1), ∀ a, (k0_off4 v1) a + S1x128x128.size a ≤ S1x2049x128.size a := fun v1 k0_hw1 => k0_hw1.2.1
theorem k0_off5_inb : ∀ (v1 : BitVec 32) (k0_hw1 : k0_chk1 v1), ∀ a, (k0_off5 v1) a + S1x1x128.size a ≤ S1x2048x128.size a := fun v1 k0_hw1 => k0_hw1.2.2.1
theorem k0_off6_inb : ∀ (v1 : BitVec 32) (k0_hw1 : k0_chk1 v1), ∀ a, (k0_off6 v1) a + S1x128x128.size a ≤ S1x2048x128.size a := fun v1 k0_hw1 => k0_hw1.2.2.2.1
theorem k0_off7_inb : ∀ (v1 : BitVec 32) (k0_hw1 : k0_chk1 v1), ∀ a, (k0_off7 v1) a + S1x1x128.size a ≤ S1x2048x128.size a := fun v1 k0_hw1 => k0_hw1.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2049x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  numel1_S1 : S1.numel = 1
  h_S1x128 : 0 < S1x128.numel
  inb_S1x2049x128_S1x1x128_0_0_0 : ∀ a, (![0, 0, 0] : Fin 3 → Nat) a + S1x1x128.size a ≤ S1x2049x128.size a
  h_S1x1x128 : 0 < S1x1x128.numel
  shapeCasts_S1x1x128_S1x128 : S1x1x128.ShapeCasts S1x128
  shapeCasts_S1x128_S1x1x128 : S1x128.ShapeCasts S1x1x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x2049x128_S1x2048x128_0_1_0 : ∀ a, (![0, 1, 0] : Fin 3 → Nat) a + S1x2048x128.size a ≤ S1x2049x128.size a
  shapeCasts_S2048x128_S1x2048x128 : S2048x128.ShapeCasts S1x2048x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  hrank0 : 0 < grid0.rank
  k0_off1_inb : ∀ i : grid0.Coords, ∀ a, (k0_off1 i) a + S1.size a ≤ S64.size a
  k0_off2_inb : ∀ i : grid0.Coords, ∀ a, (k0_off2 i) a + S1x128.size a ≤ S64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S64x2048x128.size a
  hwx0_0 : ∀ i : grid0.Coords, EltTy.bits .f32 = 32 ∨ (Rect.block (s := S64x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S64x2048x128.size a
  hwx0_1 : ∀ i : grid0.Coords, EltTy.bits .f32 = 32 ∨ (Rect.block (s := S64x2048x128) S1x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2049x128.size a ≤ S64x2049x128.size a
  hwx0_4 : ∀ i : grid0.Coords, EltTy.bits .f32 = 32 ∨ (Rect.block (s := S64x2049x128) S1x2049x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x128.size a ≤ S64x2048x128.size a
  hwx0_5 : ∀ i : grid0.Coords, EltTy.bits .f32 = 32 ∨ (Rect.block (s := S64x2048x128) S1x2048x128.size (cc0_transform_5 i) (hinb0_5 i)).WholeWords (EltTy.packing .f32)

variable [Facts₀]

abbrev spec0_0 : Pipeline.WinSpec sig grid0.rank :=
  Pipeline.WinSpec.ofSpec (Memref.whole main_arg0) S1x2048x128.size reads0_0 false false 2 stage0_0 sem0_0 nbuf0_0 hstage0_0

abbrev spec0_1 : Pipeline.WinSpec sig grid0.rank :=
  Pipeline.WinSpec.ofSpec (Memref.whole main_arg1) S1x2048x128.size reads0_1 false false 2 stage0_1 sem0_1 nbuf0_1 hstage0_1

abbrev spec0_2 : Pipeline.WinSpec sig grid0.rank :=
  Pipeline.WinSpec.ofSpec (Memref.whole main_arg4) S64x128.size reads0_2 false true 1 stage0_2 sem0_2 nbuf0_2 hstage0_2

abbrev spec0_3 : Pipeline.WinSpec sig grid0.rank :=
  Pipeline.WinSpec.ofSpec (Memref.whole main_arg5) S1x128x128.size reads0_3 false false 2 stage0_3 sem0_3 nbuf0_3 hstage0_3

abbrev spec0_4 : Pipeline.WinSpec sig grid0.rank :=
  Pipeline.WinSpec.ofSpec (Memref.whole main_v0_0) S1x2049x128.size reads0_4 true false 2 stage0_4 sem0_4 nbuf0_4 hstage0_4

abbrev spec0_5 : Pipeline.WinSpec sig grid0.rank :=
  Pipeline.WinSpec.ofSpec (Memref.whole main_v0_1) S1x2048x128.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 k0_off1_inb numel1_S1 pf | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x128x128.size a ≤ S1000x128x128.size a), EltTy.bits .f32 = 32 ∨ (Rect.block (s := S1000x128x128) S1x128x128.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok i).elim fun h _ => h a | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok i).elim fun _ h => h | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S64x2048x128 : Shape := ⟨3, ![64, 2048, 128]⟩
abbrev S64 : Shape := ⟨1, ![64]⟩
abbrev S64x128 : Shape := ⟨2, ![64, 128]⟩
abbrev S1000x128x128 : Shape := ⟨3, ![1000, 128, 128]⟩
abbrev S_ : Shape := ⟨0, ![]⟩
abbrev S64x1 : Shape := ⟨2, ![64, 1]⟩
abbrev S64x128x128 : Shape := ⟨3, ![64, 128, 128]⟩
abbrev S129 : Shape := ⟨1, ![129]⟩
abbrev S1x129 : Shape := ⟨2, ![1, 129]⟩
abbrev S64x129 : Shape := ⟨2, ![64, 129]⟩
abbrev S64x1x128 : Shape := ⟨3, ![64, 1, 128]⟩
abbrev S64x129x128 : Shape := ⟨3, ![64, 129, 128]⟩
abbrev S64x129x1 : Shape := ⟨3, ![64, 129, 1]⟩
abbrev S64x129x2 : Shape := ⟨3, ![64, 129, 2]⟩
abbrev S130 : Shape := ⟨1, ![130]⟩
abbrev S1x130 : Shape := ⟨2, ![1, 130]⟩
abbrev S64x130 : Shape := ⟨2, ![64, 130]⟩
abbrev S64x130x128 : Shape := ⟨3, ![64, 130, 128]⟩
abbrev S64x130x1 : Shape := ⟨3, ![64, 130, 1]⟩
abbrev S64x130x2 : Shape := ⟨3, ![64, 130, 2]⟩
abbrev S64x2049x128 : Shape := ⟨3, ![64, 2049, 128]⟩

abbrev nBuf : Space → Nat
  | .hbm => 74
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S64x2048x128, .f32⟩
  | .hbm, ⟨2, _⟩ => ⟨S64, .i32⟩
  | .hbm, ⟨3, _⟩ => ⟨S64, .i32⟩
  | .hbm, ⟨4, _⟩ => ⟨S64x128, .f32⟩
  | .hbm, ⟨5, _⟩ => ⟨S1000x128x128, .f32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x128x128, .f32⟩
  | .hbm, ⟨15, _⟩ => ⟨S64, .i32⟩
  | .hbm, ⟨16, _⟩ => ⟨S64x1, .i32⟩
  | .hbm, ⟨17, _⟩ => ⟨S64x1, .i32⟩
  | .hbm, ⟨18, _⟩ => ⟨S129, .i32⟩
  | .hbm, ⟨19, _⟩ => ⟨S1x129, .i32⟩
  | .hbm, ⟨20, _⟩ => ⟨S64x129, .i32⟩
  | .hbm, ⟨21, _⟩ => ⟨S64x129, .i32⟩
  | .hbm, ⟨22, _⟩ => ⟨S64x129, .i32⟩
  | .hbm, ⟨23, _⟩ => ⟨S64x1x128, .f32⟩
  | .hbm, ⟨24, _⟩ => ⟨S64x129x128, .f32⟩
  | .hbm, ⟨25, _⟩ => ⟨S_, .i32⟩
  | .hbm, ⟨26, _⟩ => ⟨S64x1, .i32⟩
  | .hbm, ⟨27, _⟩ => ⟨S64x1, .i1⟩
  | .hbm, ⟨28, _⟩ => ⟨S_, .i32⟩
  | .hbm, ⟨29, _⟩ => ⟨S64x1, .i32⟩
  | .hbm, ⟨30, _⟩ => ⟨S64x1, .i32⟩
  | .hbm, ⟨31, _⟩ => ⟨S64x1, .i32⟩
  | .hbm, ⟨32, _⟩ => ⟨S_, .i32⟩
  | .hbm, ⟨33, _⟩ => ⟨S64x129, .i32⟩
  | .hbm, ⟨34, _⟩ => ⟨S64x129, .i1⟩
  | .hbm, ⟨35, _⟩ => ⟨S_, .i32⟩
  | .hbm, ⟨36, _⟩ => ⟨S64x129, .i32⟩
  | .hbm, ⟨37, _⟩ => ⟨S64x129, .i32⟩
  | .hbm, ⟨38, _⟩ => ⟨S64x129, .i32⟩
  | .hbm, ⟨39, _⟩ => ⟨S64x129, .i32⟩
  | .hbm, ⟨40, _⟩ => ⟨S64x129x1, .i32⟩
  | .hbm, ⟨41, _⟩ => ⟨S64x129x1, .i32⟩
  | .hbm, ⟨42, _⟩ => ⟨S64x129x2, .i32⟩
  | .hbm, ⟨43, _⟩ => ⟨S64x2048x128, .f32⟩
  | .hbm, ⟨44, _⟩ => ⟨S64x1, .i32⟩
  | .hbm, ⟨45, _⟩ => ⟨S130, .i32⟩
  | .hbm, ⟨46, _⟩ => ⟨S1x130, .i32⟩
  | .hbm, ⟨47, _⟩ => ⟨S64x130, .i32⟩
  | .hbm, ⟨48, _⟩ => ⟨S64x130, .i32⟩
  | .hbm, ⟨49, _⟩ => ⟨S64x130, .i32⟩
  | .hbm, ⟨50, _⟩ => ⟨S64x1x128, .f32⟩
  | .hbm, ⟨51, _⟩ => ⟨S64x1x128, .f32⟩
  | .hbm, ⟨52, _⟩ => ⟨S64x130x128, .f32⟩
  | .hbm, ⟨53, _⟩ => ⟨S_, .i32⟩
  | .hbm, ⟨54, _⟩ => ⟨S64x1, .i32⟩
  | .hbm, ⟨55, _⟩ => ⟨S64x1, .i1⟩
  | .hbm, ⟨56, _⟩ => ⟨S_, .i32⟩
  | .hbm, ⟨57, _⟩ => ⟨S64x1, .i32⟩
  | .hbm, ⟨58, _⟩ => ⟨S64x1, .i32⟩
  | .hbm, ⟨59, _⟩ => ⟨S64x1, .i32⟩
  | .hbm, ⟨60, _⟩ => ⟨S_, .i32⟩
  | .hbm, ⟨61, _⟩ => ⟨S64x130, .i32⟩
  | .hbm, ⟨62, _⟩ => ⟨S64x130, .i1⟩
  | .hbm, ⟨63, _⟩ => ⟨S_, .i32⟩
  | .hbm, ⟨64, _⟩ => ⟨S64x130, .i32⟩
  | .hbm, ⟨65, _⟩ => ⟨S64x130, .i32⟩
  | .hbm, ⟨66, _⟩ => ⟨S64x130, .i32⟩
  | .hbm, ⟨67, _⟩ => ⟨S64x130, .i32⟩
  | .hbm, ⟨68, _⟩ => ⟨S64x130x1, .i32⟩
  | .hbm, ⟨69, _⟩ => ⟨S64x130x1, .i32⟩
  | .hbm, ⟨70, _⟩ => ⟨S64x130x2, .i32⟩
  | .hbm, ⟨71, _⟩ => ⟨S64x2048x128, .f32⟩
  | .hbm, ⟨72, _⟩ => ⟨S64x1x128, .f32⟩
  | .hbm, ⟨73, _⟩ => ⟨S64x2049x128, .f32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S129_S1x129_1 : S129.BroadcastsInDim S1x129 (![1] : Fin 1 → Fin S1x129.rank)
  bcast_S64x1_S64x129_0_1 : S64x1.BroadcastsInDim S64x129 (![0, 1] : Fin 2 → Fin S64x129.rank)
  bcast_S1x129_S64x129_0_1 : S1x129.BroadcastsInDim S64x129 (![0, 1] : Fin 2 → Fin S64x129.rank)
  bcast_S64x128_S64x1x128_0_2 : S64x128.BroadcastsInDim S64x1x128 (![0, 2] : Fin 2 → Fin S64x1x128.rank)
  concatenates_S64x1x128_S64x128x128_S64x129x128_d1 : Shape.Concatenates [S64x1x128, S64x128x128] S64x129x128 1
  bcast_S_S64x1 : S_.BroadcastsInDim S64x1 (![] : Fin 0 → Fin S64x1.rank)
  bcast_S_S64x129 : S_.BroadcastsInDim S64x129 (![] : Fin 0 → Fin S64x129.rank)
  bcast_S64x129_S64x129x1_0_1 : S64x129.BroadcastsInDim S64x129x1 (![0, 1] : Fin 2 → Fin S64x129x1.rank)
  concatenates_S64x129x1_S64x129x1_S64x129x2_d2 : Shape.Concatenates [S64x129x1, S64x129x1] S64x129x2 2
  bcast_S130_S1x130_1 : S130.BroadcastsInDim S1x130 (![1] : Fin 1 → Fin S1x130.rank)
  bcast_S64x1_S64x130_0_1 : S64x1.BroadcastsInDim S64x130 (![0, 1] : Fin 2 → Fin S64x130.rank)
  bcast_S1x130_S64x130_0_1 : S1x130.BroadcastsInDim S64x130 (![0, 1] : Fin 2 → Fin S64x130.rank)
  concatenates_S64x1x128_S64x128x128_S64x1x128_S64x130x128_d1 : Shape.Concatenates [S64x1x128, S64x128x128, S64x1x128] S64x130x128 1
  bcast_S_S64x130 : S_.BroadcastsInDim S64x130 (![] : Fin 0 → Fin S64x130.rank)
  bcast_S64x130_S64x130x1_0_1 : S64x130.BroadcastsInDim S64x130x1 (![0, 1] : Fin 2 → Fin S64x130x1.rank)
  concatenates_S64x130x1_S64x130x1_S64x130x2_d2 : Shape.Concatenates [S64x130x1, S64x130x1] S64x130x2 2
  concatenates_S64x1x128_S64x2048x128_S64x2049x128_d1 : Shape.Concatenates [S64x1x128, S64x2048x128] S64x2049x128 1
  gather_S1000x128x128_S64x1_S64x128x128_12_0_n_n_0_1_1128128_wf : GatherDims.WF S1000x128x128 S64x1 S64x128x128 [1, 2] [0] [] [0] [] 1 ![1, 128, 128]
  scatter_S64x2048x128_S64x129x2_S64x129x128_2_01_01_2_wf : ScatterDims.WF S64x2048x128 S64x129x2 S64x129x128 [2] [0, 1] [0, 1] 2
  scatter_S64x2048x128_S64x130x2_S64x130x128_2_01_01_2_wf : ScatterDims.WF S64x2048x128 S64x130x2 S64x130x128 [2] [0, 1] [0, 1] 2

variable [Facts₀]

def gather_S1000x128x128_S64x1_S64x128x128_12_0_n_n_0_1_1128128 : GatherDims S1000x128x128 S64x1 S64x128x128 where
  offsetDims := [1, 2]
  collapsedSliceDims := [0]
  operandBatchingDims := []
  startIndicesBatchingDims := []
  startIndexMap := [0]
  indexVectorDim := 1
  sliceSizes := ![1, 128, 128]
  wf := gather_S1000x128x128_S64x1_S64x128x128_12_0_n_n_0_1_1128128_wf
def scatter_S64x2048x128_S64x129x2_S64x129x128_2_01_01_2 : ScatterDims S64x2048x128 S64x129x2 S64x129x128 where
  updateWindowDims := [2]
  insertedWindowDims := [0, 1]
  scatterDimsToOperandDims := [0, 1]
  indexVectorDim := 2
  wf := scatter_S64x2048x128_S64x129x2_S64x129x128_2_01_01_2_wf
def scatter_S64x2048x128_S64x130x2_S64x130x128_2_01_01_2 : ScatterDims S64x2048x128 S64x130x2 S64x130x128 where
  updateWindowDims := [2]
  insertedWindowDims := [0, 1]
  scatterDimsToOperandDims := [0, 1]
  indexVectorDim := 2
  wf := scatter_S64x2048x128_S64x130x2_S64x130x128_2_01_01_2_wf

class Facts : Prop extends Facts₀ where

variable [Facts]
-- ==== Proof.Spec.lean ====
/- The two results as functions of the arguments, entry by entry.

   For every batch b a strip of 130 rows is placed at row lens[b] of the target: the start row sos[b], then the 128 rows
   of page c[b] of the label table, then sos[b] again; the rest of the target stands. The first result is the same with
   the strip cut to its first 129 rows, placed in x, and one more copy of sos[b] put in front of the whole batch, which
   moves every row down by one. Both are stated over an arbitrary element type: no arithmetic is done on an entry. -/
import Idealize.ShloMosaic.Lib.ValueIdx

noncomputable section

namespace Cert.Spec

open Idealize.ShloMosaic Idealize.ShloMosaic.ValueIdx

/-- x, the target and the second result; the first result; the two word vectors; the start rows; the label table. -/
abbrev SX : Shape := ⟨3, ![64, 2048, 128]⟩
abbrev SXo : Shape := ⟨3, ![64, 2049, 128]⟩
abbrev SW : Shape := ⟨1, ![64]⟩
abbrev SS : Shape := ⟨2, ![64, 128]⟩
abbrev SL : Shape := ⟨3, ![1000, 128, 128]⟩

/-- Both word vectors in range, read signed: 0 ≤ lens[b] ≤ 1918, so that the strip's last row lens[b] + 129 is a row
    of the target, and 0 ≤ c[b] < 1000, a page of the label table. -/
def InRange (lens c : SW.Idx → BitVec 32) : Prop :=
  ∀ b : Fin 64, (0 ≤ (lens (ix1 b)).toInt ∧ (lens (ix1 b)).toInt ≤ 1918) ∧ (0 ≤ (c (ix1 b)).toInt ∧ (c (ix1 b)).toInt < 1000)

/-- A word that is nonnegative read signed has that value read unsigned. -/
theorem toInt_eq_toNat (w : BitVec 32) (h : 0 ≤ w.toInt) : w.toInt = (w.toNat : Int) := by
  have h32 := w.isLt
  rw [BitVec.toInt_eq_toNat_cond] at h ⊢
  by_cases hc : 2 * w.toNat < 2 ^ 32
  · rw [if_pos hc]
  · rw [if_neg hc] at h; omega

theorem InRange.lens_le {lens c : SW.Idx → BitVec 32} (h : InRange lens c) (b : Fin 64) : (lens (ix1 b)).toNat ≤ 1918 := by
  have h1 := (h b).1
  have := toInt_eq_toNat _ h1.1
  omega

theorem InRange.c_lt {lens c : SW.Idx → BitVec 32} (h : InRange lens c) (b : Fin 64) : (c (ix1 b)).toNat < 1000 := by
  have h1 := (h b).2
  have := toInt_eq_toNat _ h1.1
  omega

variable {α : Type}

/-- The strip's first row for batch b, and its page of the label table. -/
def startRow (lens : SW.Idx → BitVec 32) (b : Fin 64) : Nat := (lens (ix1 b)).toNat
def pageOf (c : SW.Idx → BitVec 32) (b : Fin 64) : Fin 1000 := ⟨(c (ix1 b)).toNat % 1000, Nat.mod_lt _ (by decide)⟩

/-- Row q of batch b's strip: rows 0 and 129 are sos[b], row q in between is row q − 1 of the page. -/
def stripAt (c : SW.Idx → BitVec 32) (sos : SS.Idx → α) (labels : SL.Idx → α) (b : Fin 64) (q : Nat) (l : Fin 128) : α :=
  if q = 0 ∨ q = 129 then sos (ix2 b l) else labels (ix3 (pageOf c b) ⟨(q - 1) % 128, Nat.mod_lt _ (by decide)⟩ l)

/-- The second result: the target with the whole strip, rows lens[b] … lens[b] + 129. -/
def toutAt (tgt : SX.Idx → α) (lens c : SW.Idx → BitVec 32) (sos : SS.Idx → α) (labels : SL.Idx → α)
    (b : Fin 64) (p : Fin 2048) (l : Fin 128) : α :=
  if startRow lens b ≤ p.val ∧ p.val ≤ startRow lens b + 129 then stripAt c sos labels b (p.val - startRow lens b) l
  else tgt (ix3 b p l)

/-- x with the strip's first 129 rows, rows lens[b] … lens[b] + 128. -/
def xmidAt (x : SX.Idx → α) (lens c : SW.Idx → BitVec 32) (sos : SS.Idx → α) (labels : SL.Idx → α)
    (b : Fin 64) (p : Fin 2048) (l : Fin 128) : α :=
  if startRow lens b ≤ p.val ∧ p.val ≤ startRow lens b + 128 then stripAt c sos labels b (p.val - startRow lens b) l
  else x (ix3 b p l)

/-- The first result: sos[b] in row 0, then that array one row further down. -/
def xoutAt (x : SX.Idx → α) (lens c : SW.Idx → BitVec 32) (sos : SS.Idx → α) (labels : SL.Idx → α)
    (b : Fin 64) (r : Fin 2049) (l : Fin 128) : α :=
  if h : r.val = 0 then sos (ix2 b l)
  else xmidAt x lens c sos labels b ⟨r.val - 1, by have := r.isLt; omega⟩ l

def xoutSpec (x : SX.Idx → α) (lens c : SW.Idx → BitVec 32) (sos : SS.Idx → α) (labels : SL.Idx → α) : SXo.Idx → α :=
  fun j => xoutAt x lens c sos labels (j 0) (j 1) (j 2)

def toutSpec (tgt : SX.Idx → α) (lens c : SW.Idx → BitVec 32) (sos : SS.Idx → α) (labels : SL.Idx → α) : SX.Idx → α :=
  fun j => toutAt tgt lens c sos labels (j 0) (j 1) (j 2)

theorem xoutSpec_ix3 (x : SX.Idx → α) (lens c : SW.Idx → BitVec 32) (sos : SS.Idx → α) (labels : SL.Idx → α)
    (b : Fin 64) (r : Fin 2049) (l : Fin 128) :
    xoutSpec x lens c sos labels (ix3 b r l) = xoutAt x lens c sos labels b r l := rfl

theorem toutSpec_ix3 (tgt : SX.Idx → α) (lens c : SW.Idx → BitVec 32) (sos : SS.Idx → α) (labels : SL.Idx → α)
    (b : Fin 64) (p : Fin 2048) (l : Fin 128) :
    toutSpec tgt lens c sos labels (ix3 b p l) = toutAt tgt lens c sos labels b p l := rfl

end Cert.Spec

end
-- ==== Proof.PreDecode.lean ====
/- The precondition read at a batch: both word vectors are in range. -/
import Idealize.ShloMosaic.Lib.ReduceAll
import proofs.«414577_j11235634446820_1_alg».proof.Pre_finite_inputs
import proofs.«414577_j11235634446820_1_alg».proof.Proof.Spec

noncomputable section

namespace Cert.PreDecode

open Idealize.ShloMosaic Idealize.ShloMosaic.ValueIdx Cert.Pre_finite_inputs

/-- The scalar shape has exactly one index. -/
private instance : Subsingleton S_.Idx := ⟨fun a b => funext fun d => d.elim0⟩

/-- The precondition is a conjunction of one-bit scalars; of its value 1 only the last two conjuncts are read: each
    says that a conjunction of two signed comparisons of a word vector with a constant holds at every batch. -/
theorem inRange_of_pre {F : FTy → Type} [FloatOps F] [Cert.Pre_finite_inputs.Facts]
    (a0 a1 : FVec F S64x2048x128 .f32) (a2 a3 : IVec S64 32) (a4 : FVec F S64x128 .f32) (a5 : FVec F S1000x128x128 .f32)
    (h : Cert.Pre_finite_inputs.fn (F := F) a0 a1 a2 a3 a4 a5 = fun _ => 1#1) : Cert.Spec.InRange a2 a3 := by
  have e := congrFun h ix0
  dsimp only [fn, fn_part1] at e
  -- the outer conjunction: ((floats ∧ all(lens in range)) ∧ all(c in range))
  obtain ⟨e1, ec⟩ := IntOp.andi_eq_one.1 e
  obtain ⟨-, el⟩ := IntOp.andi_eq_one.1 e1
  intro b
  -- each reduction by "and" that came out 1 met a 1 at batch b
  have hl := Host.reduce_andi_all _ _ _ _ _ el (ix1 b)
  have hc := Host.reduce_andi_all _ _ _ _ _ ec (ix1 b)
  obtain ⟨hl0, hl1⟩ := IntOp.andi_eq_one.1 hl
  obtain ⟨hc0, hc1⟩ := IntOp.andi_eq_one.1 hc
  -- the four comparisons, read signed against the constants 0, 1918, 0, 1000
  have l0 := IntOp.cmpi_sge.1 hl0
  have l1 := IntOp.cmpi_sle.1 hl1
  have c0 := IntOp.cmpi_sge.1 hc0
  have c1 := IntOp.cmpi_slt.1 hc1
  have z : (0#32 : BitVec 32).toInt = 0 := by decide
  have z1 : (1918#32 : BitVec 32).toInt = 1918 := by decide
  have z2 : (1000#32 : BitVec 32).toInt = 1000 := by decide
  exact ⟨⟨z ▸ l0, z1 ▸ l1⟩, ⟨z ▸ c0, z2 ▸ c1⟩⟩

end Cert.PreDecode

end
-- ==== Proof.KRun.lean ====
/- The kernel body run once, at any grid point b and any float instance, on whole staging buffers: the four inputs'
   at their contents (x[b], tgt[b], the start rows sos, the page labels[c[b]]), the two results' at anything. Under the
   side condition of the word lens[b] the body terminates, leaves the inputs as they were, and leaves in each result's
   staging buffer the stores it made, last first: in the first result's the page at rows lens[b] + 2 … lens[b] + 129,
   the start row sos[b] at row lens[b] + 1, x[b] at rows 1 … 2048 and sos[b] at row 0; in the second result's sos[b] at
   row lens[b] + 129, the page at rows lens[b] + 1 … lens[b] + 128, sos[b] at row lens[b], and tgt[b] everywhere. The two
   piece lists are what the symbolic run of the body finds. -/
import proofs.«414577_j11235634446820_1_alg».proof.Proof.KKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple with its witness: the pieces each result's staging buffer ends with. -/
noncomputable def kernelRun0_A (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) :
    Σ' (L4 : List (View.Piece (Elt F) S1x2049x128 .f32)), { L5 : List (View.Piece (Elt F) S1x2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0__kernel i tbM0_0 htbM0_0 tbM0_1 htbM0_1 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, HT0, HT1, Hk⟩
    obtain rfl := harg3.eq_unread hf0; obtain rfl := harg4.eq_unread hf1; obtain rfl := harg5.eq_unread hf2; obtain rfl := harg6.eq_unread hf3
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HT0]; · iexact HT0
    iexact HT1

end Cert.Kernel.Fr

end
-- ==== Proof.KFrame.lean ====
/- The launch of the one pallas_call around the body's run, at any float instance, with what the two result arrays hold
   afterwards named: the proof data of the pipeline (each input's staging buffer holds its block at every point; each
   result's staging buffer holds, after the body at point b, the body's stores read back), the body obligation from the
   run, and the launch theorem for a pipeline whose index maps read prefetched words. Every execution terminates with
   the six arguments unchanged and each result array at the contents the library computes from the blocks written back,
   under the two side conditions (`Ok`, `Hyps`) on the prefetched words. -/
import proofs.«414577_j11235634446820_1_alg».proof.Proof.KRun

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run leaves in the two results' staging buffers -/

/-- One staging buffer of each result window, through which its contents are stated (the choice does not matter). -/
abbrev VO0_4 : View sig .tc .vmem S1x2049x128 .f32 := (Memref.whole cc0_stg4_0 : Memref sig .tc .vmem S1x2049x128 .f32).view
abbrev VO0_5 : View sig .tc .vmem S1x2048x128 .f32 := (Memref.whole cc0_stg5_0 : Memref sig .tc .vmem S1x2048x128 .f32).view

/-- The first result's block is covered by the stores: row 0 and rows 1 … 2048 are two of them. -/
theorem cover0_A_4 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) (y : S1x2049x128.Idx) :
    ∃ pc ∈ (kernelRun0_A c i arg3 harg3 arg4 harg4 arg5 harg5 arg6 harg6 arg7 harg7 arg8 harg8 x0 x1 x2 x3 xt0 xt1 k0_hw1).1, y ∈ pc.1.set := by
  obtain ⟨pc, hpc, hy⟩ := View.cover_of_tiledBy (kernelRun0_A.sl.H4_2 c i arg3 harg3 arg5 harg5 x0 x2) ![1, 1, 128] (by sl_kernel_rfl) y
  refine ⟨pc, ?_, hy⟩
  unfold kernelRun0_A
  dsimp only
  exact List.mem_cons_of_mem _ (List.mem_cons_of_mem _ hpc)

/-- The second result's block is covered by the stores: the copy of the target's block is one of them. -/
theorem cover0_A_5 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) (y : S1x2048x128.Idx) :
    ∃ pc ∈ (kernelRun0_A c i arg3 harg3 arg4 harg4 arg5 harg5 arg6 harg6 arg7 harg7 arg8 harg8 x0 x1 x2 x3 xt0 xt1 k0_hw1).2.1, y ∈ pc.1.set :=
  View.cover_of_wholeMem _ (by sl_whole_mem) y

/-- What the run leaves in each result's staging buffer: its pieces read back over junk. -/
def out0_A_4 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) : Vec F S1x2049x128 .f32 :=
  VO0_4.read (Elt F) (VO0_4.writes (Elt F) VO0_4.junk (kernelRun0_A c i arg3 harg3 arg4 harg4 arg5 harg5 arg6 harg6 arg7 harg7 arg8 harg8 x0 x1 x2 x3 xt0 xt1 k0_hw1).1)
def out0_A_5 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) : Vec F S1x2048x128 .f32 :=
  VO0_5.read (Elt F) (VO0_5.writes (Elt F) VO0_5.junk (kernelRun0_A c i arg3 harg3 arg4 harg4 arg5 harg5 arg6 harg6 arg7 harg7 arg8 harg8 x0 x1 x2 x3 xt0 xt1 k0_hw1).2.1)

/-- The same at grid point `t`: the run at the point's staging buffers, input blocks and prefetched words. -/
def outsAt0_4 (hO : Ok m) (hH : Hyps m hO) (c : Dev nD) (t : Fin (cfgM m hO).N) : Vec F S1x2049x128 .f32 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (Hyps.c0 hH c t)
def outsAt0_5 (hO : Ok m) (hH : Hyps m hO) (c : Dev nD) (t : Fin (cfgM m hO).N) : Vec F S1x2048x128 .f32 :=
  out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (Hyps.c0 hH c t)

/-! ## The pipeline's proof data -/

/-- On core `c`: the arrays as the region finds them; after the body at point `t` each input's buffer at its block and
    each result's at what the run leaves; the invariant is the class's with the prefetched words' halves; nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outsAt0_4 m hO hH c t
    | ⟨5, _⟩ => outsAt0_5 m hO hH c t
  Φ _ := iprop(Pipeline.ΦA spec0 c ∗ Pipeline.ΦT pre0 (tbl m) c)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = outsAt0_4 m hO hH c t := by dsimp only [dats]; try rfl
theorem after0_5 (hO : Ok m) (hH : Hyps m hO) (c : Dev nD) (t : Fin (cfgM m hO).N) : (dats m hO hH 0 c).after 5 t = outsAt0_5 m hO hH c t := by dsimp only [dats]; try rfl

theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d

/-! ## The body obligation, at a generic point -/

def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d)))

def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t))

/-- The body at any point: the inputs' staging buffers hold their blocks, so the run applies; each result's buffer is
    handed back with the run's pieces written, which cover it, so it holds them read back; the invariant passes through. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq]
  unfold outsAt0_4 outsAt0_5
  unfold out0_A_4 out0_A_5
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m hO c 0 t) (iblk m hO c 1 t) (iblk m hO c 2 t) (iblk m hO c 3 t) (tbl m 0) (tbl m 1) (Hyps.c0 hH c t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HT0]; · iexact HT0
  isplitl [HT1]; · iexact HT1
  iintro ⟨H0, H1, H2, H3, ⟨%e4, H4⟩, ⟨%e5, H5⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _ _ _ _ _)

theorem body_obligation (hO : Ok m) (hH : Hyps m hO) (c : Dev nD) : BodyObligation (dats (F := F) m hO hH 0 c) (defs₀ (F := F)) Variants.none () Set.univ := fun t => by
  rw [bigSep_W0, bigSep_W0]
  exact sound_body m hO hH c t

/-! ## The run -/

set_option backward.isDefEq.respectTransparency.types false in
/-- Every weakly fair execution of the program terminates, every array of the pipeline at what the library computes from
    the proof data, every other unscoped buffer as the region found it. -/
theorem run_main (hO : Ok m) (hH : Hyps m hO) : θ_run defs (onTc (τ := τ) (main (F := F))) (s₀ m ρ) (Pipeline.FramePost (Pipeline.pin pcfgs fun _ => adm m hO) (dats m hO hH) 0 (V m)) :=
  Pipeline.θ_run_frameP pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- The run with its results named: the two result arrays at the proof data's final contents, the arguments unchanged. -/
theorem run_named (hO : Ok m) (hH : Hyps m hO) : θ_run defs (onTc (τ := τ) (main (F := F))) ⟨m, fun _ => 0, ρ⟩ (fun r => ∀ c : Dev nD,
      r.2.mem ((c.tc : Thread nD τ).loc main_v0_0) = (dats m hO hH 0 c).arrAt 4 (cfgM m hO).N
      ∧ r.2.mem ((c.tc : Thread nD τ).loc main_v0_1) = (dats m hO hH 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 4, (h c).1 5,
      ((h c).1 0).trans ((dats m hO hH 0 c).arrAt_in 0 rfl _),
      ((h c).1 1).trans ((dats m hO hH 0 c).arrAt_in 1 rfl _),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 2).trans ((dats m hO hH 0 c).arrAt_in 2 rfl _),
      ((h c).1 3).trans ((dats m hO hH 0 c).arrAt_in 3 rfl _)⟩) (run_main m ρ hO hH)

/-- The frame claim at any float instance, under the two side conditions. -/
theorem frame (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2) (run_named m ρ hO hH)

end Cert.Kernel.Fr

end
-- ==== Proof.KHyps.lean ====
/- The two hypotheses the kernel's frame holds under, from the range of the two word vectors.

   The kernel prefetches two [64] word vectors: c (table 0) and lens (table 1). At grid point i the index map of the
   label table's window reads c[i 0] and takes page c[i 0] of the [1000, 128, 128] table; the body reads lens[i 0] and
   accesses rows lens + 1 and lens + 2 … lens + 129 of a [1, 2049, 128] block and rows lens, lens + 1 … lens + 128 and
   lens + 129 of a [1, 2048, 128] block. With 0 ≤ c[b] < 1000 and 0 ≤ lens[b] ≤ 1918 (read signed, hence the same read
   unsigned) the page is a page of the table and every row is a row of its block; no sum of a word and its constant
   reaches 2 ^ 32. The words are read on device 0, the program's one device. -/
import proofs.«414577_j11235634446820_1_alg».proof.Proof.KKit
import proofs.«414577_j11235634446820_1_alg».proof.Proof.Spec

set_option maxRecDepth 16384

noncomputable section

namespace Cert.Kernel.Fr

open Cert.Kernel Cert.Kernel.Gen Idealize.ShloMosaic Idealize.ShloMosaic.TcCoe Idealize.SL.Sem Idealize.ShloMosaic.ValueIdx

variable {F : FTy → Type} [FloatOps F] (m : (ℓ : Loc nD τ sig) → Buf (Elt F) ℓ)

/-! ## The words read at a grid point -/

/-- The one-word rectangle of a [64] word vector at offset b is the vector's index b. -/
theorem emb_unit (b : Fin 64) (off : Fin 1 → Nat) (hoff : off 0 = b.val) (inb : ∀ a, off a + S1.size a ≤ S64.size a)
    (h1 : 0 < S1.numel) : (Rect.unit (s := S64) off S1.size inb).emb (Shape.Idx.first h1) = ix1 b := by
  funext a
  apply Fin.ext
  match a with
  | ⟨0, _⟩ =>
    show off 0 + 1 * 0 = b.val
    omega

/-- The offset both the index map and the body compute from grid point i is the batch i 0. -/
theorem off1_zero (i : grid0.Coords) : k0_off1 i 0 = (i 0).val := congrFun (k0_off1_eq i) 0

/-- The word the index map of the label table's window reads at grid point i is c at the batch. -/
theorem word_c (i : grid0.Coords) :
    (tbl m).at 0 (Rect.unit (s := S64) ![(Scalar.indexCast (BitVec.ofNat 32 (i 0).val)).toNat] S1.size (k0_off1_inb i)) numel1_S1
      = m (((0 : Dev nD).tc : Thread nD τ).loc main_arg3) (ix1 (i 0)) :=
  congrArg (m (((0 : Dev nD).tc : Thread nD τ).loc main_arg3)) (emb_unit (i 0) _ (off1_zero i) _ _)

/-- So that window's block index at grid point i is (c at the batch, 0, 0). -/
theorem transform_3_eq (i : grid0.Coords) :
    cc0_transform_3 k0_off1_inb numel1_S1 (tbl m) i
      = ![(m (((0 : Dev nD).tc : Thread nD τ).loc main_arg3) (ix1 (i 0))).toNat, 0, 0] := by
  unfold cc0_transform_3
  dsimp only
  rw [word_c]
  rfl

/-- The word the body reads at point t is lens at the batch. -/
theorem word_lens (hO : Ok m) (t : Fin (cfgM m hO).N) :
    tbM0_1.view.readAt (Elt F) (Rect.unit (s := S64) (k0_off1 (grid0.coords t)) S1.size (k0_off1_inb (grid0.coords t))).toLoadRect
        (tbl m 1) (Shape.Idx.first (numel1_S1.symm ▸ Nat.one_pos))
      = m (((0 : Dev nD).tc : Thread nD τ).loc main_arg2) (ix1 ((grid0.coords t) 0)) :=
  congrArg (m (((0 : Dev nD).tc : Thread nD τ).loc main_arg2)) (emb_unit ((grid0.coords t) 0) _ (off1_zero (grid0.coords t)) _ _)

/-! ## The side conditions from the range of the two word vectors -/

/-- A sum of a word and a small constant that stays below 2 ^ 32 is the sum of the numbers. -/
theorem toNat_addi (w : BitVec 32) (k : Nat) (h : w.toNat + k < 2 ^ 32) :
    (Scalar.indexCast (Scalar.addi w (BitVec.ofNat 32 k))).toNat = w.toNat + k := by
  show (w + BitVec.ofNat 32 k).toNat = w.toNat + k
  rw [BitVec.toNat_add, BitVec.toNat_ofNat, Nat.add_mod_mod, Nat.mod_eq_of_lt h]

/-- Rows r … r + n − 1 of a [1, N, 128] block are inside it when r + n ≤ N. -/
theorem rows_inb (r n N : Nat) (h : r + n ≤ N) :
    ∀ a, (![0, r, 0] : Fin 3 → Nat) a + (⟨3, ![1, n, 128]⟩ : Shape).size a ≤ (⟨3, ![1, N, 128]⟩ : Shape).size a := by
  intro a
  match a with
  | ⟨0, _⟩ => show 0 + 1 ≤ 1; omega
  | ⟨1, _⟩ => exact h
  | ⟨2, _⟩ => show 0 + 128 ≤ 128; omega

/-- The check the body assumes of the word lens[b] holds when lens[b] ≤ 1918: the rows lens[b] + 1 and
    lens[b] + 2 … lens[b] + 129 of the 2049-row block, and the rows lens[b], lens[b] + 1 … lens[b] + 128 and
    lens[b] + 129 of the 2048-row block, are rows of those blocks. -/
theorem chk (w : BitVec 32) (hw : w.toNat ≤ 1918) : k0_chk1 w := by
  have e1 : (Scalar.indexCast (Scalar.addi w 1#32)).toNat = w.toNat + 1 := toNat_addi w 1 (by omega)
  have e2 : (Scalar.indexCast (Scalar.addi w 2#32)).toNat = w.toNat + 2 := toNat_addi w 2 (by omega)
  have e129 : (Scalar.indexCast (Scalar.addi (Scalar.addi w 1#32) 128#32)).toNat = w.toNat + 1 + 128 := by
    have h := toNat_addi (Scalar.addi w 1#32) 128 (by rw [show (Scalar.addi w 1#32).toNat = w.toNat + 1 from e1]; omega)
    rw [show (Scalar.addi w 1#32).toNat = w.toNat + 1 from e1] at h
    exact h
  refine ⟨?_, ?_, ?_, ?_, ?_⟩
  · show ∀ a, (![0, (Scalar.indexCast (Scalar.addi w 1#32)).toNat, 0] : Fin 3 → Nat) a + _ ≤ _
    rw [e1]; exact rows_inb _ 1 2049 (by omega)
  · show ∀ a, (![0, (Scalar.indexCast (Scalar.addi w 2#32)).toNat, 0] : Fin 3 → Nat) a + _ ≤ _
    rw [e2]; exact rows_inb _ 128 2049 (by omega)
  · show ∀ a, (![0, (Scalar.indexCast w).toNat, 0] : Fin 3 → Nat) a + _ ≤ _
    exact rows_inb _ 1 2048 (by show w.toNat + 1 ≤ 2048; omega)
  · show ∀ a, (![0, (Scalar.indexCast (Scalar.addi w 1#32)).toNat, 0] : Fin 3 → Nat) a + _ ≤ _
    rw [e1]; exact rows_inb _ 128 2048 (by omega)
  · show ∀ a, (![0, (Scalar.indexCast (Scalar.addi (Scalar.addi w 1#32) 128#32)).toNat, 0] : Fin 3 → Nat) a + _ ≤ _
    rw [e129]; exact rows_inb _ 1 2048 (by omega)

/-- The pipeline's side condition: the label table's window at grid point i is page c[i 0], a page of the table. -/
theorem ok_of_range (hR : Cert.Spec.InRange (m (((0 : Dev nD).tc : Thread nD τ).loc main_arg2)) (m (((0 : Dev nD).tc : Thread nD τ).loc main_arg3))) :
    Ok m := by
  intro i
  have hc : (m (((0 : Dev nD).tc : Thread nD τ).loc main_arg3) (ix1 (i 0))).toNat < 1000 := hR.c_lt (i 0)
  refine ⟨fun a => ?_, Or.inl rfl⟩
  rw [transform_3_eq]
  match a with
  | ⟨0, _⟩ => show ((m (((0 : Dev nD).tc : Thread nD τ).loc main_arg3) (ix1 (i 0))).toNat + 1) * 1 ≤ 1000; omega
  | ⟨1, _⟩ => show (0 + 1) * 128 ≤ 128; omega
  | ⟨2, _⟩ => show (0 + 1) * 128 ≤ 128; omega

/-- The side condition the body assumes at every point: the strip's rows are rows of the blocks. -/
theorem hyps_of_range (hR : Cert.Spec.InRange (m (((0 : Dev nD).tc : Thread nD τ).loc main_arg2)) (m (((0 : Dev nD).tc : Thread nD τ).loc main_arg3)))
    (hO : Ok m) : Hyps m hO := by
  intro c t
  rw [word_lens]
  exact chk _ (hR.lens_le _)

end Cert.Kernel.Fr

end
-- ==== Proof.KIRun.lean ====
/- The kernel body run once, at any grid point b and any float instance, on whole staging buffers: the four inputs'
   at their contents (x[b], tgt[b], the start rows sos, the page labels[c[b]]), the two results' at anything. Under the
   side condition of the word lens[b] the body terminates, leaves the inputs as they were, and leaves in each result's
   staging buffer the stores it made, last first: in the first result's the page at rows lens[b] + 2 … lens[b] + 129,
   the start row sos[b] at row lens[b] + 1, x[b] at rows 1 … 2048 and sos[b] at row 0; in the second result's sos[b] at
   row lens[b] + 129, the page at rows lens[b] + 1 … lens[b] + 128, sos[b] at row lens[b], and tgt[b] everywhere. The two
   piece lists are what the symbolic run of the body finds. -/
import proofs.«414577_j11235634446820_1_alg».proof.Proof.KIKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple with its witness: the pieces each result's staging buffer ends with. -/
noncomputable def kernelRun0_A (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) :
    Σ' (L4 : List (View.Piece (Elt F) S1x2049x128 .f32)), { L5 : List (View.Piece (Elt F) S1x2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0__kernel i tbM0_0 htbM0_0 tbM0_1 htbM0_1 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, HT0, HT1, Hk⟩
    obtain rfl := harg3.eq_unread hf0; obtain rfl := harg4.eq_unread hf1; obtain rfl := harg5.eq_unread hf2; obtain rfl := harg6.eq_unread hf3
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HT0]; · iexact HT0
    iexact HT1

end Cert.KernelIdeal.Fr

end
-- ==== Proof.KIFrame.lean ====
/- The launch of the one pallas_call around the body's run, at any float instance, with what the two result arrays hold
   afterwards named: the proof data of the pipeline (each input's staging buffer holds its block at every point; each
   result's staging buffer holds, after the body at point b, the body's stores read back), the body obligation from the
   run, and the launch theorem for a pipeline whose index maps read prefetched words. Every execution terminates with
   the six arguments unchanged and each result array at the contents the library computes from the blocks written back,
   under the two side conditions (`Ok`, `Hyps`) on the prefetched words. -/
import proofs.«414577_j11235634446820_1_alg».proof.Proof.KIRun

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run leaves in the two results' staging buffers -/

/-- One staging buffer of each result window, through which its contents are stated (the choice does not matter). -/
abbrev VO0_4 : View sig .tc .vmem S1x2049x128 .f32 := (Memref.whole cc0_stg4_0 : Memref sig .tc .vmem S1x2049x128 .f32).view
abbrev VO0_5 : View sig .tc .vmem S1x2048x128 .f32 := (Memref.whole cc0_stg5_0 : Memref sig .tc .vmem S1x2048x128 .f32).view

/-- The first result's block is covered by the stores: row 0 and rows 1 … 2048 are two of them. -/
theorem cover0_A_4 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) (y : S1x2049x128.Idx) :
    ∃ pc ∈ (kernelRun0_A c i arg3 harg3 arg4 harg4 arg5 harg5 arg6 harg6 arg7 harg7 arg8 harg8 x0 x1 x2 x3 xt0 xt1 k0_hw1).1, y ∈ pc.1.set := by
  obtain ⟨pc, hpc, hy⟩ := View.cover_of_tiledBy (kernelRun0_A.sl.H4_2 c i arg3 harg3 arg5 harg5 x0 x2) ![1, 1, 128] (by sl_kernel_rfl) y
  refine ⟨pc, ?_, hy⟩
  unfold kernelRun0_A
  dsimp only
  exact List.mem_cons_of_mem _ (List.mem_cons_of_mem _ hpc)

/-- The second result's block is covered by the stores: the copy of the target's block is one of them. -/
theorem cover0_A_5 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) (y : S1x2048x128.Idx) :
    ∃ pc ∈ (kernelRun0_A c i arg3 harg3 arg4 harg4 arg5 harg5 arg6 harg6 arg7 harg7 arg8 harg8 x0 x1 x2 x3 xt0 xt1 k0_hw1).2.1, y ∈ pc.1.set :=
  View.cover_of_wholeMem _ (by sl_whole_mem) y

/-- What the run leaves in each result's staging buffer: its pieces read back over junk. -/
def out0_A_4 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) : Vec F S1x2049x128 .f32 :=
  VO0_4.read (Elt F) (VO0_4.writes (Elt F) VO0_4.junk (kernelRun0_A c i arg3 harg3 arg4 harg4 arg5 harg5 arg6 harg6 arg7 harg7 arg8 harg8 x0 x1 x2 x3 xt0 xt1 k0_hw1).1)
def out0_A_5 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (tbM0_1.view.readAt (Elt F) (Rect.unit (s := S64) (k0_off1 i) S1.size (k0_off1_inb i)).toLoadRect xt1 (Shape.Idx.first (numel1_S1.symm ▸ Nat.one_pos)))) : Vec F S1x2048x128 .f32 :=
  VO0_5.read (Elt F) (VO0_5.writes (Elt F) VO0_5.junk (kernelRun0_A c i arg3 harg3 arg4 harg4 arg5 harg5 arg6 harg6 arg7 harg7 arg8 harg8 x0 x1 x2 x3 xt0 xt1 k0_hw1).2.1)

/-- The same at grid point `t`: the run at the point's staging buffers, input blocks and prefetched words. -/
def outsAt0_4 (hO : Ok m) (hH : Hyps m hO) (c : Dev nD) (t : Fin (cfgM m hO).N) : Vec F S1x2049x128 .f32 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (Hyps.c0 hH c t)
def outsAt0_5 (hO : Ok m) (hH : Hyps m hO) (c : Dev nD) (t : Fin (cfgM m hO).N) : Vec F S1x2048x128 .f32 :=
  out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (Hyps.c0 hH c t)

/-! ## The pipeline's proof data -/

/-- On core `c`: the arrays as the region finds them; after the body at point `t` each input's buffer at its block and
    each result's at what the run leaves; the invariant is the class's with the prefetched words' halves; nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outsAt0_4 m hO hH c t
    | ⟨5, _⟩ => outsAt0_5 m hO hH c t
  Φ _ := iprop(Pipeline.ΦA spec0 c ∗ Pipeline.ΦT pre0 (tbl m) c)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = outsAt0_4 m hO hH c t := by dsimp only [dats]; try rfl
theorem after0_5 (hO : Ok m) (hH : Hyps m hO) (c : Dev nD) (t : Fin (cfgM m hO).N) : (dats m hO hH 0 c).after 5 t = outsAt0_5 m hO hH c t := by dsimp only [dats]; try rfl

theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d

/-! ## The body obligation, at a generic point -/

def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d)))

def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t))

/-- The body at any point: the inputs' staging buffers hold their blocks, so the run applies; each result's buffer is
    handed back with the run's pieces written, which cover it, so it holds them read back; the invariant passes through. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq]
  unfold outsAt0_4 outsAt0_5
  unfold out0_A_4 out0_A_5
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m hO c 0 t) (iblk m hO c 1 t) (iblk m hO c 2 t) (iblk m hO c 3 t) (tbl m 0) (tbl m 1) (Hyps.c0 hH c t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HT0]; · iexact HT0
  isplitl [HT1]; · iexact HT1
  iintro ⟨H0, H1, H2, H3, ⟨%e4, H4⟩, ⟨%e5, H5⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _ _ _ _ _)

theorem body_obligation (hO : Ok m) (hH : Hyps m hO) (c : Dev nD) : BodyObligation (dats (F := F) m hO hH 0 c) (defs₀ (F := F)) Variants.none () Set.univ := fun t => by
  rw [bigSep_W0, bigSep_W0]
  exact sound_body m hO hH c t

/-! ## The run -/

set_option backward.isDefEq.respectTransparency.types false in
/-- Every weakly fair execution of the program terminates, every array of the pipeline at what the library computes from
    the proof data, every other unscoped buffer as the region found it. -/
theorem run_main (hO : Ok m) (hH : Hyps m hO) : θ_run defs (onTc (τ := τ) (main (F := F))) (s₀ m ρ) (Pipeline.FramePost (Pipeline.pin pcfgs fun _ => adm m hO) (dats m hO hH) 0 (V m)) :=
  Pipeline.θ_run_frameP pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- The run with its results named: the two result arrays at the proof data's final contents, the arguments unchanged. -/
theorem run_named (hO : Ok m) (hH : Hyps m hO) : θ_run defs (onTc (τ := τ) (main (F := F))) ⟨m, fun _ => 0, ρ⟩ (fun r => ∀ c : Dev nD,
      r.2.mem ((c.tc : Thread nD τ).loc main_v0_0) = (dats m hO hH 0 c).arrAt 4 (cfgM m hO).N
      ∧ r.2.mem ((c.tc : Thread nD τ).loc main_v0_1) = (dats m hO hH 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 4, (h c).1 5,
      ((h c).1 0).trans ((dats m hO hH 0 c).arrAt_in 0 rfl _),
      ((h c).1 1).trans ((dats m hO hH 0 c).arrAt_in 1 rfl _),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 2).trans ((dats m hO hH 0 c).arrAt_in 2 rfl _),
      ((h c).1 3).trans ((dats m hO hH 0 c).arrAt_in 3 rfl _)⟩) (run_main m ρ hO hH)

/-- The frame claim at any float instance, under the two side conditions. -/
theorem frame (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2) (run_named m ρ hO hH)

end Cert.KernelIdeal.Fr

end
-- ==== Proof.KIHyps.lean ====
/- The two hypotheses the kernel's frame holds under, from the range of the two word vectors.

   The kernel prefetches two [64] word vectors: c (table 0) and lens (table 1). At grid point i the index map of the
   label table's window reads c[i 0] and takes page c[i 0] of the [1000, 128, 128] table; the body reads lens[i 0] and
   accesses rows lens + 1 and lens + 2 … lens + 129 of a [1, 2049, 128] block and rows lens, lens + 1 … lens + 128 and
   lens + 129 of a [1, 2048, 128] block. With 0 ≤ c[b] < 1000 and 0 ≤ lens[b] ≤ 1918 (read signed, hence the same read
   unsigned) the page is a page of the table and every row is a row of its block; no sum of a word and its constant
   reaches 2 ^ 32. The words are read on device 0, the program's one device. -/
import proofs.«414577_j11235634446820_1_alg».proof.Proof.KIKit
import proofs.«414577_j11235634446820_1_alg».proof.Proof.Spec

set_option maxRecDepth 16384

noncomputable section

namespace Cert.KernelIdeal.Fr

open Cert.KernelIdeal Cert.KernelIdeal.Gen Idealize.ShloMosaic Idealize.ShloMosaic.TcCoe Idealize.SL.Sem Idealize.ShloMosaic.ValueIdx

variable {F : FTy → Type} [FloatOps F] (m : (ℓ : Loc nD τ sig) → Buf (Elt F) ℓ)

/-! ## The words read at a grid point -/

/-- The one-word rectangle of a [64] word vector at offset b is the vector's index b. -/
theorem emb_unit (b : Fin 64) (off : Fin 1 → Nat) (hoff : off 0 = b.val) (inb : ∀ a, off a + S1.size a ≤ S64.size a)
    (h1 : 0 < S1.numel) : (Rect.unit (s := S64) off S1.size inb).emb (Shape.Idx.first h1) = ix1 b := by
  funext a
  apply Fin.ext
  match a with
  | ⟨0, _⟩ =>
    show off 0 + 1 * 0 = b.val
    omega

/-- The offset both the index map and the body compute from grid point i is the batch i 0. -/
theorem off1_zero (i : grid0.Coords) : k0_off1 i 0 = (i 0).val := congrFun (k0_off1_eq i) 0

/-- The word the index map of the label table's window reads at grid point i is c at the batch. -/
theorem word_c (i : grid0.Coords) :
    (tbl m).at 0 (Rect.unit (s := S64) ![(Scalar.indexCast (BitVec.ofNat 32 (i 0).val)).toNat] S1.size (k0_off1_inb i)) numel1_S1
      = m (((0 : Dev nD).tc : Thread nD τ).loc main_arg3) (ix1 (i 0)) :=
  congrArg (m (((0 : Dev nD).tc : Thread nD τ).loc main_arg3)) (emb_unit (i 0) _ (off1_zero i) _ _)

/-- So that window's block index at grid point i is (c at the batch, 0, 0). -/
theorem transform_3_eq (i : grid0.Coords) :
    cc0_transform_3 k0_off1_inb numel1_S1 (tbl m) i
      = ![(m (((0 : Dev nD).tc : Thread nD τ).loc main_arg3) (ix1 (i 0))).toNat, 0, 0] := by
  unfold cc0_transform_3
  dsimp only
  rw [word_c]
  rfl

/-- The word the body reads at point t is lens at the batch. -/
theorem word_lens (hO : Ok m) (t : Fin (cfgM m hO).N) :
    tbM0_1.view.readAt (Elt F) (Rect.unit (s := S64) (k0_off1 (grid0.coords t)) S1.size (k0_off1_inb (grid0.coords t))).toLoadRect
        (tbl m 1) (Shape.Idx.first (numel1_S1.symm ▸ Nat.one_pos))
      = m (((0 : Dev nD).tc : Thread nD τ).loc main_arg2) (ix1 ((grid0.coords t) 0)) :=
  congrArg (m (((0 : Dev nD).tc : Thread nD τ).loc main_arg2)) (emb_unit ((grid0.coords t) 0) _ (off1_zero (grid0.coords t)) _ _)

/-! ## The side conditions from the range of the two word vectors -/

/-- A sum of a word and a small constant that stays below 2 ^ 32 is the sum of the numbers. -/
theorem toNat_addi (w : BitVec 32) (k : Nat) (h : w.toNat + k < 2 ^ 32) :
    (Scalar.indexCast (Scalar.addi w (BitVec.ofNat 32 k))).toNat = w.toNat + k := by
  show (w + BitVec.ofNat 32 k).toNat = w.toNat + k
  rw [BitVec.toNat_add, BitVec.toNat_ofNat, Nat.add_mod_mod, Nat.mod_eq_of_lt h]

/-- Rows r … r + n − 1 of a [1, N, 128] block are inside it when r + n ≤ N. -/
theorem rows_inb (r n N : Nat) (h : r + n ≤ N) :
    ∀ a, (![0, r, 0] : Fin 3 → Nat) a + (⟨3, ![1, n, 128]⟩ : Shape).size a ≤ (⟨3, ![1, N, 128]⟩ : Shape).size a := by
  intro a
  match a with
  | ⟨0, _⟩ => show 0 + 1 ≤ 1; omega
  | ⟨1, _⟩ => exact h
  | ⟨2, _⟩ => show 0 + 128 ≤ 128; omega

/-- The check the body assumes of the word lens[b] holds when lens[b] ≤ 1918: the rows lens[b] + 1 and
    lens[b] + 2 … lens[b] + 129 of the 2049-row block, and the rows lens[b], lens[b] + 1 … lens[b] + 128 and
    lens[b] + 129 of the 2048-row block, are rows of those blocks. -/
theorem chk (w : BitVec 32) (hw : w.toNat ≤ 1918) : k0_chk1 w := by
  have e1 : (Scalar.indexCast (Scalar.addi w 1#32)).toNat = w.toNat + 1 := toNat_addi w 1 (by omega)
  have e2 : (Scalar.indexCast (Scalar.addi w 2#32)).toNat = w.toNat + 2 := toNat_addi w 2 (by omega)
  have e129 : (Scalar.indexCast (Scalar.addi (Scalar.addi w 1#32) 128#32)).toNat = w.toNat + 1 + 128 := by
    have h := toNat_addi (Scalar.addi w 1#32) 128 (by rw [show (Scalar.addi w 1#32).toNat = w.toNat + 1 from e1]; omega)
    rw [show (Scalar.addi w 1#32).toNat = w.toNat + 1 from e1] at h
    exact h
  refine ⟨?_, ?_, ?_, ?_, ?_⟩
  · show ∀ a, (![0, (Scalar.indexCast (Scalar.addi w 1#32)).toNat, 0] : Fin 3 → Nat) a + _ ≤ _
    rw [e1]; exact rows_inb _ 1 2049 (by omega)
  · show ∀ a, (![0, (Scalar.indexCast (Scalar.addi w 2#32)).toNat, 0] : Fin 3 → Nat) a + _ ≤ _
    rw [e2]; exact rows_inb _ 128 2049 (by omega)
  · show ∀ a, (![0, (Scalar.indexCast w).toNat, 0] : Fin 3 → Nat) a + _ ≤ _
    exact rows_inb _ 1 2048 (by show w.toNat + 1 ≤ 2048; omega)
  · show ∀ a, (![0, (Scalar.indexCast (Scalar.addi w 1#32)).toNat, 0] : Fin 3 → Nat) a + _ ≤ _
    rw [e1]; exact rows_inb _ 128 2048 (by omega)
  · show ∀ a, (![0, (Scalar.indexCast (Scalar.addi (Scalar.addi w 1#32) 128#32)).toNat, 0] : Fin 3 → Nat) a + _ ≤ _
    rw [e129]; exact rows_inb _ 1 2048 (by omega)

/-- The pipeline's side condition: the label table's window at grid point i is page c[i 0], a page of the table. -/
theorem ok_of_range (hR : Cert.Spec.InRange (m (((0 : Dev nD).tc : Thread nD τ).loc main_arg2)) (m (((0 : Dev nD).tc : Thread nD τ).loc main_arg3))) :
    Ok m := by
  intro i
  have hc : (m (((0 : Dev nD).tc : Thread nD τ).loc main_arg3) (ix1 (i 0))).toNat < 1000 := hR.c_lt (i 0)
  refine ⟨fun a => ?_, Or.inl rfl⟩
  rw [transform_3_eq]
  match a with
  | ⟨0, _⟩ => show ((m (((0 : Dev nD).tc : Thread nD τ).loc main_arg3) (ix1 (i 0))).toNat + 1) * 1 ≤ 1000; omega
  | ⟨1, _⟩ => show (0 + 1) * 128 ≤ 128; omega
  | ⟨2, _⟩ => show (0 + 1) * 128 ≤ 128; omega

/-- The side condition the body assumes at every point: the strip's rows are rows of the blocks. -/
theorem hyps_of_range (hR : Cert.Spec.InRange (m (((0 : Dev nD).tc : Thread nD τ).loc main_arg2)) (m (((0 : Dev nD).tc : Thread nD τ).loc main_arg3)))
    (hO : Ok m) : Hyps m hO := by
  intro c t
  rw [word_lens]
  exact chk _ (hR.lens_le _)

end Cert.KernelIdeal.Fr

end
-- ==== Proof.KIPay.lean ====
/- The values the kernel body stores, each read at an index, and what its whole-buffer and start-row loads read.

   Every store of the body writes a shape cast of something it loaded. A block of shape [1, n, 128] cast to [n, 128]
   and back is the block itself; a row of shape [1, 128] cast to [1, 1, 128] reads, at (u, w, l), the row at (0, l),
   because both positions are l in row-major order. A load through the rectangle of the buffer's own sizes at zero
   offsets reads the whole contents, and the load of one row of the start-row table at offset (b, 0) reads row b. -/
import proofs.«414577_j11235634446820_1_alg».proof.Proof.KIKit
import Idealize.ShloMosaic.Lib.Pipeline.Value
import Idealize.ShloMosaic.Lib.ValueLayout
import Idealize.ShloMosaic.Lib.ValueIdx

noncomputable section

namespace Cert.KernelIdeal.Fr

open Cert.KernelIdeal Cert.KernelIdeal.Gen Idealize.ShloMosaic Idealize.ShloMosaic.TcCoe Idealize.SL.Sem Idealize.ShloMosaic.ValueIdx

variable {F : FTy → Type} [FloatOps F]

/-! ## A block cast to its matrix and back -/

/-- A [1, 128, 128] page cast to [128, 128] and back is the page. -/
theorem pay7_eq (v : Vec F S1x128x128 .f32) : k0_pay7 v = v := by unfold k0_pay7; dsimp only; rw [shapeCast_shapeCast]
theorem pay2_eq (v : Vec F S1x128x128 .f32) : k0_pay2 v = v := by unfold k0_pay2; dsimp only; rw [shapeCast_shapeCast]

/-- A [1, 2048, 128] block cast to [2048, 128] and back is the block. -/
theorem pay5_eq (v : Vec F S1x2048x128 .f32) : k0_pay5 v = v := by unfold k0_pay5; dsimp only; rw [shapeCast_shapeCast]
theorem pay8_eq (v : Vec F S1x2048x128 .f32) : k0_pay8 v = v := by unfold k0_pay8; dsimp only; rw [shapeCast_shapeCast]

/-! ## A row given a second unit axis -/

/-- The two leading coordinates of a [1, 1, 128] index are 0. -/
private theorem x0 (x : S1x1x128.Idx) : (x 0).val = 0 := by
  have h := (x 0).isLt
  have e : S1x1x128.size 0 = 1 := rfl
  omega
private theorem x1 (x : S1x1x128.Idx) : (x 1).val = 0 := by
  have h := (x 1).isLt
  have e : S1x1x128.size 1 = 1 := rfl
  omega

/-- A [1, 128] row cast to [1, 1, 128] reads, at (u, w, l), the row at (0, l): both are position l in row-major order. -/
private theorem row_cast_apply (v : Vec F S1x128 .f32) (h : S1x128.ShapeCasts S1x1x128) (x : S1x1x128.Idx) :
    shapeCast S1x1x128 v h x = v (ix2 (0 : Fin 1) (x 2)) :=
  shapeCast_apply v h x _ (by
    rw [Shape.rowMajor_val_two, Shape.rowMajor_val_three]
    show 0 * 128 + (x 2).val = ((x 0).val * 1 + (x 1).val) * 128 + (x 2).val
    rw [x0 x, x1 x])

theorem pay1_apply (v : Vec F S1x128 .f32) (x : S1x1x128.Idx) : k0_pay1 v x = v (ix2 (0 : Fin 1) (x 2)) := by
  unfold k0_pay1; exact row_cast_apply v _ x
theorem pay3_apply (v : Vec F S1x128 .f32) (x : S1x1x128.Idx) : k0_pay3 v x = v (ix2 (0 : Fin 1) (x 2)) := by
  unfold k0_pay3; exact row_cast_apply v _ x
theorem pay4_apply (v : Vec F S1x128 .f32) (x : S1x1x128.Idx) : k0_pay4 v x = v (ix2 (0 : Fin 1) (x 2)) := by
  unfold k0_pay4; exact row_cast_apply v _ x
theorem pay6_apply (v : Vec F S1x128 .f32) (x : S1x1x128.Idx) : k0_pay6 v x = v (ix2 (0 : Fin 1) (x 2)) := by
  unfold k0_pay6; exact row_cast_apply v _ x

/-! ## The whole-buffer loads -/

private theorem zeros3 : (![0, 0, 0] : Fin 3 → Nat) = fun _ => 0 := by
  funext a; match a with | ⟨0, _⟩ => rfl | ⟨1, _⟩ => rfl | ⟨2, _⟩ => rfl

/-- A load of the whole [1, 2048, 128] block, through the rectangle of the block's own sizes at zero offsets, of a
    buffer that reads `x` reads `x`. -/
theorem load_whole_x (arg : Memref sig .tc .vmem S1x2048x128 .f32) (harg : arg.IsWhole) (x : Vec F S1x2048x128 .f32) :
    View.readAt (Elt F) arg.view (Rect.unit (s := S1x2048x128) ![0, 0, 0] S1x2048x128.size inb_S1x2048x128_S1x2048x128_0_0_0).toLoadRect (harg.unread x) = x := by
  rw [View.readAt_eq_ld, Memref.IsWhole.read_unread]
  exact View.ld_unit_zero zeros3 _ x

/-- The same with the rectangle's sizes written out. -/
theorem load_whole_x_lit (arg : Memref sig .tc .vmem S1x2048x128 .f32) (harg : arg.IsWhole) (x : Vec F S1x2048x128 .f32)
    (inb : ∀ a, (![0, 0, 0] : Fin 3 → Nat) a + (![1, 2048, 128] : Fin 3 → Nat) a ≤ S1x2048x128.size a) :
    View.readAt (Elt F) arg.view (Rect.unit (s := S1x2048x128) ![0, 0, 0] ![1, 2048, 128] inb).toLoadRect (harg.unread x) = x :=
  load_whole_x arg harg x

/-- A load of the whole [1, 128, 128] page of a buffer that reads `x` reads `x`. -/
theorem load_whole_page (arg : Memref sig .tc .vmem S1x128x128 .f32) (harg : arg.IsWhole) (x : Vec F S1x128x128 .f32) :
    View.readAt (Elt F) arg.view (Rect.unit (s := S1x128x128) ![0, 0, 0] S1x128x128.size inb_S1x128x128_S1x128x128_0_0_0).toLoadRect (harg.unread x) = x := by
  rw [View.readAt_eq_ld, Memref.IsWhole.read_unread]
  exact View.ld_unit_zero zeros3 _ x

/-- The same with the rectangle's sizes written out. -/
theorem load_whole_page_lit (arg : Memref sig .tc .vmem S1x128x128 .f32) (harg : arg.IsWhole) (x : Vec F S1x128x128 .f32)
    (inb : ∀ a, (![0, 0, 0] : Fin 3 → Nat) a + (![1, 128, 128] : Fin 3 → Nat) a ≤ S1x128x128.size a) :
    View.readAt (Elt F) arg.view (Rect.unit (s := S1x128x128) ![0, 0, 0] ![1, 128, 128] inb).toLoadRect (harg.unread x) = x :=
  load_whole_page arg harg x

/-! ## The start row's load -/

/-- The leading coordinate of a [1, 128] index is 0. -/
private theorem y0 (y : S1x128.Idx) : (y 0).val = 0 := by
  have h := (y 0).isLt
  have e : S1x128.size 0 = 1 := rfl
  omega

/-- The load of one row of the start-row table at offsets (b, 0), of a buffer that reads `x2`, reads row `b` of `x2`:
    on each axis the rectangle places coordinate q at offset + 1 · q. -/
theorem load_row_at (arg5 : Memref sig .tc .vmem S64x128 .f32) (harg5 : arg5.IsWhole) (x2 : Vec F S64x128 .f32)
    (off : Fin 2 → Nat) (b : Fin 64) (h0 : off 0 = b.val) (h1 : off 1 = 0) (inb : ∀ a, off a + S1x128.size a ≤ S64x128.size a) (y : S1x128.Idx) :
    View.readAt (Elt F) arg5.view (Rect.unit (s := S64x128) off S1x128.size inb).toLoadRect (harg5.unread x2) y = x2 (ix2 b (y 1)) := by
  rw [View.readAt_eq_ld, Memref.IsWhole.read_unread]
  show x2 _ = x2 _
  congr 1
  funext a
  apply Fin.ext
  match a with
  | ⟨0, _⟩ => show off 0 + 1 * (y 0).val = b.val; rw [h0, y0 y]; rfl
  | ⟨1, _⟩ => show off 1 + 1 * (y 1).val = (y 1).val; rw [h1]; omega

/-- At grid point `i` the body's load of the start row, at offsets (i, 0), reads row `i` of `x2`. -/
theorem load_sosrow (i : grid0.Coords) (arg5 : Memref sig .tc .vmem S64x128 .f32) (harg5 : arg5.IsWhole) (x2 : Vec F S64x128 .f32) (y : S1x128.Idx) :
    View.readAt (Elt F) arg5.view (Rect.unit (s := S64x128) (k0_off2 i) S1x128.size (k0_off2_inb i)).toLoadRect (harg5.unread x2) y = x2 (ix2 (i 0) (y 1)) :=
  load_row_at arg5 harg5 x2 (k0_off2 i) (i 0) (by rw [k0_off2_eq i]; rfl) (by rw [k0_off2_eq i]; rfl) _ y

/-- The same with the rectangle's sizes written out. -/
theorem load_sosrow_lit (i : grid0.Coords) (arg5 : Memref sig .tc .vmem S64x128 .f32) (harg5 : arg5.IsWhole) (x2 : Vec F S64x128 .f32)
    (inb : ∀ a, (k0_off2 i) a + (![1, 128] : Fin 2 → Nat) a ≤ S64x128.size a) (y : S1x128.Idx) :
    View.readAt (Elt F) arg5.view (Rect.unit (s := S64x128) (k0_off2 i) ![1, 128] inb).toLoadRect (harg5.unread x2) y = x2 (ix2 (i 0) (y 1)) :=
  load_sosrow i arg5 harg5 x2 y

end Cert.KernelIdeal.Fr

end
-- ==== Proof.KIBlocks.lean ====
/- Where the blocks of the windows sit in their arrays.

   The grid has one point per batch. At point t the windows over x, the target and the two results are the block of one
   batch, block index (t, 0, 0); the window over the start rows is the whole array, block index (0, 0); the window over
   the label table is the block of one page, block index (p, 0, 0) with p the value of the word its index map reads at t.
   An element of a block sits in the array, on each axis, at the block index times the block's extent plus its own
   coordinate. So:

   * iblk0_apply, iblk1_apply, iblk2_apply, iblk3_apply: each input block read off its array, index by index;
   * blk4_read, blk5_read: an array of a result's shape read through point t's block is its batch t;
   * cover4, cover5: every index of a result lies in the block of the point numbered by its batch, and that point writes
     its block back. -/
import proofs.«414577_j11235634446820_1_alg».proof.Proof.KIKit
import proofs.«414577_j11235634446820_1_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen Idealize.ShloMosaic Idealize.ShloMosaic.TcCoe Idealize.SL Idealize.SL.Sem Idealize.ShloMosaic.ValueIdx
open Idealize.ShloMosaic.Pipeline (Dat Cfg Window)

variable {F : FTy → Type} [FloatOps F] (m : (ℓ : Loc nD τ sig) → Buf (Elt F) ℓ)

/-- The batch a grid point works on: the point's number. -/
def bt (t : Fin grid0.N) : Fin 64 := ⟨t.val, lt_of_lt_of_eq t.isLt N_0⟩

@[simp] theorem bt_val (t : Fin grid0.N) : (bt t).val = t.val := rfl

/-- The printed index maps that read no table, decided over the grid: block (t, 0, 0) for the four batch-blocked windows,
    block (0, 0) for the whole-array window. -/
theorem idx_grid : ∀ t : Fin grid0.N,
    (cc0_transform_0 (grid0.coords t) 0 = t.val ∧ cc0_transform_0 (grid0.coords t) 1 = 0 ∧ cc0_transform_0 (grid0.coords t) 2 = 0)
    ∧ (cc0_transform_1 (grid0.coords t) 0 = t.val ∧ cc0_transform_1 (grid0.coords t) 1 = 0 ∧ cc0_transform_1 (grid0.coords t) 2 = 0)
    ∧ (cc0_transform_2 (grid0.coords t) 0 = 0 ∧ cc0_transform_2 (grid0.coords t) 1 = 0)
    ∧ (cc0_transform_4 (grid0.coords t) 0 = t.val ∧ cc0_transform_4 (grid0.coords t) 1 = 0 ∧ cc0_transform_4 (grid0.coords t) 2 = 0)
    ∧ (cc0_transform_5 (grid0.coords t) 0 = t.val ∧ cc0_transform_5 (grid0.coords t) 1 = 0 ∧ cc0_transform_5 (grid0.coords t) 2 = 0) := by
  decide +kernel

/-! ## The input blocks, read off the arrays

An element of a block sits in its array, on each axis, at the block index times the block's extent plus its own
coordinate. For the batch-blocked windows that is (t, y 1, y 2): the block index is (t, 0, 0) and the block's leading
extent is one, so its leading coordinate is zero. -/

/-- Window 0's block at point t is batch t of x. -/
theorem iblk0_apply (hO : Ok m) (c : Dev nD) (t : Fin (cfgM m hO).N) (y : S1x2048x128.Idx) :
    iblk m hO c 0 t y = m ((c : Thread nD τ).loc main_arg0) (ix3 (bt t) (y 1) (y 2)) := by
  show m ((c : Thread nD τ).loc main_arg0) ((((cfgM m hO).win 0).blk t).view.emb y) = _
  refine congrArg (m ((c : Thread nD τ).loc main_arg0)) ?_
  funext a
  apply Fin.ext
  obtain ⟨⟨e0, e1, e2⟩, -⟩ := idx_grid t
  have hy0 : (y 0).val < 1 := (y 0).isLt
  match a with
  | ⟨0, _⟩ => show cc0_transform_0 (grid0.coords t) 0 * 1 + 1 * (y 0).val = t.val; omega
  | ⟨1, _⟩ => show cc0_transform_0 (grid0.coords t) 1 * 2048 + 1 * (y 1).val = (y 1).val; omega
  | ⟨2, _⟩ => show cc0_transform_0 (grid0.coords t) 2 * 128 + 1 * (y 2).val = (y 2).val; omega

/-- Window 1's block at point t is batch t of the target. -/
theorem iblk1_apply (hO : Ok m) (c : Dev nD) (t : Fin (cfgM m hO).N) (y : S1x2048x128.Idx) :
    iblk m hO c 1 t y = m ((c : Thread nD τ).loc main_arg1) (ix3 (bt t) (y 1) (y 2)) := by
  show m ((c : Thread nD τ).loc main_arg1) ((((cfgM m hO).win 1).blk t).view.emb y) = _
  refine congrArg (m ((c : Thread nD τ).loc main_arg1)) ?_
  funext a
  apply Fin.ext
  obtain ⟨-, ⟨e0, e1, e2⟩, -⟩ := idx_grid t
  have hy0 : (y 0).val < 1 := (y 0).isLt
  match a with
  | ⟨0, _⟩ => show cc0_transform_1 (grid0.coords t) 0 * 1 + 1 * (y 0).val = t.val; omega
  | ⟨1, _⟩ => show cc0_transform_1 (grid0.coords t) 1 * 2048 + 1 * (y 1).val = (y 1).val; omega
  | ⟨2, _⟩ => show cc0_transform_1 (grid0.coords t) 2 * 128 + 1 * (y 2).val = (y 2).val; omega

/-- Window 2's block is the whole array of start rows, at every point. -/
theorem iblk2_apply (hO : Ok m) (c : Dev nD) (t : Fin (cfgM m hO).N) (y : S64x128.Idx) :
    iblk m hO c 2 t y = m ((c : Thread nD τ).loc main_arg4) y := by
  show m ((c : Thread nD τ).loc main_arg4) ((((cfgM m hO).win 2).blk t).view.emb y) = _
  refine congrArg (m ((c : Thread nD τ).loc main_arg4)) ?_
  funext a
  apply Fin.ext
  obtain ⟨-, -, ⟨e0, e1⟩, -⟩ := idx_grid t
  match a with
  | ⟨0, _⟩ => show cc0_transform_2 (grid0.coords t) 0 * 64 + 1 * (y 0).val = (y 0).val; omega
  | ⟨1, _⟩ => show cc0_transform_2 (grid0.coords t) 1 * 128 + 1 * (y 1).val = (y 1).val; omega

/-- Window 3's block at point t is page p of the label table, p the value of the word its index map reads there. -/
theorem iblk3_apply (hO : Ok m) (c : Dev nD) (t : Fin (cfgM m hO).N) (y : S1x128x128.Idx) (p : Fin 1000)
    (hp : (cc0_transform_3 k0_off1_inb numel1_S1 (tbl m) (grid0.coords t)) 0 = p.val) :
    iblk m hO c 3 t y = m ((c : Thread nD τ).loc main_arg5) (ix3 p (y 1) (y 2)) := by
  show m ((c : Thread nD τ).loc main_arg5) ((((cfgM m hO).win 3).blk t).view.emb y) = _
  refine congrArg (m ((c : Thread nD τ).loc main_arg5)) ?_
  funext a
  apply Fin.ext
  have e1 : (cc0_transform_3 k0_off1_inb numel1_S1 (tbl m) (grid0.coords t)) 1 = 0 := rfl
  have e2 : (cc0_transform_3 k0_off1_inb numel1_S1 (tbl m) (grid0.coords t)) 2 = 0 := rfl
  have hy0 : (y 0).val < 1 := (y 0).isLt
  match a with
  | ⟨0, _⟩ => show (cc0_transform_3 k0_off1_inb numel1_S1 (tbl m) (grid0.coords t)) 0 * 1 + 1 * (y 0).val = p.val; omega
  | ⟨1, _⟩ => show (cc0_transform_3 k0_off1_inb numel1_S1 (tbl m) (grid0.coords t)) 1 * 128 + 1 * (y 1).val = (y 1).val; omega
  | ⟨2, _⟩ => show (cc0_transform_3 k0_off1_inb numel1_S1 (tbl m) (grid0.coords t)) 2 * 128 + 1 * (y 2).val = (y 2).val; omega

/-! ## The result blocks: an array read through a point's block, and the blocks' cover -/

/-- An array of the first result's shape read through point t's block is its batch t. -/
theorem blk4_read (hO : Ok m) (G : S64x2049x128.Idx → Elt F .f32) (t : Fin (cfgM m hO).N) (y : S1x2049x128.Idx) :
    (((cfgM m hO).win 4).blk t).view.read (Elt F) G y = G (ix3 (bt t) (y 1) (y 2)) := by
  show G ((((cfgM m hO).win 4).blk t).view.emb y) = _
  refine congrArg G ?_
  funext a
  apply Fin.ext
  obtain ⟨-, -, -, ⟨e0, e1, e2⟩, -⟩ := idx_grid t
  have hy0 : (y 0).val < 1 := (y 0).isLt
  match a with
  | ⟨0, _⟩ => show cc0_transform_4 (grid0.coords t) 0 * 1 + 1 * (y 0).val = t.val; omega
  | ⟨1, _⟩ => show cc0_transform_4 (grid0.coords t) 1 * 2049 + 1 * (y 1).val = (y 1).val; omega
  | ⟨2, _⟩ => show cc0_transform_4 (grid0.coords t) 2 * 128 + 1 * (y 2).val = (y 2).val; omega

/-- An array of the second result's shape read through point t's block is its batch t. -/
theorem blk5_read (hO : Ok m) (G : S64x2048x128.Idx → Elt F .f32) (t : Fin (cfgM m hO).N) (y : S1x2048x128.Idx) :
    (((cfgM m hO).win 5).blk t).view.read (Elt F) G y = G (ix3 (bt t) (y 1) (y 2)) := by
  show G ((((cfgM m hO).win 5).blk t).view.emb y) = _
  refine congrArg G ?_
  funext a
  apply Fin.ext
  obtain ⟨-, -, -, -, ⟨e0, e1, e2⟩⟩ := idx_grid t
  have hy0 : (y 0).val < 1 := (y 0).isLt
  match a with
  | ⟨0, _⟩ => show cc0_transform_5 (grid0.coords t) 0 * 1 + 1 * (y 0).val = t.val; omega
  | ⟨1, _⟩ => show cc0_transform_5 (grid0.coords t) 1 * 2048 + 1 * (y 1).val = (y 1).val; omega
  | ⟨2, _⟩ => show cc0_transform_5 (grid0.coords t) 2 * 128 + 1 * (y 2).val = (y 2).val; omega

/-- Every index of the first result lies in the block of the point numbered by its batch, which is written back. -/
theorem cover4 (hO : Ok m) (i : S64x2049x128.Idx) :
    ∃ t : Fin (cfgM m hO).N, ((cfgM m hO).win 4).flush t = true ∧ i ∈ (((cfgM m hO).win 4).blk t).view.set := by
  have hi0 : (i 0).val < 64 := (i 0).isLt
  have hi1 : (i 1).val < 2049 := (i 1).isLt
  have hi2 : (i 2).val < 128 := (i 2).isLt
  have hlt : (i 0).val < grid0.N := lt_of_lt_of_eq hi0 N_0.symm
  obtain ⟨E0, e1, e2⟩ : cc0_transform_4 (grid0.coords ⟨(i 0).val, hlt⟩) 0 = (⟨(i 0).val, hlt⟩ : Fin grid0.N).val
      ∧ cc0_transform_4 (grid0.coords ⟨(i 0).val, hlt⟩) 1 = 0 ∧ cc0_transform_4 (grid0.coords ⟨(i 0).val, hlt⟩) 2 = 0 :=
    (idx_grid ⟨(i 0).val, hlt⟩).2.2.2.1
  have e0 : cc0_transform_4 (grid0.coords ⟨(i 0).val, hlt⟩) 0 = (i 0).val := E0
  refine ⟨⟨(i 0).val, hlt⟩, flush0_4 (adm m hO) _, ?_⟩
  -- the block's index set is its rectangle's; membership there is, axis by axis, a range
  refine (Finset.ext_iff.1 (View.set_slice_whole main_v0_0 (((cfgM m hO).win 4).rect ⟨(i 0).val, hlt⟩)) i).2 ?_
  refine Rect.mem_set_unit.2 fun a => ?_
  match a with
  | ⟨0, _⟩ =>
    show cc0_transform_4 (grid0.coords ⟨(i 0).val, hlt⟩) 0 * 1 ≤ (i 0).val
      ∧ (i 0).val < cc0_transform_4 (grid0.coords ⟨(i 0).val, hlt⟩) 0 * 1 + 1
    omega
  | ⟨1, _⟩ =>
    show cc0_transform_4 (grid0.coords ⟨(i 0).val, hlt⟩) 1 * 2049 ≤ (i 1).val
      ∧ (i 1).val < cc0_transform_4 (grid0.coords ⟨(i 0).val, hlt⟩) 1 * 2049 + 2049
    omega
  | ⟨2, _⟩ =>
    show cc0_transform_4 (grid0.coords ⟨(i 0).val, hlt⟩) 2 * 128 ≤ (i 2).val
      ∧ (i 2).val < cc0_transform_4 (grid0.coords ⟨(i 0).val, hlt⟩) 2 * 128 + 128
    omega

/-- Every index of the second result lies in the block of the point numbered by its batch, which is written back. -/
theorem cover5 (hO : Ok m) (i : S64x2048x128.Idx) :
    ∃ t : Fin (cfgM m hO).N, ((cfgM m hO).win 5).flush t = true ∧ i ∈ (((cfgM m hO).win 5).blk t).view.set := by
  have hi0 : (i 0).val < 64 := (i 0).isLt
  have hi1 : (i 1).val < 2048 := (i 1).isLt
  have hi2 : (i 2).val < 128 := (i 2).isLt
  have hlt : (i 0).val < grid0.N := lt_of_lt_of_eq hi0 N_0.symm
  obtain ⟨E0, e1, e2⟩ : cc0_transform_5 (grid0.coords ⟨(i 0).val, hlt⟩) 0 = (⟨(i 0).val, hlt⟩ : Fin grid0.N).val
      ∧ cc0_transform_5 (grid0.coords ⟨(i 0).val, hlt⟩) 1 = 0 ∧ cc0_transform_5 (grid0.coords ⟨(i 0).val, hlt⟩) 2 = 0 :=
    (idx_grid ⟨(i 0).val, hlt⟩).2.2.2.2
  have e0 : cc0_transform_5 (grid0.coords ⟨(i 0).val, hlt⟩) 0 = (i 0).val := E0
  refine ⟨⟨(i 0).val, hlt⟩, flush0_5 (adm m hO) _, ?_⟩
  -- the block's index set is its rectangle's; membership there is, axis by axis, a range
  refine (Finset.ext_iff.1 (View.set_slice_whole main_v0_1 (((cfgM m hO).win 5).rect ⟨(i 0).val, hlt⟩)) i).2 ?_
  refine Rect.mem_set_unit.2 fun a => ?_
  match a with
  | ⟨0, _⟩ =>
    show cc0_transform_5 (grid0.coords ⟨(i 0).val, hlt⟩) 0 * 1 ≤ (i 0).val
      ∧ (i 0).val < cc0_transform_5 (grid0.coords ⟨(i 0).val, hlt⟩) 0 * 1 + 1
    omega
  | ⟨1, _⟩ =>
    show cc0_transform_5 (grid0.coords ⟨(i 0).val, hlt⟩) 1 * 2048 ≤ (i 1).val
      ∧ (i 1).val < cc0_transform_5 (grid0.coords ⟨(i 0).val, hlt⟩) 1 * 2048 + 2048
    omega
  | ⟨2, _⟩ =>
    show cc0_transform_5 (grid0.coords ⟨(i 0).val, hlt⟩) 2 * 128 ≤ (i 2).val
      ∧ (i 2).val < cc0_transform_5 (grid0.coords ⟨(i 0).val, hlt⟩) 2 * 128 + 128
    omega

end Cert.KernelIdeal.Fr

end
-- ==== Proof.LibRowPieces.lean ====
/- Row ranges of a [1, R, 128] buffer filled piece by piece.

   A buffer of R rows of 128 lanes (with a leading axis of extent one) is filled by stores of row ranges, each store a
   unit-stride rectangle of n whole rows starting at row o, a later store overwriting an earlier one. Its contents are
   the canonical contents of the list of pieces, the last store first. Three facts, for any element type, any R, n
   and any run-time o:

   * canon_rows_hit: at a row r with o ≤ r < o + n the contents are the last store's payload at row r − o;
   * canon_rows_miss: at any other row they are the canonical contents of the earlier stores;
   * ld_rows: a load through such a rectangle reads, at row q of the rectangle, row o + q of what it reads from.

   Nothing here names a program: the offsets enter only through their three coordinates (0, o, 0). -/
import Idealize.ShloMosaic.Lib.Pipeline.FrameBody
import Idealize.ShloMosaic.Lib.Pipeline.Value
import Idealize.ShloMosaic.Lib.ValueIdx

noncomputable section

namespace Cert.LibRowPieces

open Idealize.ShloMosaic Idealize.ShloMosaic.ValueIdx

/-- The index (0, r, l) of the buffer is the rectangle's own index (0, r − o, l) placed in the buffer: on each axis the
    coordinate is the offset plus the rectangle's coordinate, the stride being one. -/
private theorem emb_rows {R n : Nat} (off : Fin 3 → Nat) (o : Nat) (h0 : off 0 = 0) (h1 : off 1 = o) (h2 : off 2 = 0)
    (inb : ∀ a, off a + (⟨3, ![1, n, 128]⟩ : Shape).size a ≤ (⟨3, ![1, R, 128]⟩ : Shape).size a)
    (q : Fin n) (l : Fin 128) (hq : o + q.val < R) :
    (Rect.unit (s := (⟨3, ![1, R, 128]⟩ : Shape)) off (⟨3, ![1, n, 128]⟩ : Shape).size inb).emb (ix3 (0 : Fin 1) q l)
      = ix3 (0 : Fin 1) ⟨o + q.val, hq⟩ l := by
  funext a
  apply Fin.ext
  match a with
  | ⟨0, _⟩ => show off 0 + 1 * 0 = 0; omega
  | ⟨1, _⟩ => show off 1 + 1 * q.val = o + q.val; omega
  | ⟨2, _⟩ => show off 2 + 1 * l.val = l.val; omega

/-- Under the last store: a row inside its range reads its payload, at the row counted from the range's first. -/
theorem canon_rows_hit {Val : EltTy → Type} [∀ e, Nonempty (Val e)] {e : EltTy} {R n : Nat} (off : Fin 3 → Nat) (o : Nat)
    (h0 : off 0 = 0) (h1 : off 1 = o) (h2 : off 2 = 0)
    (inb : ∀ a, off a + (⟨3, ![1, n, 128]⟩ : Shape).size a ≤ (⟨3, ![1, R, 128]⟩ : Shape).size a)
    (w : (Rect.unit (s := (⟨3, ![1, R, 128]⟩ : Shape)) off (⟨3, ![1, n, 128]⟩ : Shape).size inb).shape.Idx → Val e)
    (L : List (View.Piece Val (⟨3, ![1, R, 128]⟩ : Shape) e)) (r : Fin R) (l : Fin 128) (hr : o ≤ r.val ∧ r.val < o + n) :
    View.canon (⟨Rect.unit (s := (⟨3, ![1, R, 128]⟩ : Shape)) off (⟨3, ![1, n, 128]⟩ : Shape).size inb, w⟩ :: L)
        (ix3 (0 : Fin 1) r l)
      = w (ix3 (0 : Fin 1) ⟨r.val - o, by omega⟩ l) := by
  have hq : o + (r.val - o) < R := by have := r.isLt; omega
  have hx := emb_rows (R := R) (n := n) off o h0 h1 h2 inb ⟨r.val - o, by omega⟩ l hq
  have hr' : (⟨o + (r.val - o), hq⟩ : Fin R) = r := Fin.ext (by show o + (r.val - o) = r.val; omega)
  rw [hr'] at hx
  rw [← hx]
  exact View.canon_cons_emb _ w L _

/-- Off the last store: a row outside its range reads what the earlier stores left. -/
theorem canon_rows_miss {Val : EltTy → Type} [∀ e, Nonempty (Val e)] {e : EltTy} {R n : Nat} (off : Fin 3 → Nat) (o : Nat)
    (h0 : off 0 = 0) (h1 : off 1 = o) (h2 : off 2 = 0)
    (inb : ∀ a, off a + (⟨3, ![1, n, 128]⟩ : Shape).size a ≤ (⟨3, ![1, R, 128]⟩ : Shape).size a)
    (w : (Rect.unit (s := (⟨3, ![1, R, 128]⟩ : Shape)) off (⟨3, ![1, n, 128]⟩ : Shape).size inb).shape.Idx → Val e)
    (L : List (View.Piece Val (⟨3, ![1, R, 128]⟩ : Shape) e)) (r : Fin R) (l : Fin 128) (hr : ¬ (o ≤ r.val ∧ r.val < o + n)) :
    View.canon (⟨Rect.unit (s := (⟨3, ![1, R, 128]⟩ : Shape)) off (⟨3, ![1, n, 128]⟩ : Shape).size inb, w⟩ :: L)
        (ix3 (0 : Fin 1) r l)
      = View.canon L (ix3 (0 : Fin 1) r l) := by
  refine View.canon_cons_of_not_mem _ L ?_
  show ix3 (0 : Fin 1) r l ∉ (Rect.unit (s := (⟨3, ![1, R, 128]⟩ : Shape)) off (⟨3, ![1, n, 128]⟩ : Shape).size inb).set
  rw [Rect.mem_set_unit]
  intro hmem
  -- membership fails on the row axis
  have h := hmem 1
  have h' : off 1 ≤ r.val ∧ r.val < off 1 + n := h
  rw [h1] at h'
  exact hr h'

/-- A load through the rectangle reads row o + q of its source at the rectangle's row q. -/
theorem ld_rows {Val : EltTy → Type} {e : EltTy} {R n : Nat} (X : (⟨3, ![1, R, 128]⟩ : Shape).Idx → Val e)
    (off : Fin 3 → Nat) (o : Nat) (h0 : off 0 = 0) (h1 : off 1 = o) (h2 : off 2 = 0)
    (inb : ∀ a, off a + (⟨3, ![1, n, 128]⟩ : Shape).size a ≤ (⟨3, ![1, R, 128]⟩ : Shape).size a)
    (x : (⟨3, ![1, n, 128]⟩ : Shape).Idx) :
    X ((Rect.unit (s := (⟨3, ![1, R, 128]⟩ : Shape)) off (⟨3, ![1, n, 128]⟩ : Shape).size inb).emb x)
      = X (ix3 (0 : Fin 1) ⟨o + (x 1).val, by
          have hi : off 1 + n ≤ R := inb 1
          have hx : (x 1).val < n := (x 1).isLt
          omega⟩ (x 2)) := by
  congr 1
  funext a
  apply Fin.ext
  -- on each axis the coordinate is the offset plus the rectangle's coordinate; the leading coordinate is zero
  have hx0 : (x 0).val < 1 := (x 0).isLt
  match a with
  | ⟨0, _⟩ => show off 0 + 1 * (x 0).val = 0; omega
  | ⟨1, _⟩ => show off 1 + 1 * (x 1).val = o + (x 1).val; omega
  | ⟨2, _⟩ => show off 2 + 1 * (x 2).val = (x 2).val; omega

end Cert.LibRowPieces

end
-- ==== Proof.SpecCases.lean ====
/- The two results of Spec by cases of the row: which argument's entry a row of batch b is, given where the strip
   starts (L = lens[b] read unsigned) and which page it carries (c[b] read unsigned, below 1000). -/
import proofs.«414577_j11235634446820_1_alg».proof.Proof.Spec

noncomputable section

namespace Cert.Spec

open Idealize.ShloMosaic Idealize.ShloMosaic.ValueIdx

variable {α : Type} (x tgt : SX.Idx → α) (lens c : SW.Idx → BitVec 32) (sos : SS.Idx → α) (labels : SL.Idx → α)
  (b : Fin 64) (l : Fin 128)

/-! ## The first result: row 0, then x one row down with the strip's first 129 rows at rows L + 1 … L + 129 -/

theorem xoutAt_zero (r : Fin 2049) (h : r.val = 0) : xoutAt x lens c sos labels b r l = sos (ix2 b l) := by
  unfold xoutAt; rw [dif_pos h]

theorem xoutAt_start (r : Fin 2049) (h : r.val = (lens (ix1 b)).toNat + 1) : xoutAt x lens c sos labels b r l = sos (ix2 b l) := by
  unfold xoutAt
  rw [dif_neg (by omega)]
  unfold xmidAt startRow
  have h1 : (lens (ix1 b)).toNat ≤ r.val - 1 ∧ r.val - 1 ≤ (lens (ix1 b)).toNat + 128 := by omega
  rw [if_pos h1]
  unfold stripAt
  have h2 : r.val - 1 - (lens (ix1 b)).toNat = 0 ∨ r.val - 1 - (lens (ix1 b)).toNat = 129 := by omega
  rw [if_pos h2]

theorem xoutAt_page (r : Fin 2049) (h : (lens (ix1 b)).toNat + 2 ≤ r.val ∧ r.val < (lens (ix1 b)).toNat + 2 + 128)
    (hc : (c (ix1 b)).toNat < 1000) :
    xoutAt x lens c sos labels b r l
      = labels (ix3 (⟨(c (ix1 b)).toNat, hc⟩ : Fin 1000) (⟨r.val - ((lens (ix1 b)).toNat + 2), by omega⟩ : Fin 128) l) := by
  unfold xoutAt
  rw [dif_neg (by omega)]
  unfold xmidAt startRow
  have h1 : (lens (ix1 b)).toNat ≤ r.val - 1 ∧ r.val - 1 ≤ (lens (ix1 b)).toNat + 128 := by omega
  rw [if_pos h1]
  unfold stripAt
  have h2 : ¬ (r.val - 1 - (lens (ix1 b)).toNat = 0 ∨ r.val - 1 - (lens (ix1 b)).toNat = 129) := by omega
  rw [if_neg h2]
  have e1 : pageOf c b = ⟨(c (ix1 b)).toNat, hc⟩ := Fin.ext (Nat.mod_eq_of_lt hc)
  have e2 : (⟨(r.val - 1 - (lens (ix1 b)).toNat - 1) % 128, Nat.mod_lt _ (by decide)⟩ : Fin 128)
      = ⟨r.val - ((lens (ix1 b)).toNat + 2), by omega⟩ := Fin.ext (by
    show (r.val - 1 - (lens (ix1 b)).toNat - 1) % 128 = r.val - ((lens (ix1 b)).toNat + 2)
    rw [Nat.mod_eq_of_lt (by omega)]; omega)
  rw [e1, e2]

theorem xoutAt_x (r : Fin 2049) (h0 : 1 ≤ r.val)
    (h : ¬ ((lens (ix1 b)).toNat + 1 ≤ r.val ∧ r.val < (lens (ix1 b)).toNat + 2 + 128)) :
    xoutAt x lens c sos labels b r l = x (ix3 b (⟨r.val - 1, by have := r.isLt; omega⟩ : Fin 2048) l) := by
  unfold xoutAt
  rw [dif_neg (by omega)]
  unfold xmidAt startRow
  have h1 : ¬ ((lens (ix1 b)).toNat ≤ r.val - 1 ∧ r.val - 1 ≤ (lens (ix1 b)).toNat + 128) := by omega
  rw [if_neg h1]

/-! ## The second result: the target with the strip's 130 rows at rows L … L + 129 -/

theorem toutAt_first (p : Fin 2048) (h : p.val = (lens (ix1 b)).toNat) : toutAt tgt lens c sos labels b p l = sos (ix2 b l) := by
  unfold toutAt startRow
  have h1 : (lens (ix1 b)).toNat ≤ p.val ∧ p.val ≤ (lens (ix1 b)).toNat + 129 := by omega
  rw [if_pos h1]
  unfold stripAt
  have h2 : p.val - (lens (ix1 b)).toNat = 0 ∨ p.val - (lens (ix1 b)).toNat = 129 := by omega
  rw [if_pos h2]

theorem toutAt_last (p : Fin 2048) (h : p.val = (lens (ix1 b)).toNat + 129) : toutAt tgt lens c sos labels b p l = sos (ix2 b l) := by
  unfold toutAt startRow
  have h1 : (lens (ix1 b)).toNat ≤ p.val ∧ p.val ≤ (lens (ix1 b)).toNat + 129 := by omega
  rw [if_pos h1]
  unfold stripAt
  have h2 : p.val - (lens (ix1 b)).toNat = 0 ∨ p.val - (lens (ix1 b)).toNat = 129 := by omega
  rw [if_pos h2]

theorem toutAt_page (p : Fin 2048) (h : (lens (ix1 b)).toNat + 1 ≤ p.val ∧ p.val < (lens (ix1 b)).toNat + 1 + 128)
    (hc : (c (ix1 b)).toNat < 1000) :
    toutAt tgt lens c sos labels b p l
      = labels (ix3 (⟨(c (ix1 b)).toNat, hc⟩ : Fin 1000) (⟨p.val - ((lens (ix1 b)).toNat + 1), by omega⟩ : Fin 128) l) := by
  unfold toutAt startRow
  have h1 : (lens (ix1 b)).toNat ≤ p.val ∧ p.val ≤ (lens (ix1 b)).toNat + 129 := by omega
  rw [if_pos h1]
  unfold stripAt
  have h2 : ¬ (p.val - (lens (ix1 b)).toNat = 0 ∨ p.val - (lens (ix1 b)).toNat = 129) := by omega
  rw [if_neg h2]
  have e1 : pageOf c b = ⟨(c (ix1 b)).toNat, hc⟩ := Fin.ext (Nat.mod_eq_of_lt hc)
  have e2 : (⟨(p.val - (lens (ix1 b)).toNat - 1) % 128, Nat.mod_lt _ (by decide)⟩ : Fin 128)
      = ⟨p.val - ((lens (ix1 b)).toNat + 1), by omega⟩ := Fin.ext (by
    show (p.val - (lens (ix1 b)).toNat - 1) % 128 = p.val - ((lens (ix1 b)).toNat + 1)
    rw [Nat.mod_eq_of_lt (by omega)]; omega)
  rw [e1, e2]

theorem toutAt_tgt (p : Fin 2048) (h : ¬ ((lens (ix1 b)).toNat ≤ p.val ∧ p.val ≤ (lens (ix1 b)).toNat + 129)) :
    toutAt tgt lens c sos labels b p l = tgt (ix3 b p l) := by
  unfold toutAt startRow
  rw [if_neg h]

end Cert.Spec

end
-- ==== Proof.KIValue4.lean ====
/- The first result, entry by entry. After the body at grid point b the result's staging buffer holds four stores, the
   later over the earlier: the page labels[c[b]] at rows lens[b] + 2 … lens[b] + 129, the start row sos[b] at row
   lens[b] + 1, x[b] at rows 1 … 2048, sos[b] at row 0. Read at row r, the first of these that holds r decides: this
   is the first result of Spec at batch b. The blocks written back tile the array, one batch each, so the array ends
   as that function. -/
import proofs.«414577_j11235634446820_1_alg».proof.Proof.KIFrame
import proofs.«414577_j11235634446820_1_alg».proof.Proof.KIHyps
import proofs.«414577_j11235634446820_1_alg».proof.Proof.KIPay
import proofs.«414577_j11235634446820_1_alg».proof.Proof.KIBlocks
import proofs.«414577_j11235634446820_1_alg».proof.Proof.LibRowPieces
import proofs.«414577_j11235634446820_1_alg».proof.Proof.SpecCases
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.LibRowPieces

/-- The grid's one coordinate at point t is t. -/
theorem coords0 : ∀ t : Fin grid0.N, ((grid0.coords t) 0).val = t.val := by decide +kernel
theorem coords_bt (t : Fin grid0.N) : (grid0.coords t) 0 = bt t := Fin.ext (coords0 t)

/-- The word lens[b] at point t, and the word c[b]. -/
abbrev lensW (t : Fin grid0.N) : BitVec 32 := (m (((0 : Dev nD).tc : Thread nD τ).loc main_arg2)) (ix1 (bt t))
abbrev pageW (t : Fin grid0.N) : BitVec 32 := (m (((0 : Dev nD).tc : Thread nD τ).loc main_arg3)) (ix1 (bt t))

/-- The word the body loads at point t is lens[b]. -/
theorem run_word (hO : Ok m) (t : Fin (cfgM m hO).N) :
    kernelRun0_A.sl.r (F := F) (0 : Dev nD) (grid0.coords t) (tbl m 1) = lensW m t := by
  unfold kernelRun0_A.sl.r
  exact (word_lens m hO t).trans (congrArg (fun b => (m (((0 : Dev nD).tc : Thread nD τ).loc main_arg2)) (ix1 b)) (coords_bt t))

/-- The page the label table's window holds at point t is page c[b]. -/
theorem page_idx (t : Fin grid0.N) :
    (cc0_transform_3 k0_off1_inb numel1_S1 (tbl m) (grid0.coords t)) 0 = (pageW m t).toNat := by
  rw [transform_3_eq m (grid0.coords t), coords_bt t]
  rfl

variable (hR : Cert.Spec.InRange (m (((0 : Dev nD).tc : Thread nD τ).loc main_arg2)) (m (((0 : Dev nD).tc : Thread nD τ).loc main_arg3)))
include hR

/-- THE FIRST RESULT'S BLOCK after the body at point t, at row r and lane l. -/
theorem outs4_apply (hO : Ok m) (hH : Hyps m hO) (c : Dev nD) (t : Fin (cfgM m hO).N) (r : Fin 2049) (l : Fin 128) :
    outsAt0_4 m hO hH c t (ix3 (0 : Fin 1) r l)
      = Cert.Spec.xoutAt (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (bt t) r l := by
  obtain rfl : c = 0 := Subsingleton.elim _ _
  have hL : (lensW m t).toNat ≤ 1918 := hR.lens_le (bt t)
  have hC : (pageW m t).toNat < 1000 := hR.c_lt (bt t)
  have hW := run_word m hO t
  have h4 : k0_off4 (kernelRun0_A.sl.r (F := F) (0 : Dev nD) (grid0.coords t) (tbl m 1)) 1 = (lensW m t).toNat + 2 := by
    rw [hW]; exact toNat_addi _ 2 (by omega)
  have h3 : k0_off3 (kernelRun0_A.sl.r (F := F) (0 : Dev nD) (grid0.coords t) (tbl m 1)) 1 = (lensW m t).toNat + 1 := by
    rw [hW]; exact toNat_addi _ 1 (by omega)
  have hr := r.isLt
  unfold outsAt0_4 out0_A_4
  refine (congrFun (View.read_writes_eq_canon VO0_4 VO0_4.junk _ (cover0_A_4 (0 : Dev nD) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO (0 : Dev nD) 0 t) (iblk m hO (0 : Dev nD) 1 t) (iblk m hO (0 : Dev nD) 2 t) (iblk m hO (0 : Dev nD) 3 t) (tbl m 0) (tbl m 1) (Hyps.c0 hH (0 : Dev nD) t))) (ix3 (0 : Fin 1) r l)).trans ?_
  unfold kernelRun0_A
  dsimp only
  by_cases c4 : (lensW m t).toNat + 2 ≤ r.val ∧ r.val < (lensW m t).toNat + 2 + 128
  · -- a row of the page
    refine (canon_rows_hit (k0_off4 _) ((lensW m t).toNat + 2) rfl h4 rfl _ _ _ r l c4).trans ?_
    rw [pay7_eq]
    refine (congrFun (load_whole_page_lit (ms0_3 m hO t) (hs0_3 m hO t) (iblk m hO (0 : Dev nD) 3 t) _) _).trans ?_
    refine (iblk3_apply m hO (0 : Dev nD) t _ ⟨(pageW m t).toNat, hC⟩ (page_idx m t)).trans ?_
    exact (Cert.Spec.xoutAt_page _ _ _ _ _ (bt t) l r c4 hC).symm
  · refine (canon_rows_miss (k0_off4 _) ((lensW m t).toNat + 2) rfl h4 rfl _ _ _ r l c4).trans ?_
    by_cases c3 : (lensW m t).toNat + 1 ≤ r.val ∧ r.val < (lensW m t).toNat + 1 + 1
    · -- the start row over x
      refine (canon_rows_hit (k0_off3 _) ((lensW m t).toNat + 1) rfl h3 rfl _ _ _ r l c3).trans ?_
      rw [pay6_apply]
      refine (load_sosrow_lit (grid0.coords t) (ms0_2 m hO t) (hs0_2 m hO t) (iblk m hO (0 : Dev nD) 2 t) _ _).trans ?_
      refine (iblk2_apply m hO (0 : Dev nD) t _).trans ?_
      have e : r.val = (lensW m t).toNat + 1 := by omega
      refine Eq.trans ?_ (Cert.Spec.xoutAt_start _ _ _ _ _ (bt t) l r e).symm
      exact congrArg (fun b => (m (((0 : Dev nD).tc : Thread nD τ).loc main_arg4)) (ix2 b l)) (coords_bt t)
    · refine (canon_rows_miss (k0_off3 _) ((lensW m t).toNat + 1) rfl h3 rfl _ _ _ r l c3).trans ?_
      unfold kernelRun0_A.sl.H4_2
      by_cases c2 : 1 ≤ r.val ∧ r.val < 1 + 2048
      · -- a row of x
        refine (canon_rows_hit ![0, 1, 0] 1 rfl rfl rfl _ _ _ r l c2).trans ?_
        rw [pay5_eq]
        refine (congrFun (load_whole_x (ms0_0 m hO t) (hs0_0 m hO t) (iblk m hO (0 : Dev nD) 0 t)) _).trans ?_
        refine (iblk0_apply m hO (0 : Dev nD) t _).trans ?_
        have e : ¬ ((lensW m t).toNat + 1 ≤ r.val ∧ r.val < (lensW m t).toNat + 2 + 128) := by omega
        exact (Cert.Spec.xoutAt_x _ _ _ _ _ (bt t) l r c2.1 e).symm
      · -- row 0
        refine (canon_rows_miss ![0, 1, 0] 1 rfl rfl rfl _ _ _ r l c2).trans ?_
        have c1 : 0 ≤ r.val ∧ r.val < 0 + 1 := by omega
        refine (canon_rows_hit ![0, 0, 0] 0 rfl rfl rfl _ _ _ r l c1).trans ?_
        rw [pay4_apply]
        refine (load_sosrow_lit (grid0.coords t) (ms0_2 m hO t) (hs0_2 m hO t) (iblk m hO (0 : Dev nD) 2 t) _ _).trans ?_
        refine (iblk2_apply m hO (0 : Dev nD) t _).trans ?_
        have e : r.val = 0 := by omega
        refine Eq.trans ?_ (Cert.Spec.xoutAt_zero _ _ _ _ _ (bt t) l r e).symm
        exact congrArg (fun b => (m (((0 : Dev nD).tc : Thread nD τ).loc main_arg4)) (ix2 b l)) (coords_bt t)

/-- The first result's block after the body at point t is batch t of the first result of Spec, read through the block. -/
theorem outs4_blk (hO : Ok m) (hH : Hyps m hO) (c : Dev nD) (t : Fin (cfgM m hO).N) (y : S1x2049x128.Idx) :
    outsAt0_4 m hO hH c t y = (((cfgM m hO).win 4).blk t).view.read (Elt F)
      (Cert.Spec.xoutSpec (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) y := by
  refine Eq.trans ?_ (blk4_read m hO _ t y).symm
  obtain ⟨z, r, l, rfl⟩ : ∃ (z : Fin 1) (r : Fin 2049) (l : Fin 128), y = ix3 z r l := ⟨y 0, y 1, y 2, eq_ix3 y⟩
  obtain rfl : z = 0 := Subsingleton.elim _ _
  exact outs4_apply m hR hO hH c t r l

/-- The block point t writes back is batch t of the first result of Spec. -/
theorem flushed_eq4 (hO : Ok m) (hH : Hyps m hO) (c : Dev nD) (t : Fin (cfgM m hO).N) :
    (dats m hO hH 0 c).flushed 4 t = (((cfgM m hO).win 4).blk t).view.read (Elt F)
      (Cert.Spec.xoutSpec (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) := by
  show ((cfgM m hO).win 4).cut (grid0.coords t) ((dats m hO hH 0 c).after 4 t) = _
  rw [after0_4]
  funext y
  exact outs4_blk m hR hO hH c t y

/-- The first result array after the run. -/
theorem final4 (hO : Ok m) (hH : Hyps m hO) (c : Dev nD) :
    (dats m hO hH 0 c).arrAt 4 (cfgM m hO).N
      = Cert.Spec.xoutSpec (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (dats m hO hH 0 c).arrAt_eq_of_cover 4 _ (fun t _ => flushed_eq4 m hR hO hH c t) (cover4 m hO)

end Cert.KernelIdeal.Fr

end
-- ==== Proof.KIValue5.lean ====
/- The second result, entry by entry. After the body at grid point b the result's staging buffer holds four stores, the
   later over the earlier: the start row sos[b] at row lens[b] + 129, the page labels[c[b]] at rows lens[b] + 1 …
   lens[b] + 128, sos[b] at row lens[b], and the target's block tgt[b] everywhere. Read at row p, the first of these that
   holds p decides: rows lens[b] and lens[b] + 129 read sos[b], a row in between reads row p − lens[b] − 1 of the page,
   any other row reads the target. That is first shown of the body on any buffers, as a function of what the buffers
   hold and of the word the body loads; at point b the buffers hold the blocks of x, the target, the start rows and page
   c[b], and the word is lens[b], which makes it the second result of Spec at batch b. The blocks written back tile the
   array, one batch each, so the array ends as that function. -/
import proofs.«414577_j11235634446820_1_alg».proof.Proof.KIFrame
import proofs.«414577_j11235634446820_1_alg».proof.Proof.KIHyps
import proofs.«414577_j11235634446820_1_alg».proof.Proof.KIPay
import proofs.«414577_j11235634446820_1_alg».proof.Proof.KIBlocks
import proofs.«414577_j11235634446820_1_alg».proof.Proof.LibRowPieces
import proofs.«414577_j11235634446820_1_alg».proof.Proof.Spec

set_option maxRecDepth 16384

noncomputable section

namespace Cert.KernelIdeal.Fr

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F] (m : (ℓ : Loc nD τ sig) → Buf (Elt F) ℓ)

/-! ## The second result's staging buffer after the body, on any buffers -/

/-- The word the body loads at grid point i from the second word vector as it is held. -/
abbrev wordAt (c : Dev nD) (i : grid0.Coords) (xt1 : TbBuf0 (F := F) c tbM0_1) : BitVec 32 :=
  tbM0_1.view.readAt (Elt F) (Rect.unit (s := S64) (k0_off1 i) S1.size (k0_off1_inb i)).toLoadRect xt1 (Shape.Idx.first (numel1_S1.symm ▸ Nat.one_pos))

/-- The three run-time row offsets of the body's stores into the second result, from the word w ≤ 1918. -/
theorem off5_row (w : BitVec 32) : k0_off5 w 1 = w.toNat := rfl
theorem off6_row (w : BitVec 32) (hw : w.toNat ≤ 1918) : k0_off6 w 1 = w.toNat + 1 := toNat_addi w 1 (by omega)
theorem off7_row (w : BitVec 32) (hw : w.toNat ≤ 1918) : k0_off7 w 1 = w.toNat + 129 := by
  have e1 : (Scalar.addi w 1#32).toNat = w.toNat + 1 := toNat_addi w 1 (by omega)
  have h := toNat_addi (Scalar.addi w 1#32) 128 (by rw [e1]; omega)
  rw [e1] at h
  show (Scalar.indexCast (Scalar.addi (Scalar.addi w 1#32) 128#32)).toNat = w.toNat + 129
  rw [h]

/-- THE SECOND RESULT'S STAGING BUFFER after the body on any buffers, at row p and lane l, L the value of the word the body
    loads (at most 1918): rows L and L + 129 read row (i 0) of what the start rows' buffer holds, rows L + 1 … L + 128 read
    row p − L − 1 of what the page's buffer holds, every other row reads what the target's buffer holds. -/
theorem out5_gen (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S64x128 .f32) (harg5 : arg5.IsWhole) (arg6 : Memref sig .tc .vmem S1x128x128 .f32) (harg6 : arg6.IsWhole) (arg7 : Memref sig .tc .vmem S1x2049x128 .f32) (harg7 : arg7.IsWhole) (arg8 : Memref sig .tc .vmem S1x2048x128 .f32) (harg8 : arg8.IsWhole)
    (x0 : Vec F S1x2048x128 .f32) (x1 : Vec F S1x2048x128 .f32) (x2 : Vec F S64x128 .f32) (x3 : Vec F S1x128x128 .f32) (xt0 : TbBuf0 (F := F) c tbM0_0) (xt1 : TbBuf0 (F := F) c tbM0_1) (k0_hw1 : k0_chk1 (wordAt c i xt1))
    (L : Nat) (hLdef : (wordAt c i xt1).toNat = L) (hL : L ≤ 1918) (p : Fin 2048) (l : Fin 128) :
    out0_A_5 c i arg3 harg3 arg4 harg4 arg5 harg5 arg6 harg6 arg7 harg7 arg8 harg8 x0 x1 x2 x3 xt0 xt1 k0_hw1 (ix3 (0 : Fin 1) p l)
      = if L ≤ p.val ∧ p.val ≤ L + 129 then
          (if p.val = L ∨ p.val = L + 129 then x2 (ix2 (i 0) l)
            else x3 (ix3 (0 : Fin 1) ⟨(p.val - L - 1) % 128, Nat.mod_lt _ (by decide)⟩ l))
        else x1 (ix3 (0 : Fin 1) p l) := by
  unfold out0_A_5
  rw [View.read_writes_eq_canon _ _ _ (cover0_A_5 c i arg3 harg3 arg4 harg4 arg5 harg5 arg6 harg6 arg7 harg7 arg8 harg8 x0 x1 x2 x3 xt0 xt1 k0_hw1)]
  unfold kernelRun0_A
  dsimp only
  have hwL : (kernelRun0_A.sl.r c i xt1).toNat = L := hLdef
  have h7 : k0_off7 (kernelRun0_A.sl.r c i xt1) 1 = L + 129 := by rw [off7_row _ (hwL ▸ hL), hwL]
  have h6 : k0_off6 (kernelRun0_A.sl.r c i xt1) 1 = L + 1 := by rw [off6_row _ (hwL ▸ hL), hwL]
  have h5 : k0_off5 (kernelRun0_A.sl.r c i xt1) 1 = L := by rw [off5_row, hwL]
  by_cases hp7 : p.val = L + 129
  · -- the last store: the start row again, at row L + 129
    rw [Cert.LibRowPieces.canon_rows_hit (R := 2048) (n := 1) (k0_off7 (kernelRun0_A.sl.r c i xt1)) (L + 129) rfl h7 rfl _ _ _ p l ⟨by omega, by omega⟩]
    rw [if_pos ⟨by omega, by omega⟩, if_pos (Or.inr hp7)]
    exact (pay3_apply _ _).trans (load_sosrow i arg5 harg5 x2 _)
  · rw [Cert.LibRowPieces.canon_rows_miss (R := 2048) (n := 1) (k0_off7 (kernelRun0_A.sl.r c i xt1)) (L + 129) rfl h7 rfl _ _ _ p l (by omega)]
    by_cases hp6 : L + 1 ≤ p.val ∧ p.val ≤ L + 128
    · -- the store before: the page, at rows L + 1 … L + 128
      rw [Cert.LibRowPieces.canon_rows_hit (R := 2048) (n := 128) (k0_off6 (kernelRun0_A.sl.r c i xt1)) (L + 1) rfl h6 rfl _ _ _ p l ⟨by omega, by omega⟩]
      rw [if_pos ⟨by omega, by omega⟩, if_neg (by omega), pay2_eq, load_whole_page_lit]
      congr 2
      apply Fin.ext
      show p.val - (L + 1) = (p.val - L - 1) % 128
      omega
    · rw [Cert.LibRowPieces.canon_rows_miss (R := 2048) (n := 128) (k0_off6 (kernelRun0_A.sl.r c i xt1)) (L + 1) rfl h6 rfl _ _ _ p l (by omega)]
      by_cases hp5 : p.val = L
      · -- the store before that: the start row, at row L
        rw [Cert.LibRowPieces.canon_rows_hit (R := 2048) (n := 1) (k0_off5 (kernelRun0_A.sl.r c i xt1)) L rfl h5 rfl _ _ _ p l ⟨by omega, by omega⟩]
        rw [if_pos ⟨by omega, by omega⟩, if_pos (Or.inl hp5)]
        exact (pay1_apply _ _).trans (load_sosrow i arg5 harg5 x2 _)
      · -- the first store: the whole block of the target
        rw [Cert.LibRowPieces.canon_rows_miss (R := 2048) (n := 1) (k0_off5 (kernelRun0_A.sl.r c i xt1)) L rfl h5 rfl _ _ _ p l (by omega)]
        unfold kernelRun0_A.sl.H5_1
        rw [Cert.LibRowPieces.canon_rows_hit (R := 2048) (n := 2048) ![0, 0, 0] 0 rfl rfl rfl _ _ _ p l ⟨by omega, by have := p.isLt; omega⟩]
        rw [if_neg (by omega)]
        have e : kernelRun0_A.sl.r_2 c arg4 harg4 x1 = x1 := (pay8_eq _).trans (load_whole_x arg4 harg4 x1)
        exact congrFun e _

/-! ## At a grid point -/

/-- The grid's one coordinate at point t is the batch t. -/
private theorem coords_batch (t : Fin grid0.N) : (grid0.coords t) 0 = bt t :=
  Fin.ext ((by decide +kernel : ∀ t : Fin grid0.N, ((grid0.coords t) 0).val = t.val) t)

variable (hR : Cert.Spec.InRange (m (((0 : Dev nD).tc : Thread nD τ).loc main_arg2)) (m (((0 : Dev nD).tc : Thread nD τ).loc main_arg3)))
include hR

/-- THE SECOND RESULT'S BLOCK after the body at point t, at row p and lane l. -/
theorem outs5_apply (hO : Ok m) (hH : Hyps m hO) (c : Dev nD) (t : Fin (cfgM m hO).N) (p : Fin 2048) (l : Fin 128) :
    outsAt0_5 m hO hH c t (ix3 (0 : Fin 1) p l)
      = Cert.Spec.toutAt (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (bt t) p l := by
  obtain rfl : c = 0 := Subsingleton.elim _ _
  have hb : (grid0.coords t) 0 = bt t := coords_batch t
  have hL : (m (((0 : Dev nD).tc : Thread nD τ).loc main_arg2) (ix1 (bt t))).toNat ≤ 1918 := hR.lens_le (bt t)
  have hC : (m (((0 : Dev nD).tc : Thread nD τ).loc main_arg3) (ix1 (bt t))).toNat < 1000 := hR.c_lt (bt t)
  have hW : (wordAt (0 : Dev nD) (grid0.coords t) (tbl m 1)).toNat = (m (((0 : Dev nD).tc : Thread nD τ).loc main_arg2) (ix1 (bt t))).toNat := by
    rw [show wordAt (0 : Dev nD) (grid0.coords t) (tbl m 1) = _ from word_lens m hO t, hb]
  have hpage : (cc0_transform_3 k0_off1_inb numel1_S1 (tbl m) (grid0.coords t)) 0
      = (⟨(m (((0 : Dev nD).tc : Thread nD τ).loc main_arg3) (ix1 (bt t))).toNat, hC⟩ : Fin 1000).val := by
    rw [transform_3_eq m (grid0.coords t), hb]; rfl
  unfold outsAt0_5
  refine (out5_gen (0 : Dev nD) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO (0 : Dev nD) 0 t) (iblk m hO (0 : Dev nD) 1 t) (iblk m hO (0 : Dev nD) 2 t) (iblk m hO (0 : Dev nD) 3 t) (tbl m 0) (tbl m 1) (Hyps.c0 hH (0 : Dev nD) t) _ hW hL p l).trans ?_
  unfold Cert.Spec.toutAt Cert.Spec.stripAt Cert.Spec.startRow
  have hpg : Cert.Spec.pageOf (m (((0 : Dev nD).tc : Thread nD τ).loc main_arg3)) (bt t)
      = ⟨(m (((0 : Dev nD).tc : Thread nD τ).loc main_arg3) (ix1 (bt t))).toNat, hC⟩ := Fin.ext (Nat.mod_eq_of_lt hC)
  by_cases h : (m (((0 : Dev nD).tc : Thread nD τ).loc main_arg2) (ix1 (bt t))).toNat ≤ p.val
      ∧ p.val ≤ (m (((0 : Dev nD).tc : Thread nD τ).loc main_arg2) (ix1 (bt t))).toNat + 129
  · refine (if_pos h).trans (Eq.trans ?_ (if_pos h).symm)
    by_cases h' : p.val = (m (((0 : Dev nD).tc : Thread nD τ).loc main_arg2) (ix1 (bt t))).toNat
        ∨ p.val = (m (((0 : Dev nD).tc : Thread nD τ).loc main_arg2) (ix1 (bt t))).toNat + 129
    · -- the strip's first or last row: the start row of the batch
      refine (if_pos h').trans (Eq.trans ?_ (if_pos (by omega)).symm)
      rw [iblk2_apply, hb]
    · -- a row in between: a row of the batch's page
      refine (if_neg h').trans (Eq.trans ?_ (if_neg (by omega)).symm)
      rw [iblk3_apply m hO (0 : Dev nD) t _ _ hpage, hpg]
  · -- off the strip: the target
    refine (if_neg h).trans (Eq.trans ?_ (if_neg h).symm)
    rw [iblk1_apply]

/-- The second result's block after the body at point t is batch t of the second result of Spec, read through the block. -/
theorem outs5_blk (hO : Ok m) (hH : Hyps m hO) (c : Dev nD) (t : Fin (cfgM m hO).N) (y : S1x2048x128.Idx) :
    outsAt0_5 m hO hH c t y = (((cfgM m hO).win 5).blk t).view.read (Elt F)
      (Cert.Spec.toutSpec (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) y := by
  refine Eq.trans ?_ (blk5_read m hO _ t y).symm
  obtain ⟨z, p, l, rfl⟩ : ∃ (z : Fin 1) (p : Fin 2048) (l : Fin 128), y = ix3 z p l := ⟨y 0, y 1, y 2, eq_ix3 y⟩
  obtain rfl : z = 0 := Subsingleton.elim _ _
  exact outs5_apply m hR hO hH c t p l

/-- The block point t writes back is batch t of the second result of Spec. -/
theorem flushed_eq5 (hO : Ok m) (hH : Hyps m hO) (c : Dev nD) (t : Fin (cfgM m hO).N) :
    (dats m hO hH 0 c).flushed 5 t = (((cfgM m hO).win 5).blk t).view.read (Elt F)
      (Cert.Spec.toutSpec (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show ((cfgM m hO).win 5).cut (grid0.coords t) ((dats m hO hH 0 c).after 5 t) = _
  rw [after0_5]
  funext y
  exact outs5_blk m hR hO hH c t y

/-- The second result array after the run: the blocks written back tile it, one batch each. -/
theorem final5 (hO : Ok m) (hH : Hyps m hO) (c : Dev nD) :
    (dats m hO hH 0 c).arrAt 5 (cfgM m hO).N
      = Cert.Spec.toutSpec (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m hO hH 0 c).arrAt_eq_of_cover 5 _ (fun t _ => flushed_eq5 m hR hO hH c t) (cover5 m hO)

end Cert.KernelIdeal.Fr

end
-- ==== Proof.KIValue.lean ====
/- The kernel's run, at any float instance, with both results as the functions of Spec: the run with its results named
   (the launch), the two result arrays entry by entry, and the run's two side conditions from the range of the prefetched
   words. -/
import proofs.«414577_j11235634446820_1_alg».proof.Proof.KIValue4
import proofs.«414577_j11235634446820_1_alg».proof.Proof.KIValue5

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_value (hR : Cert.Spec.InRange (m (((0 : Dev nD).tc : Thread nD τ).loc main_arg2)) (m (((0 : Dev nD).tc : Thread nD τ).loc main_arg3))) :
    θ_run defs (onTc (τ := τ) (main (F := F))) ⟨m, fun _ => 0, ρ⟩ (fun r => ∀ c : Dev nD,
      r.2.mem ((c.tc : Thread nD τ).loc main_v0_0) = Cert.Spec.xoutSpec (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0_1) = Cert.Spec.toutSpec (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have hO := ok_of_range m hR
  have hH := hyps_of_range m hR hO
  (θ_run defs _ _).mono (fun _ h c => ⟨(h c).1.trans (final4 m hR hO hH c), (h c).2.1.trans (final5 m hR hO hH c), (h c).2.2⟩)
    (run_named m ρ hO hH)

end Cert.KernelIdeal.Fr

end
-- ==== Proof.LibNary3.lean ====
/- A straight-line host operation over THREE operand references (a join of three pieces): its result with each operand's
   contents at its own reference, so that the operands' contents can be rewritten in turn; and the rewriting loop that
   reads a result of a literal operation list back to the operations' composed term of the launch contents, one
   operation and one reference at a time, trying that lemma first. -/
import Idealize.ShloMosaic.Lib.StableHlo.Run

noncomputable section

namespace Cert.LibNary3

open Idealize.ShloMosaic Idealize.ShloMosaic.StableHlo

/-- A three-operand operation's result at its own result buffer: its function of the three operands' contents, each
    at its own reference (the family `Fin.cons … ` in place of a function of the position, which hides the references). -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Unfolds the fold over a literal operation list, then rewrites each operation's result at its own result buffer to its
    function's value and at any other reference to what was there, until none applies; a three-operand operation by
    the lemma above. -/
macro "after_results3" : tactic =>
  `(tactic| (simp only [after_cons, after_nil]
             repeat (first
               | rw [nary3_result]
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

end Cert.LibNary3

end
-- ==== Proof.LibScatterSet.lean ====
/- A scatter whose combiner keeps the update (a "set"), read at one operand index.

   The scatter visits the update indices one after another, in row-major order, and at each one overwrites the operand
   entry the update index lands at (or does nothing, when it lands outside the operand). Read at a fixed operand index i
   this is a left fold whose step either leaves the value at i or replaces it. Two facts follow, for any shapes and any
   dimension numbers:

   * if exactly one update index j lands at i, the result at i is the update at j (scatter_set_of_unique);
   * if no update index lands at i, the result at i is the operand at i (scatter_set_of_none).

   Both come from one lemma on a left fold over a list without repetitions: a step that misses i leaves the value at i,
   the one step that hits i sets it, and no later step hits i again.

   Last, where an update index lands: j lands at i exactly when start plus window coordinate equals i's coordinate on
   every operand axis (resultIdx?_eq_some_iff), which turns "lands at" into one equation per axis. -/
import Idealize.ShloMosaic.PureOps

namespace Cert.LibScatterSet

open Idealize.ShloMosaic

section Fold

variable {ι κ α : Type}

/-- A fold none of whose steps touches the value at i leaves it. -/
theorem foldl_apply_of_miss (step : (κ → α) → ι → κ → α) (hit : ι → Prop) (i : κ)
    (hmiss : ∀ r n, ¬ hit n → step r n i = r i) :
    ∀ (l : List ι) (x : κ → α), (∀ n ∈ l, ¬ hit n) → l.foldl step x i = x i := by
  intro l
  induction l with
  | nil => intro x _; rfl
  | cons a l ih =>
    intro x h
    rw [List.foldl_cons, ih (step x a) (fun n hn => h n (List.mem_cons_of_mem a hn))]
    exact hmiss x a (h a List.mem_cons_self)

/-- A fold over a list without repetitions in which exactly one step, n₀, touches the value at i, setting it to v n₀,
    ends with v n₀ at i. -/
theorem foldl_apply_of_unique_hit (step : (κ → α) → ι → κ → α) (hit : ι → Prop) (v : ι → α) (i : κ)
    (hmiss : ∀ r n, ¬ hit n → step r n i = r i) (hset : ∀ r n, hit n → step r n i = v n) (n₀ : ι) (h₀ : hit n₀) :
    ∀ (l : List ι) (x : κ → α), l.Nodup → n₀ ∈ l → (∀ n ∈ l, hit n → n = n₀) → l.foldl step x i = v n₀ := by
  intro l
  induction l with
  | nil => intro x _ hmem _; exact absurd hmem List.not_mem_nil
  | cons a l ih =>
    intro x hnd hmem huniq
    rw [List.foldl_cons]
    rcases List.nodup_cons.1 hnd with ⟨ha, hl⟩
    by_cases hane : a = n₀
    · -- the first step is the one that hits; the rest of the list misses
      subst hane
      rw [foldl_apply_of_miss step hit i hmiss l (step x a) (fun n hn hh => ha (huniq n (List.mem_cons_of_mem a hn) hh ▸ hn))]
      exact hset x a h₀
    · -- the first step is another one: the hit is further on
      have hmem' : n₀ ∈ l := by
        rcases List.mem_cons.1 hmem with h | h
        · exact absurd h.symm hane
        · exact h
      exact ih (step x a) hl hmem' (fun n hn => huniq n (List.mem_cons_of_mem a hn))

end Fold

section Scatter

variable {s si u : Shape} {w : Nat} {α : Type}

/-- One step of the scatter, read at i: the update if this update index lands at i, the value before otherwise. -/
theorem step_apply (d : ScatterDims s si u) (idx : IVec si w) (upd : u.Idx → α) (r : s.Idx → α) (n : Fin u.numel) (i : s.Idx) :
    (match d.resultIdx? (u.rowMajor.symm n) idx with
      | some k => fun i' => if i' = k then (fun (_ v : α) => v) (r k) (upd (u.rowMajor.symm n)) else r i'
      | none => r) i
      = if d.resultIdx? (u.rowMajor.symm n) idx = some i then upd (u.rowMajor.symm n) else r i := by
  cases h : d.resultIdx? (u.rowMajor.symm n) idx with
  | none => simp
  | some k =>
    by_cases hik : i = k
    · subst hik; simp
    · have : ¬ (some k = some i) := fun e => hik (Option.some.inj e).symm
      simp [hik, this]

/-- If update index j lands at operand index i and no other update index does, the scatter's result at i is the
    update at j. -/
theorem scatter_set_of_unique (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ v => v) x idx upd i = upd j := by
  unfold Host.scatter
  have key := foldl_apply_of_unique_hit
    (step := fun (r : s.Idx → α) (n : Fin u.numel) =>
      match d.resultIdx? (u.rowMajor.symm n) idx with
      | some k => fun i' => if i' = k then (fun (_ v : α) => v) (r k) (upd (u.rowMajor.symm n)) else r i'
      | none => r)
    (hit := fun n => d.resultIdx? (u.rowMajor.symm n) idx = some i)
    (v := fun n => upd (u.rowMajor.symm n)) (i := i)
    (fun r n h => by rw [step_apply, if_neg h])
    (fun r n h => by rw [step_apply, if_pos h])
    (u.rowMajor j) (by show d.resultIdx? (u.rowMajor.symm (u.rowMajor j)) idx = some i; rw [Equiv.symm_apply_apply]; exact hj)
    (List.finRange u.numel) x (List.nodup_finRange _) (List.mem_finRange _)
    (fun n _ hn => by
      have := huniq _ hn
      rw [← this, Equiv.apply_symm_apply])
  rw [Equiv.symm_apply_apply] at key
  exact key

/-- If no update index lands at operand index i, the scatter's result at i is the operand at i. -/
theorem scatter_set_of_none (d : ScatterDims s si u) (x : s.Idx → α) (idx : IVec si w) (upd : u.Idx → α)
    (i : s.Idx) (hnone : ∀ j', d.resultIdx? j' idx ≠ some i) :
    Host.scatter d (fun _ v => v) x idx upd i = x i := by
  unfold Host.scatter
  exact foldl_apply_of_miss
    (step := fun (r : s.Idx → α) (n : Fin u.numel) =>
      match d.resultIdx? (u.rowMajor.symm n) idx with
      | some k => fun i' => if i' = k then (fun (_ v : α) => v) (r k) (upd (u.rowMajor.symm n)) else r i'
      | none => r)
    (hit := fun n => d.resultIdx? (u.rowMajor.symm n) idx = some i) (i := i)
    (fun r n h => by rw [step_apply, if_neg h])
    (List.finRange u.numel) x (fun n _ => hnone _)

end Scatter

section Landing

variable {s si u : Shape} {w : Nat}

/-- Update index j lands at operand index i exactly when, on every operand axis, the window's start plus the window
    coordinate is i's coordinate: being inside the operand on every axis is then automatic. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hh
      have e := Option.some.inj h
      subst e
      have := hh a
      show _ = ((d.start j idx a + (d.window j a : Int)).toNat : Int)
      omega
    · exact absurd h (by simp)
  · intro h
    have hh : ∀ a, 0 ≤ d.start j idx a + (d.window j a : Int) ∧ d.start j idx a + (d.window j a : Int) < s.size a := by
      intro a; rw [h a]; exact ⟨Int.natCast_nonneg _, by exact_mod_cast (i a).isLt⟩
    rw [dif_pos hh]
    congr 1; funext a; apply Fin.ext
    show (d.start j idx a + (d.window j a : Int)).toNat = (i a).val
    rw [h a]; exact Int.toNat_natCast _

end Landing

end Cert.LibScatterSet
-- ==== Proof.RefScatter.lean ====
/- The reference's two scatters read at an entry.

   Both scatter 64 strips of rows (129 rows, then 130) into a 64 × 2048 × 128 operand, update index (b, k, l) landing at
   (first word at (b, k), second word at (b, k), l). Where the first word is b and the second is row b + k, update index
   (b, k, l) lands at (b, row b + k, l): distinct update indices land at distinct places, so the result at (b, p, l) is
   the update at (b, p − row b, l) when p is one of the strip's rows and the operand otherwise. Proved once for strips
   of M + 1 rows. -/
import proofs.«414577_j11235634446820_1_alg».proof.ReferenceIdeal
import proofs.«414577_j11235634446820_1_alg».proof.Proof.Spec
import proofs.«414577_j11235634446820_1_alg».proof.Proof.LibScatterSet

noncomputable section

namespace Cert.RefScatter

open Idealize.ShloMosaic Idealize.ShloMosaic.ValueIdx Cert.ReferenceIdeal Cert.LibScatterSet

variable [Cert.ReferenceIdeal.Facts] {α : Type}

section Strip

/-- The scatter indices of 64 strips of M + 1 rows: two words, a batch and a row, for every (b, k). -/
abbrev SI (M : Nat) : Shape := ⟨3, ![64, M + 1, 2]⟩
/-- The updates: 64 strips of M + 1 rows of 128 entries. -/
abbrev SU (M : Nat) : Shape := ⟨3, ![64, M + 1, 128]⟩

/-- The dimension numbers of a scatter of such strips into the operand: update index (b, k, l) reads the two words at
    (b, k, ·) of the indices as the start on the operand's first two axes, and l is the window coordinate on the last. -/
def stripDims (M : Nat) (wf : ScatterDims.WF S64x2048x128 (SI M) (SU M) [2] [0, 1] [0, 1] 2) :
    ScatterDims S64x2048x128 (SI M) (SU M) where
  updateWindowDims := [2]
  insertedWindowDims := [0, 1]
  scatterDimsToOperandDims := [0, 1]
  indexVectorDim := 2
  wf := wf

variable {M : Nat} (wf : ScatterDims.WF S64x2048x128 (SI M) (SU M) [2] [0, 1] [0, 1] 2)

/-- The two index words update index (b, k, l) reads are those at (b, k, 0) and (b, k, 1). -/
theorem siIdx0 (b : Fin 64) (k : Fin (M + 1)) (l : Fin 128) (h : 0 < (stripDims M wf).scatterDimsToOperandDims.length) :
    (stripDims M wf).siIdx (ix3 b k l) ⟨0, h⟩ = ix3 b k (0 : Fin 2) := by
  funext a
  match a with
  | ⟨0, _⟩ => rfl
  | ⟨1, _⟩ => rfl
  | ⟨2, _⟩ => rfl

theorem siIdx1 (b : Fin 64) (k : Fin (M + 1)) (l : Fin 128) (h : 1 < (stripDims M wf).scatterDimsToOperandDims.length) :
    (stripDims M wf).siIdx (ix3 b k l) ⟨1, h⟩ = ix3 b k (1 : Fin 2) := by
  funext a
  match a with
  | ⟨0, _⟩ => rfl
  | ⟨1, _⟩ => rfl
  | ⟨2, _⟩ => rfl

/-- Start plus window coordinate, axis by axis: the batch word, the row word, and l. -/
theorem land0 (idx : IVec (SI M) 32) (b : Fin 64) (k : Fin (M + 1)) (l : Fin 128) (h : 0 < 3) :
    (stripDims M wf).start (ix3 b k l) idx ⟨0, h⟩ + ((stripDims M wf).window (ix3 b k l) ⟨0, h⟩ : Int)
      = (idx (ix3 b k (0 : Fin 2))).toInt := by
  have e : (stripDims M wf).start (ix3 b k l) idx ⟨0, h⟩ = (idx (ix3 b k (0 : Fin 2))).toInt :=
    congrArg (fun q => (idx q).toInt) (siIdx0 wf b k l Nat.zero_lt_two)
  have e' : (stripDims M wf).window (ix3 b k l) ⟨0, h⟩ = 0 := rfl
  rw [e, e']; exact Int.add_zero _

theorem land1 (idx : IVec (SI M) 32) (b : Fin 64) (k : Fin (M + 1)) (l : Fin 128) (h : 1 < 3) :
    (stripDims M wf).start (ix3 b k l) idx ⟨1, h⟩ + ((stripDims M wf).window (ix3 b k l) ⟨1, h⟩ : Int)
      = (idx (ix3 b k (1 : Fin 2))).toInt := by
  have e : (stripDims M wf).start (ix3 b k l) idx ⟨1, h⟩ = (idx (ix3 b k (1 : Fin 2))).toInt :=
    congrArg (fun q => (idx q).toInt) (siIdx1 wf b k l Nat.one_lt_two)
  have e' : (stripDims M wf).window (ix3 b k l) ⟨1, h⟩ = 0 := rfl
  rw [e, e']; exact Int.add_zero _

theorem land2 (idx : IVec (SI M) 32) (b : Fin 64) (k : Fin (M + 1)) (l : Fin 128) (h : 2 < 3) :
    (stripDims M wf).start (ix3 b k l) idx ⟨2, h⟩ + ((stripDims M wf).window (ix3 b k l) ⟨2, h⟩ : Int)
      = (l.val : Int) := by
  have e : (stripDims M wf).start (ix3 b k l) idx ⟨2, h⟩ = 0 := rfl
  have e' : (stripDims M wf).window (ix3 b k l) ⟨2, h⟩ = l.val := rfl
  rw [e, e']; exact Int.zero_add _

variable (idx : IVec (SI M) 32) (row : Fin 64 → Nat)
  (hb : ∀ (b : Fin 64) (k : Fin (M + 1)), (idx (ix3 b k (0 : Fin 2))).toInt = (b.val : Int))
  (hp : ∀ (b : Fin 64) (k : Fin (M + 1)), (idx (ix3 b k (1 : Fin 2))).toInt = ((row b + k.val : Nat) : Int))

include hb hp in
/-- Update index (b, k, l) lands at operand index (b', p, l') exactly when b' = b, p = row b + k and l' = l. -/
theorem lands_iff (b : Fin 64) (k : Fin (M + 1)) (l : Fin 128) (b' : Fin 64) (p : Fin 2048) (l' : Fin 128) :
    (stripDims M wf).resultIdx? (ix3 b k l) idx = some (ix3 b' p l') ↔ b' = b ∧ p.val = row b + k.val ∧ l' = l := by
  rw [resultIdx?_eq_some_iff]
  constructor
  · intro h
    have h0 : _ = (b'.val : Int) := h ⟨0, by decide⟩
    have h1 : _ = (p.val : Int) := h ⟨1, by decide⟩
    have h2 : _ = (l'.val : Int) := h ⟨2, by decide⟩
    rw [land0, hb] at h0
    rw [land1, hp] at h1
    rw [land2] at h2
    exact ⟨Fin.ext (by omega), by omega, Fin.ext (by omega)⟩
  · rintro ⟨rfl, e1, rfl⟩ a
    match a with
    | ⟨0, _⟩ => rw [land0, hb]
    | ⟨1, _⟩ => rw [land1, hp]; exact congrArg Nat.cast e1.symm
    | ⟨2, _⟩ => rw [land2]

include hb hp in
/-- The scatter at operand index (b, p, l): row p − row b of batch b's strip where p is one of the strip's rows
    row b … row b + M, the operand elsewhere. -/
theorem strip_apply (x : S64x2048x128.Idx → α) (upd : (SU M).Idx → α) (hrow : ∀ b, row b + M < 2048)
    (b : Fin 64) (p : Fin 2048) (l : Fin 128) :
    Host.scatter (stripDims M wf) (fun _ v => v) x idx upd (ix3 b p l)
      = if h : row b ≤ p.val ∧ p.val ≤ row b + M then upd (ix3 b ⟨p.val - row b, by omega⟩ l) else x (ix3 b p l) := by
  by_cases h : row b ≤ p.val ∧ p.val ≤ row b + M
  · rw [dif_pos h]
    refine scatter_set_of_unique (stripDims M wf) x idx upd (ix3 b p l) (ix3 b ⟨p.val - row b, by omega⟩ l) ?_ ?_
    · -- this update index lands here
      rw [lands_iff wf idx row hb hp]
      exact ⟨rfl, by show p.val = row b + (p.val - row b); omega, rfl⟩
    · -- and it is the only one: the batch, the row within the strip and the lane are read off the landing place
      intro j' hj'
      obtain ⟨b', k', l', rfl⟩ : ∃ (b' : Fin 64) (k' : Fin (M + 1)) (l' : Fin 128), j' = ix3 b' k' l' :=
        ⟨j' 0, j' 1, j' 2, eq_ix3 j'⟩
      rw [lands_iff wf idx row hb hp] at hj'
      obtain ⟨rfl, e1, rfl⟩ := hj'
      have ek : k' = ⟨p.val - row b, by omega⟩ := Fin.ext (by show k'.val = p.val - row b; omega)
      rw [ek]
  · rw [dif_neg h]
    refine scatter_set_of_none (stripDims M wf) x idx upd (ix3 b p l) ?_
    intro j' hj'
    obtain ⟨b', k', l', rfl⟩ : ∃ (b' : Fin 64) (k' : Fin (M + 1)) (l' : Fin 128), j' = ix3 b' k' l' :=
      ⟨j' 0, j' 1, j' 2, eq_ix3 j'⟩
    rw [lands_iff wf idx row hb hp] at hj'
    obtain ⟨rfl, e1, rfl⟩ := hj'
    exact h ⟨by omega, by have := k'.isLt; omega⟩

end Strip

/-- The reference's two scatters are strip scatters, of 129 and of 130 rows. -/
theorem scatter129_apply (x : S64x2048x128.Idx → α) (idx : IVec S64x129x2 32) (upd : S64x129x128.Idx → α) (row : Fin 64 → Nat)
    (hb : ∀ (b : Fin 64) (k : Fin 129), (idx (ix3 b k (0 : Fin 2))).toInt = (b.val : Int))
    (hp : ∀ (b : Fin 64) (k : Fin 129), (idx (ix3 b k (1 : Fin 2))).toInt = ((row b + k.val : Nat) : Int))
    (hrow : ∀ b, row b + 128 < 2048) (b : Fin 64) (p : Fin 2048) (l : Fin 128) :
    Host.scatter scatter_S64x2048x128_S64x129x2_S64x129x128_2_01_01_2 (fun _ v => v) x idx upd (ix3 b p l)
      = if h : row b ≤ p.val ∧ p.val ≤ row b + 128 then upd (ix3 b ⟨p.val - row b, by omega⟩ l) else x (ix3 b p l) :=
  strip_apply (M := 128) scatter_S64x2048x128_S64x129x2_S64x129x128_2_01_01_2.wf idx row hb hp x upd hrow b p l

theorem scatter130_apply (x : S64x2048x128.Idx → α) (idx : IVec S64x130x2 32) (upd : S64x130x128.Idx → α) (row : Fin 64 → Nat)
    (hb : ∀ (b : Fin 64) (k : Fin 130), (idx (ix3 b k (0 : Fin 2))).toInt = (b.val : Int))
    (hp : ∀ (b : Fin 64) (k : Fin 130), (idx (ix3 b k (1 : Fin 2))).toInt = ((row b + k.val : Nat) : Int))
    (hrow : ∀ b, row b + 129 < 2048) (b : Fin 64) (p : Fin 2048) (l : Fin 128) :
    Host.scatter scatter_S64x2048x128_S64x130x2_S64x130x128_2_01_01_2 (fun _ v => v) x idx upd (ix3 b p l)
      = if h : row b ≤ p.val ∧ p.val ≤ row b + 129 then upd (ix3 b ⟨p.val - row b, by omega⟩ l) else x (ix3 b p l) :=
  strip_apply (M := 129) scatter_S64x2048x128_S64x130x2_S64x130x128_2_01_01_2.wf idx row hb hp x upd hrow b p l

end Cert.RefScatter

end
-- ==== Proof.RefReadLib.lean ====
/- Reading the reference's composed terms at an entry: the tools both results share.

   Words: a select on "below zero" at a word that is nonnegative read signed takes its second operand, and small sums
   of words read signed are the sums of the numbers. Every broadcast of the program read at an entry. A join of two
   pieces along the middle or the last axis, and of three pieces of extents 1, n, 1 along the middle axis, read at an
   entry of each piece. The gather of whole pages read at an entry. Then the three parts both results are built from:
   the start rows as one row per batch, the gathered pages (in range: page c[b] of the table), and the batch word of
   the scatter indices (the batch number). -/
import proofs.«414577_j11235634446820_1_alg».proof.ReferenceIdeal
import proofs.«414577_j11235634446820_1_alg».proof.Proof.Gen.ReferenceIdeal
import proofs.«414577_j11235634446820_1_alg».proof.Proof.Spec
import proofs.«414577_j11235634446820_1_alg».proof.Proof.RefScatter
import Idealize.ShloMosaic.Lib.Pipeline.Value
import Idealize.ShloMosaic.Lib.ValueIdx

noncomputable section

namespace Cert.RefRead

open Idealize.ShloMosaic Idealize.ShloMosaic.ValueIdx Cert.ReferenceIdeal Cert.ReferenceIdeal.Gen Cert.Spec

variable {α β : Type}

/-! ## Words -/

/-- A word that is nonnegative read signed is not below zero: a select on "below zero" takes its second operand. -/
theorem select_slt_zero {γ : Type} (w : BitVec 32) (h : 0 ≤ w.toInt) (a b : γ) :
    Scalar.select (IntOp.cmpi .slt w 0#32) a b = b := by
  have h0 : (0#32 : BitVec 32).toInt = 0 := by decide
  have hs : w.slt 0#32 = false := by
    unfold BitVec.slt; rw [h0]; exact decide_eq_false (by omega)
  show Scalar.select (BitVec.ofBool (w.slt 0#32)) a b = b
  rw [hs]; exact select_zero a b

/-- A small natural number as a word, read signed, is that number. -/
theorem toInt_ofNat_small (n : Nat) (h : n < 2 ^ 31) : (BitVec.ofNat 32 n).toInt = (n : Int) := by
  have hm : n % 2 ^ 32 = n := Nat.mod_eq_of_lt (by omega)
  rw [BitVec.toInt_eq_toNat_cond, BitVec.toNat_ofNat, hm, if_pos (by omega)]

/-- A word plus a small number, read signed, is the sum of the two numbers when that stays below 2^31. -/
theorem toInt_add_ofNat (w : BitVec 32) (k : Nat) (h : w.toNat + k < 2 ^ 31) :
    (IntOp.addi w (BitVec.ofNat 32 k)).toInt = ((w.toNat + k : Nat) : Int) := by
  have hk : k % 2 ^ 32 = k := Nat.mod_eq_of_lt (by omega)
  have hs : (w.toNat + k) % 2 ^ 32 = w.toNat + k := Nat.mod_eq_of_lt (by omega)
  show (w + BitVec.ofNat 32 k).toInt = _
  rw [BitVec.toInt_eq_toNat_cond, BitVec.toNat_add, BitVec.toNat_ofNat, hk, hs, if_pos (by omega)]

/-- The wrap of a negative index, at an entry whose word is nonnegative: the word itself. -/
theorem wrap_apply {s : Shape} (dims : Fin S_.rank → Fin s.rank) (h : S_.BroadcastsInDim s dims) (W : IVec s 32) (K : BitVec 32)
    (i : s.Idx) (hW : 0 ≤ (W i).toInt) :
    select (cmpi .slt W (broadcastInDim s dims h (constantI S_ 32 0#32))) (addi W (broadcastInDim s dims h (constantI S_ 32 K))) W i
      = W i :=
  select_slt_zero (W i) hW _ _

/-! ## The broadcasts at an entry -/

theorem bc_S64_S64x1 (y : S64.Idx → β) (b : Fin 64) (z : Fin 1) :
    broadcastInDim S64x1 ![0] bcast_S64_S64x1_0 y (ix2 b z) = y (ix1 b) :=
  broadcastInDim_apply _ bcast_S64_S64x1_0 y (ix2 b z) (ix1 b) (fun a => match a with
    | ⟨0, _⟩ => by show b.val = if (64 : Nat) = 1 then 0 else b.val; rw [if_neg (by decide)])

theorem bc_sos (y : S64x128.Idx → β) (b : Fin 64) (z : Fin 1) (l : Fin 128) :
    broadcastInDim S64x1x128 ![0, 2] bcast_S64x128_S64x1x128_0_2 y (ix3 b z l) = y (ix2 b l) :=
  broadcastInDim_apply _ bcast_S64x128_S64x1x128_0_2 y (ix3 b z l) (ix2 b l) (fun a => match a with
    | ⟨0, _⟩ => by show b.val = if (64 : Nat) = 1 then 0 else b.val; rw [if_neg (by decide)]
    | ⟨1, _⟩ => by show l.val = if (128 : Nat) = 1 then 0 else l.val; rw [if_neg (by decide)])

theorem bc_S64x1_S64x129 (y : S64x1.Idx → β) (b : Fin 64) (k : Fin 129) :
    broadcastInDim S64x129 ![0, 1] bcast_S64x1_S64x129_0_1 y (ix2 b k) = y (ix2 b (0 : Fin 1)) :=
  broadcastInDim_apply _ bcast_S64x1_S64x129_0_1 y (ix2 b k) (ix2 b (0 : Fin 1)) (fun a => match a with
    | ⟨0, _⟩ => by show b.val = if (64 : Nat) = 1 then 0 else b.val; rw [if_neg (by decide)]
    | ⟨1, _⟩ => by show 0 = if (1 : Nat) = 1 then 0 else k.val; rw [if_pos rfl])

theorem bc_S1x129_S64x129 (y : S1x129.Idx → β) (b : Fin 64) (k : Fin 129) :
    broadcastInDim S64x129 ![0, 1] bcast_S1x129_S64x129_0_1 y (ix2 b k) = y (ix2 (0 : Fin 1) k) :=
  broadcastInDim_apply _ bcast_S1x129_S64x129_0_1 y (ix2 b k) (ix2 (0 : Fin 1) k) (fun a => match a with
    | ⟨0, _⟩ => by show 0 = if (1 : Nat) = 1 then 0 else b.val; rw [if_pos rfl]
    | ⟨1, _⟩ => by show k.val = if (129 : Nat) = 1 then 0 else k.val; rw [if_neg (by decide)])

theorem bc_S129_S1x129 (y : S129.Idx → β) (z : Fin 1) (k : Fin 129) :
    broadcastInDim S1x129 ![1] bcast_S129_S1x129_1 y (ix2 z k) = y (ix1 k) :=
  broadcastInDim_apply _ bcast_S129_S1x129_1 y (ix2 z k) (ix1 k) (fun a => match a with
    | ⟨0, _⟩ => by show k.val = if (129 : Nat) = 1 then 0 else k.val; rw [if_neg (by decide)])

theorem bc_S64x129_S64x129x1 (y : S64x129.Idx → β) (b : Fin 64) (k : Fin 129) (z : Fin 1) :
    broadcastInDim S64x129x1 ![0, 1] bcast_S64x129_S64x129x1_0_1 y (ix3 b k z) = y (ix2 b k) :=
  broadcastInDim_apply _ bcast_S64x129_S64x129x1_0_1 y (ix3 b k z) (ix2 b k) (fun a => match a with
    | ⟨0, _⟩ => by show b.val = if (64 : Nat) = 1 then 0 else b.val; rw [if_neg (by decide)]
    | ⟨1, _⟩ => by show k.val = if (129 : Nat) = 1 then 0 else k.val; rw [if_neg (by decide)])

theorem bc_S64x1_S64x130 (y : S64x1.Idx → β) (b : Fin 64) (k : Fin 130) :
    broadcastInDim S64x130 ![0, 1] bcast_S64x1_S64x130_0_1 y (ix2 b k) = y (ix2 b (0 : Fin 1)) :=
  broadcastInDim_apply _ bcast_S64x1_S64x130_0_1 y (ix2 b k) (ix2 b (0 : Fin 1)) (fun a => match a with
    | ⟨0, _⟩ => by show b.val = if (64 : Nat) = 1 then 0 else b.val; rw [if_neg (by decide)]
    | ⟨1, _⟩ => by show 0 = if (1 : Nat) = 1 then 0 else k.val; rw [if_pos rfl])

theorem bc_S1x130_S64x130 (y : S1x130.Idx → β) (b : Fin 64) (k : Fin 130) :
    broadcastInDim S64x130 ![0, 1] bcast_S1x130_S64x130_0_1 y (ix2 b k) = y (ix2 (0 : Fin 1) k) :=
  broadcastInDim_apply _ bcast_S1x130_S64x130_0_1 y (ix2 b k) (ix2 (0 : Fin 1) k) (fun a => match a with
    | ⟨0, _⟩ => by show 0 = if (1 : Nat) = 1 then 0 else b.val; rw [if_pos rfl]
    | ⟨1, _⟩ => by show k.val = if (130 : Nat) = 1 then 0 else k.val; rw [if_neg (by decide)])

theorem bc_S130_S1x130 (y : S130.Idx → β) (z : Fin 1) (k : Fin 130) :
    broadcastInDim S1x130 ![1] bcast_S130_S1x130_1 y (ix2 z k) = y (ix1 k) :=
  broadcastInDim_apply _ bcast_S130_S1x130_1 y (ix2 z k) (ix1 k) (fun a => match a with
    | ⟨0, _⟩ => by show k.val = if (130 : Nat) = 1 then 0 else k.val; rw [if_neg (by decide)])

theorem bc_S64x130_S64x130x1 (y : S64x130.Idx → β) (b : Fin 64) (k : Fin 130) (z : Fin 1) :
    broadcastInDim S64x130x1 ![0, 1] bcast_S64x130_S64x130x1_0_1 y (ix3 b k z) = y (ix2 b k) :=
  broadcastInDim_apply _ bcast_S64x130_S64x130x1_0_1 y (ix3 b k z) (ix2 b k) (fun a => match a with
    | ⟨0, _⟩ => by show b.val = if (64 : Nat) = 1 then 0 else b.val; rw [if_neg (by decide)]
    | ⟨1, _⟩ => by show k.val = if (130 : Nat) = 1 then 0 else k.val; rw [if_neg (by decide)])

/-! ## Joins at an entry -/

/-- Two pieces joined along the middle axis, at an entry of the first piece. -/
theorem cat_mid_left {n0 n1 n1' m n2 : Nat} (x₁ : (⟨3, ![n0, n1, n2]⟩ : Shape).Idx → β) (x₂ : (⟨3, ![n0, n1', n2]⟩ : Shape).Idx → β)
    (h : Shape.Concatenates [(⟨3, ![n0, n1, n2]⟩ : Shape), ⟨3, ![n0, n1', n2]⟩] ⟨3, ![n0, m, n2]⟩ 1)
    (b : Fin n0) (q : Fin m) (l : Fin n2) (hq : q.val < n1) :
    concatenate ⟨3, ![n0, m, n2]⟩ 1 [⟨_, x₁⟩, ⟨_, x₂⟩] h (ix3 b q l) = x₁ (ix3 b ⟨q.val, hq⟩ l) :=
  concatenate_pair_apply_left 1 x₁ x₂ h (ix3 b q l) rfl (ix3 b ⟨q.val, hq⟩ l) (fun a => match a with
    | ⟨0, _⟩ => rfl
    | ⟨1, _⟩ => rfl
    | ⟨2, _⟩ => rfl)

/-- Two pieces joined along the middle axis, at an entry of the second piece. -/
theorem cat_mid_right {n0 n1 n1' m n2 : Nat} (x₁ : (⟨3, ![n0, n1, n2]⟩ : Shape).Idx → β) (x₂ : (⟨3, ![n0, n1', n2]⟩ : Shape).Idx → β)
    (h : Shape.Concatenates [(⟨3, ![n0, n1, n2]⟩ : Shape), ⟨3, ![n0, n1', n2]⟩] ⟨3, ![n0, m, n2]⟩ 1)
    (b : Fin n0) (q : Fin m) (l : Fin n2) (hq : n1 ≤ q.val) (hq' : q.val - n1 < n1') :
    concatenate ⟨3, ![n0, m, n2]⟩ 1 [⟨_, x₁⟩, ⟨_, x₂⟩] h (ix3 b q l) = x₂ (ix3 b ⟨q.val - n1, hq'⟩ l) :=
  concatenate_pair_apply_right 1 x₁ x₂ h (ix3 b q l) rfl rfl (ix3 b ⟨q.val - n1, hq'⟩ l) (fun a ha => match a, ha with
    | ⟨0, _⟩, _ => rfl
    | ⟨1, _⟩, ha => absurd rfl ha
    | ⟨2, _⟩, _ => rfl)
    (by show q.val - n1 + n1 = q.val; omega)

/-- Two unit pieces joined along the last axis: entry 0 is the first piece's, entry 1 the second's. -/
theorem cat_last_zero {n0 n1 : Nat} (x₁ x₂ : (⟨3, ![n0, n1, 1]⟩ : Shape).Idx → β)
    (h : Shape.Concatenates [(⟨3, ![n0, n1, 1]⟩ : Shape), ⟨3, ![n0, n1, 1]⟩] ⟨3, ![n0, n1, 2]⟩ 2) (b : Fin n0) (k : Fin n1) :
    concatenate ⟨3, ![n0, n1, 2]⟩ 2 [⟨_, x₁⟩, ⟨_, x₂⟩] h (ix3 b k (0 : Fin 2)) = x₁ (ix3 b k (0 : Fin 1)) :=
  concatenate_pair_apply_left 2 x₁ x₂ h (ix3 b k (0 : Fin 2)) rfl (ix3 b k (0 : Fin 1)) (fun a => match a with
    | ⟨0, _⟩ => rfl
    | ⟨1, _⟩ => rfl
    | ⟨2, _⟩ => rfl)

theorem cat_last_one {n0 n1 : Nat} (x₁ x₂ : (⟨3, ![n0, n1, 1]⟩ : Shape).Idx → β)
    (h : Shape.Concatenates [(⟨3, ![n0, n1, 1]⟩ : Shape), ⟨3, ![n0, n1, 1]⟩] ⟨3, ![n0, n1, 2]⟩ 2) (b : Fin n0) (k : Fin n1) :
    concatenate ⟨3, ![n0, n1, 2]⟩ 2 [⟨_, x₁⟩, ⟨_, x₂⟩] h (ix3 b k (1 : Fin 2)) = x₂ (ix3 b k (0 : Fin 1)) :=
  concatenate_pair_apply_right 2 x₁ x₂ h (ix3 b k (1 : Fin 2)) rfl rfl (ix3 b k (0 : Fin 1)) (fun a ha => match a, ha with
    | ⟨0, _⟩, _ => rfl
    | ⟨1, _⟩, _ => rfl
    | ⟨2, _⟩, ha => absurd rfl ha)
    (by rfl)

/-- Three pieces joined along the middle axis, of extents 1, n and 1: the first row, the rows in between, the last row. -/
theorem cat3_mid_first {n0 n m n2 : Nat} (x₁ x₃ : (⟨3, ![n0, 1, n2]⟩ : Shape).Idx → β) (x₂ : (⟨3, ![n0, n, n2]⟩ : Shape).Idx → β)
    (h : Shape.Concatenates [(⟨3, ![n0, 1, n2]⟩ : Shape), ⟨3, ![n0, n, n2]⟩, ⟨3, ![n0, 1, n2]⟩] ⟨3, ![n0, m, n2]⟩ 1)
    (b : Fin n0) (q : Fin m) (l : Fin n2) (hq : q.val = 0) :
    concatenate ⟨3, ![n0, m, n2]⟩ 1 [⟨_, x₁⟩, ⟨_, x₂⟩, ⟨_, x₃⟩] h (ix3 b q l) = x₁ (ix3 b (0 : Fin 1) l) :=
  concatenate_apply_piece 1 [⟨_, x₁⟩, ⟨_, x₂⟩, ⟨_, x₃⟩] h (ix3 b q l) 0 (by simp) _ x₁ rfl rfl 0 rfl (ix3 b (0 : Fin 1) l) (fun a ha => match a, ha with
    | ⟨0, _⟩, _ => rfl
    | ⟨1, _⟩, ha => absurd rfl ha
    | ⟨2, _⟩, _ => rfl)
    (by show 0 + 0 = q.val; omega)

theorem cat3_mid_mid {n0 n m n2 : Nat} (x₁ x₃ : (⟨3, ![n0, 1, n2]⟩ : Shape).Idx → β) (x₂ : (⟨3, ![n0, n, n2]⟩ : Shape).Idx → β)
    (h : Shape.Concatenates [(⟨3, ![n0, 1, n2]⟩ : Shape), ⟨3, ![n0, n, n2]⟩, ⟨3, ![n0, 1, n2]⟩] ⟨3, ![n0, m, n2]⟩ 1)
    (b : Fin n0) (q : Fin m) (l : Fin n2) (hq : 1 ≤ q.val) (hq' : q.val - 1 < n) :
    concatenate ⟨3, ![n0, m, n2]⟩ 1 [⟨_, x₁⟩, ⟨_, x₂⟩, ⟨_, x₃⟩] h (ix3 b q l) = x₂ (ix3 b ⟨q.val - 1, hq'⟩ l) :=
  concatenate_apply_piece 1 [⟨_, x₁⟩, ⟨_, x₂⟩, ⟨_, x₃⟩] h (ix3 b q l) 1 (by simp) _ x₂ rfl rfl 1 rfl (ix3 b ⟨q.val - 1, hq'⟩ l) (fun a ha => match a, ha with
    | ⟨0, _⟩, _ => rfl
    | ⟨1, _⟩, ha => absurd rfl ha
    | ⟨2, _⟩, _ => rfl)
    (by show 1 + (q.val - 1) = q.val; omega)

theorem cat3_mid_last {n0 n m n2 : Nat} (x₁ x₃ : (⟨3, ![n0, 1, n2]⟩ : Shape).Idx → β) (x₂ : (⟨3, ![n0, n, n2]⟩ : Shape).Idx → β)
    (h : Shape.Concatenates [(⟨3, ![n0, 1, n2]⟩ : Shape), ⟨3, ![n0, n, n2]⟩, ⟨3, ![n0, 1, n2]⟩] ⟨3, ![n0, m, n2]⟩ 1)
    (b : Fin n0) (q : Fin m) (l : Fin n2) (hq : q.val = n + 1) :
    concatenate ⟨3, ![n0, m, n2]⟩ 1 [⟨_, x₁⟩, ⟨_, x₂⟩, ⟨_, x₃⟩] h (ix3 b q l) = x₃ (ix3 b (0 : Fin 1) l) :=
  concatenate_apply_piece 1 [⟨_, x₁⟩, ⟨_, x₂⟩, ⟨_, x₃⟩] h (ix3 b q l) 2 (by simp) _ x₃ rfl rfl (1 + n) rfl (ix3 b (0 : Fin 1) l) (fun a ha => match a, ha with
    | ⟨0, _⟩, _ => rfl
    | ⟨1, _⟩, ha => absurd rfl ha
    | ⟨2, _⟩, _ => rfl)
    (by show 1 + n + 0 = q.val; omega)

/-! ## The page gather at an entry -/

/-- The gather of whole pages reads its operand at (the start word of the batch, read signed and clamped into 0 … 999; the
    row; the lane): axis 0 is collapsed and is the one axis the start index names, axes 1 and 2 are offset axes. -/
theorem gather_pages (x : S1000x128x128.Idx → α) (idx : IVec S64x1 32) (b : Fin 64) (t l : Fin 128) :
    Host.gather gather_S1000x128x128_S64x1_S64x128x128_12_0_n_n_0_1_1128128 x idx (ix3 b t l)
      = x (ix3 (⟨min (idx (ix2 b (0 : Fin 1))).toInt.toNat 999, by omega⟩ : Fin 1000) t l) := by
  unfold Host.gather
  congr 1
  funext a
  refine Fin.ext ?_
  show gather_S1000x128x128_S64x1_S64x128x128_12_0_n_n_0_1_1128128.start (ix3 b t l) idx a
      + gather_S1000x128x128_S64x1_S64x128x128_12_0_n_n_0_1_1128128.batchCoord (ix3 b t l) a
      + gather_S1000x128x128_S64x1_S64x128x128_12_0_n_n_0_1_1128128.offCoord (ix3 b t l) a = _
  rw [GatherDims.batchCoord_eq_zero _ _ _ List.not_mem_nil, Nat.add_zero]
  match a with
  | ⟨0, h0⟩ =>
    have hmem : (⟨0, h0⟩ : Fin S1000x128x128.rank) ∈ gather_S1000x128x128_S64x1_S64x128x128_12_0_n_n_0_1_1128128.startIndexMap :=
      List.mem_singleton.mpr rfl
    rw [GatherDims.offCoord_eq_zero _ _ _ (fun h => ((GatherDims.mem_sKept _ _).mp h).1 (List.mem_singleton.mpr rfl)), Nat.add_zero]
    unfold GatherDims.start
    rw [dif_pos hmem]
    have hsi : gather_S1000x128x128_S64x1_S64x128x128_12_0_n_n_0_1_1128128.siIdx (ix3 b t l)
        ⟨List.idxOf (⟨0, h0⟩ : Fin S1000x128x128.rank) gather_S1000x128x128_S64x1_S64x128x128_12_0_n_n_0_1_1128128.startIndexMap,
          List.idxOf_lt_length_iff.2 hmem⟩ = ix2 b (0 : Fin 1) := by
      funext k; refine Fin.ext ?_
      match k with
      | ⟨0, _⟩ => rfl
      | ⟨1, _⟩ => rfl
    rw [hsi]
    rfl
  | ⟨1, h1⟩ =>
    have hs : gather_S1000x128x128_S64x1_S64x128x128_12_0_n_n_0_1_1128128.start (ix3 b t l) idx ⟨1, h1⟩ = 0 := by
      have hn : (⟨1, h1⟩ : Fin S1000x128x128.rank) ∉ gather_S1000x128x128_S64x1_S64x128x128_12_0_n_n_0_1_1128128.startIndexMap :=
        fun h => absurd (congrArg Fin.val (List.mem_singleton.mp h)) (by show ¬ ((1 : Nat) = 0); decide)
      unfold GatherDims.start
      rw [dif_neg hn]
    rw [hs, Nat.zero_add]
    rfl
  | ⟨2, h2⟩ =>
    have hs : gather_S1000x128x128_S64x1_S64x128x128_12_0_n_n_0_1_1128128.start (ix3 b t l) idx ⟨2, h2⟩ = 0 := by
      have hn : (⟨2, h2⟩ : Fin S1000x128x128.rank) ∉ gather_S1000x128x128_S64x1_S64x128x128_12_0_n_n_0_1_1128128.startIndexMap :=
        fun h => absurd (congrArg Fin.val (List.mem_singleton.mp h)) (by show ¬ ((2 : Nat) = 0); decide)
      unfold GatherDims.start
      rw [dif_neg hn]
    rw [hs, Nat.zero_add]
    rfl

/-! ## The parts the two results share -/

/-- The start rows as one row per batch. -/
def sosB (sos : S64x128.Idx → α) : S64x1x128.Idx → α :=
  broadcastInDim S64x1x128 ![0, 2] bcast_S64x128_S64x1x128_0_2 sos

theorem sosB_apply (sos : S64x128.Idx → α) (b : Fin 64) (z : Fin 1) (l : Fin 128) : sosB sos (ix3 b z l) = sos (ix2 b l) :=
  bc_sos sos b z l

/-- The pages the page words name, a negative word wrapped by 1000. -/
def pages (c : IVec S64 32) (labels : S1000x128x128.Idx → α) : S64x128x128.Idx → α :=
  Host.gather gather_S1000x128x128_S64x1_S64x128x128_12_0_n_n_0_1_1128128 labels (broadcastInDim S64x1 ![0] bcast_S64_S64x1_0 (select (cmpi .slt c (broadcastInDim S64 ![] bcast_S_S64 (constantI S_ 32 0#32))) (addi c (broadcastInDim S64 ![] bcast_S_S64 (constantI S_ 32 1000#32))) c))

/-- In range, batch b's gathered page is page c[b] of the table: the wrap is not taken and the clamp leaves the word. -/
theorem pages_apply {lens c : IVec S64 32} (hR : InRange lens c) (labels : S1000x128x128.Idx → α) (b : Fin 64) (t l : Fin 128) :
    pages c labels (ix3 b t l) = labels (ix3 (pageOf c b) t l) := by
  have h0 : 0 ≤ (c (ix1 b)).toInt := (hR b).2.1
  have hlt : (c (ix1 b)).toNat < 1000 := hR.c_lt b
  have hT := toInt_eq_toNat _ h0
  have hw : (broadcastInDim S64x1 ![0] bcast_S64_S64x1_0 (select (cmpi .slt c (broadcastInDim S64 ![] bcast_S_S64 (constantI S_ 32 0#32))) (addi c (broadcastInDim S64 ![] bcast_S_S64 (constantI S_ 32 1000#32))) c)) (ix2 b (0 : Fin 1)) = c (ix1 b) := by
    rw [bc_S64_S64x1]; exact wrap_apply _ _ c _ (ix1 b) h0
  unfold pages
  rw [gather_pages]
  refine congrArg (fun p => labels (ix3 p t l)) (Fin.ext ?_)
  show min (_ : BitVec 32).toInt.toNat 999 = (c (ix1 b)).toNat % 1000
  rw [hw, hT, Int.toNat_natCast]
  omega

/-- The batch word of the scatter indices, per batch: the batch number, a negative one wrapped by 64. -/
def batchWord : IVec S64x1 32 :=
  select (cmpi .slt (broadcastInDim S64x1 ![0] bcast_S64_S64x1_0 (iotaInDim S64 32 0)) (broadcastInDim S64x1 ![] bcast_S_S64x1 (constantI S_ 32 0#32))) (addi (broadcastInDim S64x1 ![0] bcast_S64_S64x1_0 (iotaInDim S64 32 0)) (broadcastInDim S64x1 ![] bcast_S_S64x1 (constantI S_ 32 64#32))) (broadcastInDim S64x1 ![0] bcast_S64_S64x1_0 (iotaInDim S64 32 0))

theorem batchWord_apply (b : Fin 64) (z : Fin 1) : batchWord (ix2 b z) = BitVec.ofNat 32 b.val := by
  have hb := b.isLt
  have hi : (broadcastInDim S64x1 ![0] bcast_S64_S64x1_0 (iotaInDim S64 32 0)) (ix2 b z) = BitVec.ofNat 32 b.val := by
    rw [bc_S64_S64x1]; rfl
  unfold batchWord
  rw [wrap_apply _ _ _ _ _ (by rw [hi, toInt_ofNat_small _ (by omega)]; omega), hi]

theorem batchWord_toInt (b : Fin 64) (z : Fin 1) : (batchWord (ix2 b z)).toInt = (b.val : Int) := by
  have hb := b.isLt
  rw [batchWord_apply, toInt_ofNat_small _ (by omega)]

end Cert.RefRead

end
-- ==== Proof.RefReadX.lean ====
/- The reference's first result read entry by entry: the start row sos[b] in row 0, then x with the strip's first 129 rows
   at rows lens[b] … lens[b] + 128, one row further down.

   The scatter's index words: the batch word is the batch number; the position word of (b, k) is lens[b] + k, which
   does not wrap because lens[b] ≤ 1918 and k ≤ 128. Its updates: row 0 is sos[b], row q ≥ 1 is row q − 1 of page c[b]. -/
import proofs.«414577_j11235634446820_1_alg».proof.Proof.RefReadLib

noncomputable section

namespace Cert.RefRead

open Idealize.ShloMosaic Idealize.ShloMosaic.ValueIdx Cert.ReferenceIdeal Cert.ReferenceIdeal.Gen Cert.Spec

variable {α : Type}

/-- Row lens[b] + k as a word, per batch and k. -/
def rowSum129 (lens : IVec S64 32) : IVec S64x129 32 :=
  addi (broadcastInDim S64x129 ![0, 1] bcast_S64x1_S64x129_0_1 (broadcastInDim S64x1 ![0] bcast_S64_S64x1_0 lens)) (broadcastInDim S64x129 ![0, 1] bcast_S1x129_S64x129_0_1 (broadcastInDim S1x129 ![1] bcast_S129_S1x129_1 (iotaInDim S129 32 0)))

theorem rowSum129_apply (lens : IVec S64 32) (b : Fin 64) (k : Fin 129) :
    rowSum129 lens (ix2 b k) = IntOp.addi (lens (ix1 b)) (BitVec.ofNat 32 k.val) := by
  show IntOp.addi (broadcastInDim S64x129 ![0, 1] bcast_S64x1_S64x129_0_1 (broadcastInDim S64x1 ![0] bcast_S64_S64x1_0 lens) (ix2 b k)) (broadcastInDim S64x129 ![0, 1] bcast_S1x129_S64x129_0_1 (broadcastInDim S1x129 ![1] bcast_S129_S1x129_1 (iotaInDim S129 32 0)) (ix2 b k)) = _
  rw [bc_S64x1_S64x129, bc_S64_S64x1, bc_S1x129_S64x129, bc_S129_S1x129]
  rfl

/-- The position word: that row, a negative one wrapped by 2048. -/
def posWord129 (lens : IVec S64 32) : IVec S64x129 32 :=
  select (cmpi .slt (rowSum129 lens) (broadcastInDim S64x129 ![] bcast_S_S64x129 (constantI S_ 32 0#32))) (addi (rowSum129 lens) (broadcastInDim S64x129 ![] bcast_S_S64x129 (constantI S_ 32 2048#32))) (rowSum129 lens)

theorem posWord129_toInt {lens c : IVec S64 32} (hR : InRange lens c) (b : Fin 64) (k : Fin 129) :
    (posWord129 lens (ix2 b k)).toInt = ((startRow lens b + k.val : Nat) : Int) := by
  have hl : (lens (ix1 b)).toNat ≤ 1918 := hR.lens_le b
  have hk := k.isLt
  have hs : (rowSum129 lens (ix2 b k)).toInt = ((startRow lens b + k.val : Nat) : Int) := by
    rw [rowSum129_apply]; exact toInt_add_ofNat _ _ (by omega)
  unfold posWord129
  rw [wrap_apply _ _ _ _ _ (by rw [hs]; omega), hs]

/-- The scatter indices: (batch word, position word) per (b, k). -/
def idx129 (lens : IVec S64 32) : IVec S64x129x2 32 :=
  concatenate S64x129x2 2 [⟨S64x129x1, (broadcastInDim S64x129x1 ![0, 1] bcast_S64x129_S64x129x1_0_1 (broadcastInDim S64x129 ![0, 1] bcast_S64x1_S64x129_0_1 batchWord))⟩, ⟨S64x129x1, (broadcastInDim S64x129x1 ![0, 1] bcast_S64x129_S64x129x1_0_1 (posWord129 lens))⟩] concatenates_S64x129x1_S64x129x1_S64x129x2_d2

theorem idx129_batch (lens : IVec S64 32) (b : Fin 64) (k : Fin 129) :
    (idx129 lens (ix3 b k (0 : Fin 2))).toInt = (b.val : Int) := by
  unfold idx129
  rw [cat_last_zero, bc_S64x129_S64x129x1, bc_S64x1_S64x129, batchWord_toInt]

theorem idx129_pos {lens c : IVec S64 32} (hR : InRange lens c) (b : Fin 64) (k : Fin 129) :
    (idx129 lens (ix3 b k (1 : Fin 2))).toInt = ((startRow lens b + k.val : Nat) : Int) := by
  unfold idx129
  rw [cat_last_one, bc_S64x129_S64x129x1, posWord129_toInt hR]

/-- The scatter's updates: the start row, then the page. -/
def upd129 (c : IVec S64 32) (sos : S64x128.Idx → α) (labels : S1000x128x128.Idx → α) : S64x129x128.Idx → α :=
  concatenate S64x129x128 1 [⟨S64x1x128, sosB sos⟩, ⟨S64x128x128, pages c labels⟩] concatenates_S64x1x128_S64x128x128_S64x129x128_d1

theorem upd129_apply {lens c : IVec S64 32} (hR : InRange lens c) (sos : S64x128.Idx → α) (labels : S1000x128x128.Idx → α)
    (b : Fin 64) (q : Fin 129) (l : Fin 128) : upd129 c sos labels (ix3 b q l) = stripAt c sos labels b q.val l := by
  have hq := q.isLt
  unfold upd129 stripAt
  by_cases h0 : q.val = 0
  · rw [if_pos (Or.inl h0), cat_mid_left (sosB sos) (pages c labels) _ b q l (by omega), sosB_apply]
  · have hne : ¬ (q.val = 0 ∨ q.val = 129) := by omega
    rw [if_neg hne, cat_mid_right (sosB sos) (pages c labels) _ b q l (by omega) (by omega), pages_apply hR]
    refine congrArg (fun t => labels (ix3 (pageOf c b) t l)) (Fin.ext ?_)
    show q.val - 1 = (q.val - 1) % 128
    omega

/-- x after the scatter. -/
def mid57 (x : S64x2048x128.Idx → α) (lens c : IVec S64 32) (sos : S64x128.Idx → α) (labels : S1000x128x128.Idx → α) :
    S64x2048x128.Idx → α :=
  Host.scatter scatter_S64x2048x128_S64x129x2_S64x129x128_2_01_01_2 (fun _ b => b) x (idx129 lens) (upd129 c sos labels)

/-- The first result's composed term. -/
def term57 (x : S64x2048x128.Idx → α) (lens c : IVec S64 32) (sos : S64x128.Idx → α) (labels : S1000x128x128.Idx → α) :
    S64x2049x128.Idx → α :=
  concatenate S64x2049x128 1 [⟨S64x1x128, sosB sos⟩, ⟨S64x2048x128, mid57 x lens c sos labels⟩] concatenates_S64x1x128_S64x2048x128_S64x2049x128_d1

/-- It is the term the reference's run states, operation by operation. -/
theorem term57_def (x : S64x2048x128.Idx → α) (lens c : IVec S64 32) (sos : S64x128.Idx → α) (labels : S1000x128x128.Idx → α) :
    term57 x lens c sos labels = concatenate S64x2049x128 1 [⟨S64x1x128, (broadcastInDim S64x1x128 ![0, 2] bcast_S64x128_S64x1x128_0_2 sos)⟩, ⟨S64x2048x128, (Host.scatter scatter_S64x2048x128_S64x129x2_S64x129x128_2_01_01_2 (fun _ b => b) x (concatenate S64x129x2 2 [⟨S64x129x1, (broadcastInDim S64x129x1 ![0, 1] bcast_S64x129_S64x129x1_0_1 (broadcastInDim S64x129 ![0, 1] bcast_S64x1_S64x129_0_1 (select (cmpi .slt (broadcastInDim S64x1 ![0] bcast_S64_S64x1_0 (iotaInDim S64 32 0)) (broadcastInDim S64x1 ![] bcast_S_S64x1 (constantI S_ 32 0#32))) (addi (broadcastInDim S64x1 ![0] bcast_S64_S64x1_0 (iotaInDim S64 32 0)) (broadcastInDim S64x1 ![] bcast_S_S64x1 (constantI S_ 32 64#32))) (broadcastInDim S64x1 ![0] bcast_S64_S64x1_0 (iotaInDim S64 32 0)))))⟩, ⟨S64x129x1, (broadcastInDim S64x129x1 ![0, 1] bcast_S64x129_S64x129x1_0_1 (select (cmpi .slt (addi (broadcastInDim S64x129 ![0, 1] bcast_S64x1_S64x129_0_1 (broadcastInDim S64x1 ![0] bcast_S64_S64x1_0 lens)) (broadcastInDim S64x129 ![0, 1] bcast_S1x129_S64x129_0_1 (broadcastInDim S1x129 ![1] bcast_S129_S1x129_1 (iotaInDim S129 32 0)))) (broadcastInDim S64x129 ![] bcast_S_S64x129 (constantI S_ 32 0#32))) (addi (addi (broadcastInDim S64x129 ![0, 1] bcast_S64x1_S64x129_0_1 (broadcastInDim S64x1 ![0] bcast_S64_S64x1_0 lens)) (broadcastInDim S64x129 ![0, 1] bcast_S1x129_S64x129_0_1 (broadcastInDim S1x129 ![1] bcast_S129_S1x129_1 (iotaInDim S129 32 0)))) (broadcastInDim S64x129 ![] bcast_S_S64x129 (constantI S_ 32 2048#32))) (addi (broadcastInDim S64x129 ![0, 1] bcast_S64x1_S64x129_0_1 (broadcastInDim S64x1 ![0] bcast_S64_S64x1_0 lens)) (broadcastInDim S64x129 ![0, 1] bcast_S1x129_S64x129_0_1 (broadcastInDim S1x129 ![1] bcast_S129_S1x129_1 (iotaInDim S129 32 0))))))⟩] concatenates_S64x129x1_S64x129x1_S64x129x2_d2) (concatenate S64x129x128 1 [⟨S64x1x128, (broadcastInDim S64x1x128 ![0, 2] bcast_S64x128_S64x1x128_0_2 sos)⟩, ⟨S64x128x128, (Host.gather gather_S1000x128x128_S64x1_S64x128x128_12_0_n_n_0_1_1128128 labels (broadcastInDim S64x1 ![0] bcast_S64_S64x1_0 (select (cmpi .slt c (broadcastInDim S64 ![] bcast_S_S64 (constantI S_ 32 0#32))) (addi c (broadcastInDim S64 ![] bcast_S_S64 (constantI S_ 32 1000#32))) c)))⟩] concatenates_S64x1x128_S64x128x128_S64x129x128_d1))⟩] concatenates_S64x1x128_S64x2048x128_S64x2049x128_d1 := rfl

theorem mid57_apply (x : S64x2048x128.Idx → α) {lens c : IVec S64 32} (hR : InRange lens c) (sos : S64x128.Idx → α)
    (labels : S1000x128x128.Idx → α) (b : Fin 64) (p : Fin 2048) (l : Fin 128) :
    mid57 x lens c sos labels (ix3 b p l) = xmidAt x lens c sos labels b p l := by
  unfold mid57 xmidAt
  rw [Cert.RefScatter.scatter129_apply x (idx129 lens) (upd129 c sos labels) (startRow lens) (idx129_batch lens) (idx129_pos hR)
    (fun b' => by have := hR.lens_le b'; unfold startRow; omega)]
  by_cases hw : startRow lens b ≤ p.val ∧ p.val ≤ startRow lens b + 128
  · rw [dif_pos hw, if_pos hw]; exact upd129_apply hR sos labels b _ l
  · rw [dif_neg hw, if_neg hw]

/-- THE FIRST RESULT, entry by entry. -/
theorem term57_eq (x : S64x2048x128.Idx → α) {lens c : IVec S64 32} (hR : InRange lens c) (sos : S64x128.Idx → α)
    (labels : S1000x128x128.Idx → α) : term57 x lens c sos labels = xoutSpec x lens c sos labels := by
  funext j
  obtain ⟨b, r, l, rfl⟩ : ∃ (b : Fin 64) (r : Fin 2049) (l : Fin 128), j = ix3 b r l := ⟨j 0, j 1, j 2, eq_ix3 j⟩
  have hr := r.isLt
  rw [xoutSpec_ix3]
  unfold xoutAt term57
  by_cases h0 : r.val = 0
  · rw [dif_pos h0, cat_mid_left (sosB sos) (mid57 x lens c sos labels) _ b r l (by omega), sosB_apply]
  · rw [dif_neg h0, cat_mid_right (sosB sos) (mid57 x lens c sos labels) _ b r l (by omega) (by omega), mid57_apply x hR]

end Cert.RefRead

end
-- ==== Proof.RefReadT.lean ====
/- The reference's second result, entry by entry.

   It is a scatter of 64 strips of 130 rows into the target. The scatter's index for strip row k of batch b is the pair of
   words (b, lens[b] + k): in range neither is negative, so neither wrap is taken, and lens[b] + k ≤ 2047 does not
   overflow a word. The strip itself is three pieces joined along its rows: the start row sos[b], the 128 rows of the
   gathered page c[b] of the label table, and sos[b] again. So update (b, k, ·) lands on row lens[b] + k of batch b, no
   two updates land on one place, and the result at (b, p, l) is row p − lens[b] of that strip when lens[b] ≤ p ≤ lens[b] + 129
   and the target's entry otherwise: the second result of the specification. -/
import proofs.«414577_j11235634446820_1_alg».proof.Proof.RefReadLib
import proofs.«414577_j11235634446820_1_alg».proof.Proof.SpecCases

noncomputable section

namespace Cert.RefRead

open Idealize.ShloMosaic Idealize.ShloMosaic.ValueIdx Cert.ReferenceIdeal Cert.ReferenceIdeal.Gen Cert.Spec

variable {α : Type}

/-! ## The scatter's index words -/

/-- lens[b] + k as words, for every batch b and strip row k. -/
def rowSum130 (lens : IVec S64 32) : IVec S64x130 32 :=
  addi (broadcastInDim S64x130 ![0, 1] bcast_S64x1_S64x130_0_1 (broadcastInDim S64x1 ![0] bcast_S64_S64x1_0 lens)) (broadcastInDim S64x130 ![0, 1] bcast_S1x130_S64x130_0_1 (broadcastInDim S1x130 ![1] bcast_S130_S1x130_1 (iotaInDim S130 32 0)))

theorem rowSum130_apply (lens : IVec S64 32) (b : Fin 64) (k : Fin 130) :
    rowSum130 lens (ix2 b k) = IntOp.addi (lens (ix1 b)) (BitVec.ofNat 32 k.val) := by
  have e : iotaInDim S130 32 0 (ix1 k) = BitVec.ofNat 32 k.val := rfl
  show IntOp.addi
      (broadcastInDim S64x130 ![0, 1] bcast_S64x1_S64x130_0_1 (broadcastInDim S64x1 ![0] bcast_S64_S64x1_0 lens) (ix2 b k))
      (broadcastInDim S64x130 ![0, 1] bcast_S1x130_S64x130_0_1 (broadcastInDim S1x130 ![1] bcast_S130_S1x130_1 (iotaInDim S130 32 0)) (ix2 b k)) = _
  rw [bc_S64x1_S64x130, bc_S64_S64x1, bc_S1x130_S64x130, bc_S130_S1x130, e]

/-- The position word: that sum, a negative one wrapped by the row count. -/
def posWord130 (lens : IVec S64 32) : IVec S64x130 32 :=
  select (cmpi .slt (rowSum130 lens) (broadcastInDim S64x130 ![] bcast_S_S64x130 (constantI S_ 32 0#32))) (addi (rowSum130 lens) (broadcastInDim S64x130 ![] bcast_S_S64x130 (constantI S_ 32 2048#32))) (rowSum130 lens)

/-- In range the sum is at most 1918 + 129: it does not overflow, is not negative, and the wrap is not taken. -/
theorem posWord130_toInt {lens c : IVec S64 32} (hR : InRange lens c) (b : Fin 64) (k : Fin 130) :
    (posWord130 lens (ix2 b k)).toInt = ((startRow lens b + k.val : Nat) : Int) := by
  have hle : (lens (ix1 b)).toNat ≤ 1918 := hR.lens_le b
  have hk : k.val < 130 := k.isLt
  have hs : (rowSum130 lens (ix2 b k)).toInt = (((lens (ix1 b)).toNat + k.val : Nat) : Int) := by
    rw [rowSum130_apply]; exact toInt_add_ofNat _ _ (by omega)
  have hw : posWord130 lens (ix2 b k) = rowSum130 lens (ix2 b k) :=
    wrap_apply _ bcast_S_S64x130 (rowSum130 lens) 2048#32 (ix2 b k) (by rw [hs]; exact Int.natCast_nonneg _)
  rw [hw, hs]
  rfl

/-- The scatter's indices: the batch word and the position word of every (b, k). -/
def idx130 (lens : IVec S64 32) : IVec S64x130x2 32 :=
  concatenate S64x130x2 2 [⟨S64x130x1, (broadcastInDim S64x130x1 ![0, 1] bcast_S64x130_S64x130x1_0_1 (broadcastInDim S64x130 ![0, 1] bcast_S64x1_S64x130_0_1 batchWord))⟩, ⟨S64x130x1, (broadcastInDim S64x130x1 ![0, 1] bcast_S64x130_S64x130x1_0_1 (posWord130 lens))⟩] concatenates_S64x130x1_S64x130x1_S64x130x2_d2

theorem idx130_batch (lens : IVec S64 32) (b : Fin 64) (k : Fin 130) :
    (idx130 lens (ix3 b k (0 : Fin 2))).toInt = (b.val : Int) := by
  unfold idx130
  rw [cat_last_zero (broadcastInDim S64x130x1 ![0, 1] bcast_S64x130_S64x130x1_0_1 (broadcastInDim S64x130 ![0, 1] bcast_S64x1_S64x130_0_1 batchWord))
      (broadcastInDim S64x130x1 ![0, 1] bcast_S64x130_S64x130x1_0_1 (posWord130 lens))
      concatenates_S64x130x1_S64x130x1_S64x130x2_d2 b k,
    bc_S64x130_S64x130x1, bc_S64x1_S64x130, batchWord_toInt]

theorem idx130_pos {lens c : IVec S64 32} (hR : InRange lens c) (b : Fin 64) (k : Fin 130) :
    (idx130 lens (ix3 b k (1 : Fin 2))).toInt = ((startRow lens b + k.val : Nat) : Int) := by
  unfold idx130
  rw [cat_last_one (broadcastInDim S64x130x1 ![0, 1] bcast_S64x130_S64x130x1_0_1 (broadcastInDim S64x130 ![0, 1] bcast_S64x1_S64x130_0_1 batchWord))
      (broadcastInDim S64x130x1 ![0, 1] bcast_S64x130_S64x130x1_0_1 (posWord130 lens))
      concatenates_S64x130x1_S64x130x1_S64x130x2_d2 b k,
    bc_S64x130_S64x130x1, posWord130_toInt hR]

/-! ## The strips -/

/-- The 130 rows of every batch: its start row, its page's 128 rows, its start row. -/
def upd130 (c : IVec S64 32) (sos : S64x128.Idx → α) (labels : S1000x128x128.Idx → α) : S64x130x128.Idx → α :=
  concatenate S64x130x128 1 [⟨S64x1x128, sosB sos⟩, ⟨S64x128x128, pages c labels⟩, ⟨S64x1x128, sosB sos⟩] concatenates_S64x1x128_S64x128x128_S64x1x128_S64x130x128_d1

theorem upd130_first (c : IVec S64 32) (sos : S64x128.Idx → α) (labels : S1000x128x128.Idx → α) (b : Fin 64) (q : Fin 130) (l : Fin 128)
    (hq : q.val = 0) : upd130 c sos labels (ix3 b q l) = sos (ix2 b l) :=
  (cat3_mid_first (sosB sos) (sosB sos) (pages c labels) concatenates_S64x1x128_S64x128x128_S64x1x128_S64x130x128_d1 b q l hq).trans
    (sosB_apply sos b 0 l)

theorem upd130_last (c : IVec S64 32) (sos : S64x128.Idx → α) (labels : S1000x128x128.Idx → α) (b : Fin 64) (q : Fin 130) (l : Fin 128)
    (hq : q.val = 128 + 1) : upd130 c sos labels (ix3 b q l) = sos (ix2 b l) :=
  (cat3_mid_last (sosB sos) (sosB sos) (pages c labels) concatenates_S64x1x128_S64x128x128_S64x1x128_S64x130x128_d1 b q l hq).trans
    (sosB_apply sos b 0 l)

theorem upd130_page {lens c : IVec S64 32} (hR : InRange lens c) (sos : S64x128.Idx → α) (labels : S1000x128x128.Idx → α)
    (b : Fin 64) (q : Fin 130) (l : Fin 128) (hq : 1 ≤ q.val) (hq' : q.val - 1 < 128) :
    upd130 c sos labels (ix3 b q l) = labels (ix3 (pageOf c b) ⟨q.val - 1, hq'⟩ l) :=
  (cat3_mid_mid (sosB sos) (sosB sos) (pages c labels) concatenates_S64x1x128_S64x128x128_S64x1x128_S64x130x128_d1 b q l hq hq').trans
    (pages_apply hR labels b ⟨q.val - 1, hq'⟩ l)

/-! ## The result -/

/-- The reference's second result over those parts. -/
def term55 (tgt : S64x2048x128.Idx → α) (lens c : IVec S64 32) (sos : S64x128.Idx → α) (labels : S1000x128x128.Idx → α) :
    S64x2048x128.Idx → α :=
  Host.scatter scatter_S64x2048x128_S64x130x2_S64x130x128_2_01_01_2 (fun _ b => b) tgt (idx130 lens) (upd130 c sos labels)

/-- It is the term the reference's run is read back at. -/
theorem term55_def (tgt : S64x2048x128.Idx → α) (lens c : IVec S64 32) (sos : S64x128.Idx → α) (labels : S1000x128x128.Idx → α) :
    term55 tgt lens c sos labels
      = Host.scatter scatter_S64x2048x128_S64x130x2_S64x130x128_2_01_01_2 (fun _ b => b) tgt (concatenate S64x130x2 2 [⟨S64x130x1, (broadcastInDim S64x130x1 ![0, 1] bcast_S64x130_S64x130x1_0_1 (broadcastInDim S64x130 ![0, 1] bcast_S64x1_S64x130_0_1 (select (cmpi .slt (broadcastInDim S64x1 ![0] bcast_S64_S64x1_0 (iotaInDim S64 32 0)) (broadcastInDim S64x1 ![] bcast_S_S64x1 (constantI S_ 32 0#32))) (addi (broadcastInDim S64x1 ![0] bcast_S64_S64x1_0 (iotaInDim S64 32 0)) (broadcastInDim S64x1 ![] bcast_S_S64x1 (constantI S_ 32 64#32))) (broadcastInDim S64x1 ![0] bcast_S64_S64x1_0 (iotaInDim S64 32 0)))))⟩, ⟨S64x130x1, (broadcastInDim S64x130x1 ![0, 1] bcast_S64x130_S64x130x1_0_1 (select (cmpi .slt (addi (broadcastInDim S64x130 ![0, 1] bcast_S64x1_S64x130_0_1 (broadcastInDim S64x1 ![0] bcast_S64_S64x1_0 lens)) (broadcastInDim S64x130 ![0, 1] bcast_S1x130_S64x130_0_1 (broadcastInDim S1x130 ![1] bcast_S130_S1x130_1 (iotaInDim S130 32 0)))) (broadcastInDim S64x130 ![] bcast_S_S64x130 (constantI S_ 32 0#32))) (addi (addi (broadcastInDim S64x130 ![0, 1] bcast_S64x1_S64x130_0_1 (broadcastInDim S64x1 ![0] bcast_S64_S64x1_0 lens)) (broadcastInDim S64x130 ![0, 1] bcast_S1x130_S64x130_0_1 (broadcastInDim S1x130 ![1] bcast_S130_S1x130_1 (iotaInDim S130 32 0)))) (broadcastInDim S64x130 ![] bcast_S_S64x130 (constantI S_ 32 2048#32))) (addi (broadcastInDim S64x130 ![0, 1] bcast_S64x1_S64x130_0_1 (broadcastInDim S64x1 ![0] bcast_S64_S64x1_0 lens)) (broadcastInDim S64x130 ![0, 1] bcast_S1x130_S64x130_0_1 (broadcastInDim S1x130 ![1] bcast_S130_S1x130_1 (iotaInDim S130 32 0))))))⟩] concatenates_S64x130x1_S64x130x1_S64x130x2_d2) (concatenate S64x130x128 1 [⟨S64x1x128, (broadcastInDim S64x1x128 ![0, 2] bcast_S64x128_S64x1x128_0_2 sos)⟩, ⟨S64x128x128, (Host.gather gather_S1000x128x128_S64x1_S64x128x128_12_0_n_n_0_1_1128128 labels (broadcastInDim S64x1 ![0] bcast_S64_S64x1_0 (select (cmpi .slt c (broadcastInDim S64 ![] bcast_S_S64 (constantI S_ 32 0#32))) (addi c (broadcastInDim S64 ![] bcast_S_S64 (constantI S_ 32 1000#32))) c)))⟩, ⟨S64x1x128, (broadcastInDim S64x1x128 ![0, 2] bcast_S64x128_S64x1x128_0_2 sos)⟩] concatenates_S64x1x128_S64x128x128_S64x1x128_S64x130x128_d1) := rfl

/-- In range, the reference's second result is the specification's. -/
theorem term55_eq {α : Type} [Cert.ReferenceIdeal.Facts] (tgt : S64x2048x128.Idx → α) (lens c : IVec S64 32)
    (sos : S64x128.Idx → α) (labels : S1000x128x128.Idx → α) (hR : Cert.Spec.InRange lens c) :
    Host.scatter scatter_S64x2048x128_S64x130x2_S64x130x128_2_01_01_2 (fun _ b => b) tgt (concatenate S64x130x2 2 [⟨S64x130x1, (broadcastInDim S64x130x1 ![0, 1] bcast_S64x130_S64x130x1_0_1 (broadcastInDim S64x130 ![0, 1] bcast_S64x1_S64x130_0_1 (select (cmpi .slt (broadcastInDim S64x1 ![0] bcast_S64_S64x1_0 (iotaInDim S64 32 0)) (broadcastInDim S64x1 ![] bcast_S_S64x1 (constantI S_ 32 0#32))) (addi (broadcastInDim S64x1 ![0] bcast_S64_S64x1_0 (iotaInDim S64 32 0)) (broadcastInDim S64x1 ![] bcast_S_S64x1 (constantI S_ 32 64#32))) (broadcastInDim S64x1 ![0] bcast_S64_S64x1_0 (iotaInDim S64 32 0)))))⟩, ⟨S64x130x1, (broadcastInDim S64x130x1 ![0, 1] bcast_S64x130_S64x130x1_0_1 (select (cmpi .slt (addi (broadcastInDim S64x130 ![0, 1] bcast_S64x1_S64x130_0_1 (broadcastInDim S64x1 ![0] bcast_S64_S64x1_0 lens)) (broadcastInDim S64x130 ![0, 1] bcast_S1x130_S64x130_0_1 (broadcastInDim S1x130 ![1] bcast_S130_S1x130_1 (iotaInDim S130 32 0)))) (broadcastInDim S64x130 ![] bcast_S_S64x130 (constantI S_ 32 0#32))) (addi (addi (broadcastInDim S64x130 ![0, 1] bcast_S64x1_S64x130_0_1 (broadcastInDim S64x1 ![0] bcast_S64_S64x1_0 lens)) (broadcastInDim S64x130 ![0, 1] bcast_S1x130_S64x130_0_1 (broadcastInDim S1x130 ![1] bcast_S130_S1x130_1 (iotaInDim S130 32 0)))) (broadcastInDim S64x130 ![] bcast_S_S64x130 (constantI S_ 32 2048#32))) (addi (broadcastInDim S64x130 ![0, 1] bcast_S64x1_S64x130_0_1 (broadcastInDim S64x1 ![0] bcast_S64_S64x1_0 lens)) (broadcastInDim S64x130 ![0, 1] bcast_S1x130_S64x130_0_1 (broadcastInDim S1x130 ![1] bcast_S130_S1x130_1 (iotaInDim S130 32 0))))))⟩] concatenates_S64x130x1_S64x130x1_S64x130x2_d2) (concatenate S64x130x128 1 [⟨S64x1x128, (broadcastInDim S64x1x128 ![0, 2] bcast_S64x128_S64x1x128_0_2 sos)⟩, ⟨S64x128x128, (Host.gather gather_S1000x128x128_S64x1_S64x128x128_12_0_n_n_0_1_1128128 labels (broadcastInDim S64x1 ![0] bcast_S64_S64x1_0 (select (cmpi .slt c (broadcastInDim S64 ![] bcast_S_S64 (constantI S_ 32 0#32))) (addi c (broadcastInDim S64 ![] bcast_S_S64 (constantI S_ 32 1000#32))) c)))⟩, ⟨S64x1x128, (broadcastInDim S64x1x128 ![0, 2] bcast_S64x128_S64x1x128_0_2 sos)⟩] concatenates_S64x1x128_S64x128x128_S64x1x128_S64x130x128_d1)
      = Cert.Spec.toutSpec tgt lens c sos labels := by
  show term55 tgt lens c sos labels = _
  funext j
  obtain ⟨b, p, l, rfl⟩ : ∃ (b : Fin 64) (p : Fin 2048) (l : Fin 128), j = ix3 b p l := ⟨j 0, j 1, j 2, eq_ix3 j⟩
  rw [toutSpec_ix3]
  have hle : (lens (ix1 b)).toNat ≤ 1918 := hR.lens_le b
  have hc : (c (ix1 b)).toNat < 1000 := hR.c_lt b
  have hrow : ∀ b', startRow lens b' + 129 < 2048 := fun b' => by
    have := hR.lens_le b'; show (lens (ix1 b')).toNat + 129 < 2048; omega
  have hS : startRow lens b = (lens (ix1 b)).toNat := rfl
  unfold term55
  rw [Cert.RefScatter.scatter130_apply tgt (idx130 lens) (upd130 c sos labels) (startRow lens) (idx130_batch lens)
    (idx130_pos hR) hrow b p l]
  by_cases h : startRow lens b ≤ p.val ∧ p.val ≤ startRow lens b + 129
  · rw [dif_pos h]
    by_cases h0 : p.val = (lens (ix1 b)).toNat
    · -- the strip's first row
      rw [toutAt_first tgt lens c sos labels b l p h0]
      exact upd130_first c sos labels b _ l (by show p.val - startRow lens b = 0; omega)
    · by_cases h9 : p.val = (lens (ix1 b)).toNat + 129
      · -- its last row
        rw [toutAt_last tgt lens c sos labels b l p h9]
        exact upd130_last c sos labels b _ l (by show p.val - startRow lens b = 128 + 1; omega)
      · -- a row of the page
        have hq : 1 ≤ p.val - startRow lens b := by omega
        have hq' : p.val - startRow lens b - 1 < 128 := by omega
        rw [toutAt_page tgt lens c sos labels b l p (by omega) hc]
        refine (upd130_page hR sos labels b ⟨p.val - startRow lens b, by omega⟩ l hq hq').trans ?_
        have e1 : pageOf c b = ⟨(c (ix1 b)).toNat, hc⟩ := Fin.ext (Nat.mod_eq_of_lt hc)
        rw [e1]
        exact congrArg (fun t => labels (ix3 (⟨(c (ix1 b)).toNat, hc⟩ : Fin 1000) t l))
          (Fin.ext (by show p.val - startRow lens b - 1 = p.val - ((lens (ix1 b)).toNat + 1); omega))
  · rw [dif_neg h]
    exact (toutAt_tgt tgt lens c sos labels b l p (by rw [← hS]; exact h)).symm

end Cert.RefRead

end
-- ==== Proof.RefValue.lean ====
/- The reference's run with its two results named entry by entry: every weakly fair execution ends with the first result
   at xoutSpec and the second at toutSpec of the arguments' launch contents, the arguments unchanged, whenever both word
   vectors are in range on every device. The run gives each result as the operations' composed term; the two readings
   of those terms entry by entry turn them into the specification's functions. -/
import proofs.«414577_j11235634446820_1_alg».proof.Proof.RefRunP
import proofs.«414577_j11235634446820_1_alg».proof.Proof.RefReadX
import proofs.«414577_j11235634446820_1_alg».proof.Proof.RefReadT

noncomputable section

namespace Cert.RefValue

open Cert.ReferenceIdeal Cert.ReferenceIdeal.Gen Idealize.ShloMosaic Idealize.ShloMosaic.TcCoe Idealize.SL.Sem Idealize.ShloMosaic.StableHlo

theorem run {F : FTy → Type} [FloatOps F] (m : (ℓ : Loc nD τ sig) → Buf (Elt F) ℓ) (ρ : Dev nD → PrngReg)
    (hR : ∀ c : Dev nD, Cert.Spec.InRange (m ((c.tc : Thread nD τ).loc main_arg2)) (m ((c.tc : Thread nD τ).loc main_arg3))) :
    θ_run defs (onTc (τ := τ) (main (F := F))) ⟨m, fun _ => 0, ρ⟩ fun r => ∀ c : Dev nD,
      r.2.mem ((c.tc : Thread nD τ).loc main_v57) = Cert.Spec.xoutSpec (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v55) = Cert.Spec.toutSpec (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg5) = m ((c.tc : Thread nD τ).loc main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Cert.RefRead.term57_eq _ (hR c) _ _),
    (h c).2.1.trans (Cert.RefRead.term55_eq _ _ _ _ _ (hR c)), (h c).2.2⟩) (Cert.ReferenceIdeal.ValueP.run m ρ)

end Cert.RefValue

end
-- ==== Proof.lean ====
/- The kernel against its reference, over the extended reals.

   For every batch b the reference writes a strip of 130 rows — sos[b], the 128 rows of page c[b] of the label table,
   sos[b] again — at row lens[b] of the target, the first 129 rows of the same strip at row lens[b] of x, and then puts
   sos[b] in front of x. The kernel runs one grid point per batch: it fetches x[b], tgt[b], all of sos and the page
   labels[c[b]] (the page chosen by the prefetched word c[b]), copies x[b] one row down under a leading sos[b] and tgt[b]
   as it is, and then overwrites the strip's rows at offsets computed from the prefetched word lens[b]. No entry is ever
   computed with: every entry of either result is an entry of one argument, so the two programs agree at every float
   instance, and finiteness of the inputs is never used.

   Both programs index with the integer inputs, and the statement adds to the precondition the range in which the
   reference's own indexing is inside its arrays: 0 ≤ lens[b] ≤ 1918 (the strip's last row lens[b] + 129 is a row of the
   target) and 0 ≤ c[b] < 1000 (a page of the table). In that range the reference's wrap of negative indices and its
   clamp are idle and no scattered update is dropped; and the side conditions under which the kernel's run is stated —
   page c[b] inside the table, the stored rows inside the two result blocks — hold.

   The proof: the precondition read at a batch (PreDecode); the kernel's run at any float instance, with what it leaves
   in the two result arrays named (KIKit, KIRun, KIFrame, and the same for the word-level program) and its side
   conditions from the range (KIHyps); the two result arrays entry by entry (KIBlocks, KIPay, KIValue) and the
   reference's (RefRunP, RefScatter, RefRead, RefValue) — both are the functions of Spec. -/
import proofs.«414577_j11235634446820_1_alg».proof.Defs
import proofs.«414577_j11235634446820_1_alg».proof.Proof.Gen.Kernel
import proofs.«414577_j11235634446820_1_alg».proof.Proof.Gen.KernelIdeal
import proofs.«414577_j11235634446820_1_alg».proof.Proof.Gen.ReferenceIdeal
import proofs.«414577_j11235634446820_1_alg».proof.Proof.Gen.Pre_finite_inputs
import proofs.«414577_j11235634446820_1_alg».proof.Proof.PreDecode
import proofs.«414577_j11235634446820_1_alg».proof.Proof.KFrame
import proofs.«414577_j11235634446820_1_alg».proof.Proof.KHyps
import proofs.«414577_j11235634446820_1_alg».proof.Proof.KIFrame
import proofs.«414577_j11235634446820_1_alg».proof.Proof.KIHyps
import proofs.«414577_j11235634446820_1_alg».proof.Proof.KIValue
import proofs.«414577_j11235634446820_1_alg».proof.Proof.RefValue
import Idealize.ShloMosaic.Adequacy
import Idealize.ShloMosaic.Init

noncomputable section

namespace Cert.Proof

open Idealize.ShloMosaic Idealize.SL.Sem

/-- The word-level kernel runs and keeps its arguments: its run under the two side conditions, which the range gives. -/
theorem frame_kernel : Cert.frame_Kernel := fun m ρ h =>
  have hR := Cert.PreDecode.inRange_of_pre _ _ _ _ _ _ (h 0)
  Cert.Kernel.Fr.frame m ρ (Cert.Kernel.Fr.ok_of_range m hR) (Cert.Kernel.Fr.hyps_of_range m hR _)

/-- The same for the kernel read over the extended reals. -/
theorem frame_kernelIdeal : Cert.frame_KernelIdeal := fun m ρ h =>
  have hR := Cert.PreDecode.inRange_of_pre _ _ _ _ _ _ (h 0)
  Cert.KernelIdeal.Fr.frame m ρ (Cert.KernelIdeal.Fr.ok_of_range m hR) (Cert.KernelIdeal.Fr.hyps_of_range m hR _)

/-- The reference runs and keeps its arguments: its run with the results dropped. -/
theorem frame_reference : Cert.frame_ReferenceIdeal := fun m ρ h =>
  (θ_run Cert.ReferenceIdeal.defs _ _).mono (fun _ hq c => (hq c).2.2.2)
    (Cert.RefValue.run (F := Ideal) m ρ fun c => Cert.PreDecode.inRange_of_pre _ _ _ _ _ _ (h c))

/-- Both programs end with the three results at the same values: the two functions of Spec of the arguments, and the
    label table itself. -/
theorem algebraic : Cert.algebraic_KernelIdeal_ReferenceIdeal := fun m ρ m' ρ' h hagree => by
  have hR := fun c => Cert.PreDecode.inRange_of_pre _ _ _ _ _ _ (h c)
  have hR' : ∀ c : Dev Cert.ReferenceIdeal.nD, Cert.Spec.InRange (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) := fun c => by
    rw [(hagree c).2.2.1, (hagree c).2.2.2.1]; exact hR c
  refine ⟨fun c => Cert.Spec.xoutSpec (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.toutSpec (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => m ((c.tc : Thread Cert.KernelIdeal.nD Cert.KernelIdeal.τ).loc Cert.KernelIdeal.main_arg5), ?_, ?_⟩
  · exact (θ_run Cert.KernelIdeal.defs _ _).mono (fun _ hq c => ⟨(hq c).1, (hq c).2.1, (hq c).2.2.2.2.2.2.2, (hq c).2.2⟩)
      (Cert.KernelIdeal.Fr.run_value (F := Ideal) m ρ (hR 0))
  · refine (θ_run Cert.ReferenceIdeal.defs _ _).mono (fun _ hq c => ⟨?_, ?_, ?_, (hq c).2.2.2⟩) (Cert.RefValue.run (F := Ideal) m' ρ' hR')
    · rw [(hq c).1, (hagree c).1, (hagree c).2.2.1, (hagree c).2.2.2.1, (hagree c).2.2.2.2.1, (hagree c).2.2.2.2.2]
    · rw [(hq c).2.1, (hagree c).2.1, (hagree c).2.2.1, (hagree c).2.2.2.1, (hagree c).2.2.2.2.1, (hagree c).2.2.2.2.2]
    · rw [(hq c).2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
